-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x128x9 : Shape := ⟨4, ![256, 128, 128, 9]⟩
abbrev S256x128 : Shape := ⟨2, ![256, 128]⟩
abbrev S256x3 : Shape := ⟨2, ![256, 3]⟩
abbrev S_ : Shape := ⟨0, ![]⟩

class Facts : Prop where
  bcast_S_S256x128x128x9 : S_.BroadcastsInDim S256x128x128x9 (![] : Fin 0 → Fin S256x128x128x9.rank)
  reducesTo_S256x128x128x9_S_d0_1_2_3 : S256x128x128x9.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg2 : IVec S256x128 32) (main_v15 : IVec S_ 1) : IVec S_ 1 :=
  let main_c_6 : IVec S_ 32 := constantI S_ 32 128#32
  let main_v16 : IVec S256x128 32 := broadcastInDim S256x128 ![] bcast_S_S256x128 main_c_6
  let main_v17 : IVec S256x128 1 := cmpi .slt main_arg2 main_v16
  let main_c_7 : IVec S_ 1 := constantI S_ 1 1#1
  let main_v18 : IVec S_ 1 := (fun x v => Host.reduce IntOp.andi x v reducesTo_S256x128_S_d0_1 h_S_) main_v17 main_c_7
  let main_v19 : IVec S_ 1 := andi main_v15 main_v18
  main_v19

def fn {F : FTy → Type} [FloatOps F] (main_arg0 : FVec F S256x128x128x9 .f32) (main_arg1 : IVec S256x128 32) (main_arg2 : IVec S256x128 32) (main_arg3 : IVec S256x3 32) : IVec S_ 1 :=
  let main_v0 : FVec F S256x128x128x9 .f32 := Host.absf main_arg0
  let main_cst : FVec F S_ .f32 := constant S_ .f32 0x7F800000#32
  let main_v1 : FVec F S256x128x128x9 .f32 := broadcastInDim S256x128x128x9 ![] bcast_S_S256x128x128x9 main_cst
  let main_v2 : IVec S256x128x128x9 1 := cmpf .olt main_v0 main_v1
  let main_c : IVec S_ 1 := constantI S_ 1 1#1
  let main_v3 : IVec S_ 1 := (fun x v => Host.reduce IntOp.andi x v reducesTo_S256x128x128x9_S_d0_1_2_3 h_S_) main_v2 main_c
  let main_c_0 : IVec S_ 32 := constantI S_ 32 0#32
  let main_v4 : IVec S256x128 32 := broadcastInDim S256x128 ![] bcast_S_S256x128 main_c_0
  let main_v5 : IVec S256x128 1 := cmpi .sge main_arg1 main_v4
  let main_c_1 : IVec S_ 1 := constantI S_ 1 1#1
  let main_v6 : IVec S_ 1 := (fun x v => Host.reduce IntOp.andi x v reducesTo_S256x128_S_d0_1 h_S_) main_v5 main_c_1
  let main_v7 : IVec S_ 1 := andi main_v3 main_v6
  let main_c_2 : IVec S_ 32 := constantI S_ 32 128#32
  let main_v8 : IVec S256x128 32 := broadcastInDim S256x128 ![] bcast_S_S256x128 main_c_2
  let main_v9 : IVec S256x128 1 := cmpi .slt main_arg1 main_v8
  let main_c_3 : IVec S_ 1 := constantI S_ 1 1#1
  let main_v10 : IVec S_ 1 := (fun x v => Host.reduce IntOp.andi x v reducesTo_S256x128_S_d0_1 h_S_) main_v9 main_c_3
  let main_v11 : IVec S_ 1 := andi main_v7 main_v10
  let main_c_4 : IVec S_ 32 := constantI S_ 32 0#32
  let main_v12 : IVec S256x128 32 := broadcastInDim S256x128 ![] bcast_S_S256x128 main_c_4
  let main_v13 : IVec S256x128 1 := cmpi .sge main_arg2 main_v12
  let main_c_5 : IVec S_ 1 := constantI S_ 1 1#1
  let main_v14 : IVec S_ 1 := (fun x v => Host.reduce IntOp.andi x v reducesTo_S256x128_S_d0_1 h_S_) main_v13 main_c_5
  let main_v15 : IVec S_ 1 := andi main_v11 main_v14
  fn_part1 (F := F) main_arg2 main_v15
-- ==== Kernel.lean ====
abbrev S256x128x128x9 : Shape := ⟨4, ![256, 128, 128, 9]⟩
abbrev S256x128 : Shape := ⟨2, ![256, 128]⟩
abbrev S256x3 : Shape := ⟨2, ![256, 3]⟩
abbrev S9 : Shape := ⟨1, ![9]⟩
abbrev S256x1 : Shape := ⟨2, ![256, 1]⟩
abbrev S_ : Shape := ⟨0, ![]⟩
abbrev S1x9 : Shape := ⟨2, ![1, 9]⟩
abbrev S256x9 : Shape := ⟨2, ![256, 9]⟩
abbrev S9x1 : Shape := ⟨2, ![9, 1]⟩
abbrev S256x9x1 : Shape := ⟨3, ![256, 9, 1]⟩
abbrev S1x1x9 : Shape := ⟨3, ![1, 1, 9]⟩
abbrev S256x9x9 : Shape := ⟨3, ![256, 9, 9]⟩
abbrev S256x128x1152 : Shape := ⟨3, ![256, 128, 1152]⟩
abbrev S256x128x1 : Shape := ⟨3, ![256, 128, 1]⟩
abbrev S256x1x128 : Shape := ⟨3, ![256, 1, 128]⟩
abbrev S1x128x1152 : Shape := ⟨3, ![1, 128, 1152]⟩
abbrev S1x128x1 : Shape := ⟨3, ![1, 128, 1]⟩
abbrev S1x1x128 : Shape := ⟨3, ![1, 1, 128]⟩
abbrev S1x9x9 : Shape := ⟨3, ![1, 9, 9]⟩
abbrev S1x128x128 : Shape := ⟨3, ![1, 128, 128]⟩
abbrev S128x128 : Shape := ⟨2, ![128, 128]⟩
abbrev S128x1152 : Shape := ⟨2, ![128, 1152]⟩
abbrev S1x128x128x9 : Shape := ⟨4, ![1, 128, 128, 9]⟩
abbrev S1x9x128x128 : Shape := ⟨4, ![1, 9, 128, 128]⟩
abbrev S1x1152x128 : Shape := ⟨3, ![1, 1152, 128]⟩
abbrev S1152x128 : Shape := ⟨2, ![1152, 128]⟩
abbrev S1x1x128x128 : Shape := ⟨4, ![1, 1, 128, 128]⟩
abbrev S1x1x1 : Shape := ⟨3, ![1, 1, 1]⟩
abbrev S1 : Shape := ⟨1, ![1]⟩

abbrev nBuf : Space → Nat
  | .hbm => 59
  | .vmem => 10
  | .smem => 0
  | _ => 0

abbrev bufTy : (tb : Table) → Fin (tcTables nBuf tb) → BufTy
  | .hbm, ⟨0, _⟩ => ⟨S256x128x128x9, .f32⟩
  | .hbm, ⟨1, _⟩ => ⟨S256x128, .i32⟩
  | .hbm, ⟨2, _⟩ => ⟨S256x128, .i32⟩
  | .hbm, ⟨3, _⟩ => ⟨S256x3, .i32⟩
  | .hbm, ⟨4, _⟩ => ⟨S9, .i32⟩
  | .hbm, ⟨5, _⟩ => ⟨S9, .i32⟩
  | .hbm, ⟨6, _⟩ => ⟨S9, .i32⟩
  | .hbm, ⟨7, _⟩ => ⟨S9, .i32⟩
  | .hbm, ⟨8, _⟩ => ⟨S256x1, .i32⟩
  | .hbm, ⟨9, _⟩ => ⟨S_, .i32⟩
  | .hbm, ⟨10, _⟩ => ⟨S256x1, .i32⟩
  | .hbm, ⟨11, _⟩ => ⟨S256x1, .i1⟩
  | .hbm, ⟨12, _⟩ => ⟨S1x9, .i32⟩
  | .hbm, ⟨13, _⟩ => ⟨S1x9, .i32⟩
  | .hbm, ⟨14, _⟩ => ⟨S256x9, .i1⟩
  | .hbm, ⟨15, _⟩ => ⟨S256x9, .i32⟩
  | .hbm, ⟨16, _⟩ => ⟨S256x9, .i32⟩
  | .hbm, ⟨17, _⟩ => ⟨S256x9, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S_, .i32⟩
  | .hbm, ⟨23, _⟩ => ⟨S9, .i32⟩
  | .hbm, ⟨24, _⟩ => ⟨S9, .i1⟩
  | .hbm, ⟨25, _⟩ => ⟨S_, .i32⟩
  | .hbm, ⟨26, _⟩ => ⟨S9, .i32⟩
  | .hbm, ⟨27, _⟩ => ⟨S9, .i32⟩
  | .hbm, ⟨28, _⟩ => ⟨S9, .i32⟩
  | .hbm, ⟨29, _⟩ => ⟨S9x1, .i32⟩
  | .hbm, ⟨30, _⟩ => ⟨S256x9, .i32⟩
  | .hbm, ⟨31, _⟩ => ⟨S256x9, .i1⟩
  | .hbm, ⟨32, _⟩ => ⟨S256x9, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S_, .i32⟩
  | .hbm, ⟨38, _⟩ => ⟨S9, .i32⟩
  | .hbm, ⟨39, _⟩ => ⟨S9, .i1⟩
  | .hbm, ⟨40, _⟩ => ⟨S_, .i32⟩
  | .hbm, ⟨41, _⟩ => ⟨S9, .i32⟩
  | .hbm, ⟨42, _⟩ => ⟨S9, .i32⟩
  | .hbm, ⟨43, _⟩ => ⟨S9, .i32⟩
  | .hbm, ⟨44, _⟩ => ⟨S9x1, .i32⟩
  | .hbm, ⟨45, _⟩ => ⟨S256x9, .i32⟩
  | .hbm, ⟨46, _⟩ => ⟨S256x9, .i1⟩
  | .hbm, ⟨47, _⟩ => ⟨S256x9, .i32⟩
  | .hbm, ⟨48, _⟩ => ⟨S256x9x1, .i32⟩
  | .hbm, ⟨49, _⟩ => ⟨S1x1x9, .i32⟩
  | .hbm, ⟨50, _⟩ => ⟨S256x9x9, .i32⟩
  | .hbm, ⟨51, _⟩ => ⟨S256x9x9, .i32⟩
  | .hbm, ⟨52, _⟩ => ⟨S256x9x9, .i1⟩
  | .hbm, ⟨53, _⟩ => ⟨S256x9x9, .f32⟩
  | .hbm, ⟨54, _⟩ => ⟨S256x128x1152, .f32⟩
  | .hbm, ⟨55, _⟩ => ⟨S256x128x1, .i32⟩
  | .hbm, ⟨56, _⟩ => ⟨S256x1x128, .i32⟩
  | .hbm, ⟨57, _⟩ => ⟨S256x128x1152, .f32⟩
  | .hbm, ⟨58, _⟩ => ⟨S256x128x128x9, .f32⟩
  | .local _ .vmem, ⟨0, _⟩ => ⟨S1x128x1152, .f32⟩
  | .local _ .vmem, ⟨1, _⟩ => ⟨S1x128x1152, .f32⟩
  | .local _ .vmem, ⟨2, _⟩ => ⟨S1x128x1, .i32⟩
  | .local _ .vmem, ⟨3, _⟩ => ⟨S1x128x1, .i32⟩
  | .local _ .vmem, ⟨4, _⟩ => ⟨S1x1x128, .i32⟩
  | .local _ .vmem, ⟨5, _⟩ => ⟨S1x1x128, .i32⟩
  | .local _ .vmem, ⟨6, _⟩ => ⟨S1x9x9, .f32⟩
  | .local _ .vmem, ⟨7, _⟩ => ⟨S1x9x9, .f32⟩
  | .local _ .vmem, ⟨8, _⟩ => ⟨S1x128x1152, .f32⟩
  | .local _ .vmem, ⟨9, _⟩ => ⟨S1x128x1152, .f32⟩
  | _, _ => ⟨S256x128x128x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_c_2 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_c_4 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_c_7 : Ref sig .tc := ⟨.hbm, 37, rfl⟩
abbrev main_v21 : Ref sig .tc := ⟨.hbm, 38, rfl⟩
abbrev main_v22 : Ref sig .tc := ⟨.hbm, 39, rfl⟩
abbrev main_c_8 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call2_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S256x3_S256x1_0_0 : S256x3.Slices ![0, 0] S256x1
  bcast_S_S256x1 : S_.BroadcastsInDim S256x1 (![] : Fin 0 → Fin S256x1.rank)
  bcast_S9_S1x9_1 : S9.BroadcastsInDim S1x9 (![1] : Fin 1 → Fin S1x9.rank)
  bcast_S256x1_S256x9_0_1 : S256x1.BroadcastsInDim S256x9 (![0, 1] : Fin 2 → Fin S256x9.rank)
  bcast_S1x9_S256x9_0_1 : S1x9.BroadcastsInDim S256x9 (![0, 1] : Fin 2 → Fin S256x9.rank)
  slices_S256x3_S256x1_0_1 : S256x3.Slices ![0, 1] S256x1
  bcast_S_S9 : S_.BroadcastsInDim S9 (![] : Fin 0 → Fin S9.rank)
  bcast_S9_S9x1_0 : S9.BroadcastsInDim S9x1 (![0] : Fin 1 → Fin S9x1.rank)
  slices_S256x3_S256x1_0_2 : S256x3.Slices ![0, 2] S256x1
  bcast_S256x9_S256x9x1_0_1 : S256x9.BroadcastsInDim S256x9x1 (![0, 1] : Fin 2 → Fin S256x9x1.rank)
  bcast_S9_S1x1x9_2 : S9.BroadcastsInDim S1x1x9 (![2] : Fin 1 → Fin S1x1x9.rank)
  bcast_S256x9x1_S256x9x9_0_1_2 : S256x9x1.BroadcastsInDim S256x9x9 (![0, 1, 2] : Fin 3 → Fin S256x9x9.rank)
  bcast_S1x1x9_S256x9x9_0_1_2 : S1x1x9.BroadcastsInDim S256x9x9 (![0, 1, 2] : Fin 3 → Fin S256x9x9.rank)
  shapeCasts_S256x128x128x9_S256x128x1152 : S256x128x128x9.ShapeCasts S256x128x1152
  bcast_S256x128_S256x128x1_0_1 : S256x128.BroadcastsInDim S256x128x1 (![0, 1] : Fin 2 → Fin S256x128x1.rank)
  bcast_S256x128_S256x1x128_0_2 : S256x128.BroadcastsInDim S256x1x128 (![0, 2] : Fin 2 → Fin S256x1x128.rank)
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  iota_S1x128x128_d2_w32 : S1x128x128.Iotas .tc 32 [2]
  broadcasts_S1x128x1_S1x128x128 : S1x128x1.Broadcasts S1x128x128
  natLt_1_32 : 1 < 32
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  iota_S1x128x128_d1_w32 : S1x128x128.Iotas .tc 32 [1]
  broadcasts_S1x1x128_S1x128x128 : S1x1x128.Broadcasts S1x128x128
  inb_S1x9x9_S1x9x9_0_0_0 : ∀ a, (![0, 0, 0] : Fin 3 → Nat) a + S1x9x9.size a ≤ S1x9x9.size a
  h_S1x9x9 : 0 < S1x9x9.numel
  shapeCasts_S1x9x9_S1x9x9 : S1x9x9.ShapeCasts S1x9x9
  inb_S1x128x1152_S1x128x1152_0_0_0 : ∀ a, (![0, 0, 0] : Fin 3 → Nat) a + S1x128x1152.size a ≤ S1x128x1152.size a
  h_S1x128x1152 : 0 < S1x128x1152.numel
  shapeCasts_S1x128x1152_S1x128x1152 : S1x128x1152.ShapeCasts S1x128x1152
  shapeCasts_S1x128x128_S128x128 : S1x128x128.ShapeCasts S128x128
  shapeCasts_S1x128x1152_S128x1152 : S1x128x1152.ShapeCasts S128x1152
  shapeCasts_S128x1152_S1x128x1152 : S128x1152.ShapeCasts S1x128x1152
  shapeCasts_S1x128x1152_S1x128x128x9 : S1x128x1152.ShapeCasts S1x128x128x9
  transposes_S1x128x128x9_p0_3_1_2_S1x9x128x128 : S1x128x128x9.Transposes [0, 3, 1, 2] S1x9x128x128
  shapeCasts_S1x9x128x128_S1x1152x128 : S1x9x128x128.ShapeCasts S1x1152x128
  shapeCasts_S1x1152x128_S1152x128 : S1x1152x128.ShapeCasts S1152x128
  shapeCasts_S1152x128_S1x1152x128 : S1152x128.ShapeCasts S1x1152x128
  shapeCasts_S1x1152x128_S1x9x128x128 : S1x1152x128.ShapeCasts S1x9x128x128
  slices_S1x9x128x128_o0_0_0_0_S1x1x128x128 : S1x9x128x128.Slices ![0, 0, 0, 0] S1x1x128x128
  shapeCasts_S1x1x128x128_S1x128x128 : S1x1x128x128.ShapeCasts S1x128x128
  slices_S1x9x128x128_o0_1_0_0_S1x1x128x128 : S1x9x128x128.Slices ![0, 1, 0, 0] S1x1x128x128
  slices_S1x9x128x128_o0_2_0_0_S1x1x128x128 : S1x9x128x128.Slices ![0, 2, 0, 0] S1x1x128x128
  slices_S1x9x128x128_o0_3_0_0_S1x1x128x128 : S1x9x128x128.Slices ![0, 3, 0, 0] S1x1x128x128
  slices_S1x9x128x128_o0_4_0_0_S1x1x128x128 : S1x9x128x128.Slices ![0, 4, 0, 0] S1x1x128x128
  slices_S1x9x128x128_o0_5_0_0_S1x1x128x128 : S1x9x128x128.Slices ![0, 5, 0, 0] S1x1x128x128
  slices_S1x9x128x128_o0_6_0_0_S1x1x128x128 : S1x9x128x128.Slices ![0, 6, 0, 0] S1x1x128x128
  slices_S1x9x128x128_o0_7_0_0_S1x1x128x128 : S1x9x128x128.Slices ![0, 7, 0, 0] S1x1x128x128
  slices_S1x9x128x128_o0_8_0_0_S1x1x128x128 : S1x9x128x128.Slices ![0, 8, 0, 0] S1x1x128x128
  slices_S1x9x9_o0_0_0_S1x1x1 : S1x9x9.Slices ![0, 0, 0] S1x1x1
  shapeCasts_S1x1x1_S1 : S1x1x1.ShapeCasts S1
  shapeCasts_S1_S1x1x1 : S1.ShapeCasts S1x1x1
  broadcasts_S1x1x1_S1x128x128 : S1x1x1.Broadcasts S1x128x128
  slices_S1x9x9_o0_0_1_S1x1x1 : S1x9x9.Slices ![0, 0, 1] S1x1x1
  slices_S1x9x9_o0_0_2_S1x1x1 : S1x9x9.Slices ![0, 0, 2] S1x1x1
  slices_S1x9x9_o0_0_3_S1x1x1 : S1x9x9.Slices ![0, 0, 3] S1x1x1
  slices_S1x9x9_o0_0_4_S1x1x1 : S1x9x9.Slices ![0, 0, 4] S1x1x1
  slices_S1x9x9_o0_0_5_S1x1x1 : S1x9x9.Slices ![0, 0, 5] S1x1x1
  slices_S1x9x9_o0_0_6_S1x1x1 : S1x9x9.Slices ![0, 0, 6] S1x1x1
  slices_S1x9x9_o0_0_7_S1x1x1 : S1x9x9.Slices ![0, 0, 7] S1x1x1
  slices_S1x9x9_o0_0_8_S1x1x1 : S1x9x9.Slices ![0, 0, 8] S1x1x1
  slices_S1x9x9_o0_1_0_S1x1x1 : S1x9x9.Slices ![0, 1, 0] S1x1x1
  slices_S1x9x9_o0_1_1_S1x1x1 : S1x9x9.Slices ![0, 1, 1] S1x1x1
  slices_S1x9x9_o0_1_2_S1x1x1 : S1x9x9.Slices ![0, 1, 2] S1x1x1
  slices_S1x9x9_o0_1_3_S1x1x1 : S1x9x9.Slices ![0, 1, 3] S1x1x1
  slices_S1x9x9_o0_1_4_S1x1x1 : S1x9x9.Slices ![0, 1, 4] S1x1x1
  slices_S1x9x9_o0_1_5_S1x1x1 : S1x9x9.Slices ![0, 1, 5] S1x1x1
  slices_S1x9x9_o0_1_6_S1x1x1 : S1x9x9.Slices ![0, 1, 6] S1x1x1
  slices_S1x9x9_o0_1_7_S1x1x1 : S1x9x9.Slices ![0, 1, 7] S1x1x1
  slices_S1x9x9_o0_1_8_S1x1x1 : S1x9x9.Slices ![0, 1, 8] S1x1x1
  slices_S1x9x9_o0_2_0_S1x1x1 : S1x9x9.Slices ![0, 2, 0] S1x1x1
  slices_S1x9x9_o0_2_1_S1x1x1 : S1x9x9.Slices ![0, 2, 1] S1x1x1
  slices_S1x9x9_o0_2_2_S1x1x1 : S1x9x9.Slices ![0, 2, 2] S1x1x1
  slices_S1x9x9_o0_2_3_S1x1x1 : S1x9x9.Slices ![0, 2, 3] S1x1x1
  slices_S1x9x9_o0_2_4_S1x1x1 : S1x9x9.Slices ![0, 2, 4] S1x1x1
  slices_S1x9x9_o0_2_5_S1x1x1 : S1x9x9.Slices ![0, 2, 5] S1x1x1
  slices_S1x9x9_o0_2_6_S1x1x1 : S1x9x9.Slices ![0, 2, 6] S1x1x1
  slices_S1x9x9_o0_2_7_S1x1x1 : S1x9x9.Slices ![0, 2, 7] S1x1x1
  slices_S1x9x9_o0_2_8_S1x1x1 : S1x9x9.Slices ![0, 2, 8] S1x1x1
  slices_S1x9x9_o0_3_0_S1x1x1 : S1x9x9.Slices ![0, 3, 0] S1x1x1
  slices_S1x9x9_o0_3_1_S1x1x1 : S1x9x9.Slices ![0, 3, 1] S1x1x1
  slices_S1x9x9_o0_3_2_S1x1x1 : S1x9x9.Slices ![0, 3, 2] S1x1x1
  slices_S1x9x9_o0_3_3_S1x1x1 : S1x9x9.Slices ![0, 3, 3] S1x1x1
  slices_S1x9x9_o0_3_4_S1x1x1 : S1x9x9.Slices ![0, 3, 4] S1x1x1
  slices_S1x9x9_o0_3_5_S1x1x1 : S1x9x9.Slices ![0, 3, 5] S1x1x1
  slices_S1x9x9_o0_3_6_S1x1x1 : S1x9x9.Slices ![0, 3, 6] S1x1x1
  slices_S1x9x9_o0_3_7_S1x1x1 : S1x9x9.Slices ![0, 3, 7] S1x1x1
  slices_S1x9x9_o0_3_8_S1x1x1 : S1x9x9.Slices ![0, 3, 8] S1x1x1
  slices_S1x9x9_o0_4_0_S1x1x1 : S1x9x9.Slices ![0, 4, 0] S1x1x1
  slices_S1x9x9_o0_4_1_S1x1x1 : S1x9x9.Slices ![0, 4, 1] S1x1x1
  slices_S1x9x9_o0_4_2_S1x1x1 : S1x9x9.Slices ![0, 4, 2] S1x1x1
  slices_S1x9x9_o0_4_3_S1x1x1 : S1x9x9.Slices ![0, 4, 3] S1x1x1
  slices_S1x9x9_o0_4_4_S1x1x1 : S1x9x9.Slices ![0, 4, 4] S1x1x1
  slices_S1x9x9_o0_4_5_S1x1x1 : S1x9x9.Slices ![0, 4, 5] S1x1x1
  slices_S1x9x9_o0_4_6_S1x1x1 : S1x9x9.Slices ![0, 4, 6] S1x1x1
  slices_S1x9x9_o0_4_7_S1x1x1 : S1x9x9.Slices ![0, 4, 7] S1x1x1
  slices_S1x9x9_o0_4_8_S1x1x1 : S1x9x9.Slices ![0, 4, 8] S1x1x1
  slices_S1x9x9_o0_5_0_S1x1x1 : S1x9x9.Slices ![0, 5, 0] S1x1x1
  slices_S1x9x9_o0_5_1_S1x1x1 : S1x9x9.Slices ![0, 5, 1] S1x1x1
  slices_S1x9x9_o0_5_2_S1x1x1 : S1x9x9.Slices ![0, 5, 2] S1x1x1
  slices_S1x9x9_o0_5_3_S1x1x1 : S1x9x9.Slices ![0, 5, 3] S1x1x1
  slices_S1x9x9_o0_5_4_S1x1x1 : S1x9x9.Slices ![0, 5, 4] S1x1x1
  slices_S1x9x9_o0_5_5_S1x1x1 : S1x9x9.Slices ![0, 5, 5] S1x1x1
  slices_S1x9x9_o0_5_6_S1x1x1 : S1x9x9.Slices ![0, 5, 6] S1x1x1
  slices_S1x9x9_o0_5_7_S1x1x1 : S1x9x9.Slices ![0, 5, 7] S1x1x1
  slices_S1x9x9_o0_5_8_S1x1x1 : S1x9x9.Slices ![0, 5, 8] S1x1x1
  slices_S1x9x9_o0_6_0_S1x1x1 : S1x9x9.Slices ![0, 6, 0] S1x1x1
  slices_S1x9x9_o0_6_1_S1x1x1 : S1x9x9.Slices ![0, 6, 1] S1x1x1
  slices_S1x9x9_o0_6_2_S1x1x1 : S1x9x9.Slices ![0, 6, 2] S1x1x1
  slices_S1x9x9_o0_6_3_S1x1x1 : S1x9x9.Slices ![0, 6, 3] S1x1x1
  slices_S1x9x9_o0_6_4_S1x1x1 : S1x9x9.Slices ![0, 6, 4] S1x1x1
  slices_S1x9x9_o0_6_5_S1x1x1 : S1x9x9.Slices ![0, 6, 5] S1x1x1
  slices_S1x9x9_o0_6_6_S1x1x1 : S1x9x9.Slices ![0, 6, 6] S1x1x1
  slices_S1x9x9_o0_6_7_S1x1x1 : S1x9x9.Slices ![0, 6, 7] S1x1x1
  slices_S1x9x9_o0_6_8_S1x1x1 : S1x9x9.Slices ![0, 6, 8] S1x1x1
  slices_S1x9x9_o0_7_0_S1x1x1 : S1x9x9.Slices ![0, 7, 0] S1x1x1
  slices_S1x9x9_o0_7_1_S1x1x1 : S1x9x9.Slices ![0, 7, 1] S1x1x1
  slices_S1x9x9_o0_7_2_S1x1x1 : S1x9x9.Slices ![0, 7, 2] S1x1x1
  slices_S1x9x9_o0_7_3_S1x1x1 : S1x9x9.Slices ![0, 7, 3] S1x1x1
  slices_S1x9x9_o0_7_4_S1x1x1 : S1x9x9.Slices ![0, 7, 4] S1x1x1
  slices_S1x9x9_o0_7_5_S1x1x1 : S1x9x9.Slices ![0, 7, 5] S1x1x1
  slices_S1x9x9_o0_7_6_S1x1x1 : S1x9x9.Slices ![0, 7, 6] S1x1x1
  slices_S1x9x9_o0_7_7_S1x1x1 : S1x9x9.Slices ![0, 7, 7] S1x1x1
  slices_S1x9x9_o0_7_8_S1x1x1 : S1x9x9.Slices ![0, 7, 8] S1x1x1
  slices_S1x9x9_o0_8_0_S1x1x1 : S1x9x9.Slices ![0, 8, 0] S1x1x1
  slices_S1x9x9_o0_8_1_S1x1x1 : S1x9x9.Slices ![0, 8, 1] S1x1x1
  slices_S1x9x9_o0_8_2_S1x1x1 : S1x9x9.Slices ![0, 8, 2] S1x1x1
  slices_S1x9x9_o0_8_3_S1x1x1 : S1x9x9.Slices ![0, 8, 3] S1x1x1
  slices_S1x9x9_o0_8_4_S1x1x1 : S1x9x9.Slices ![0, 8, 4] S1x1x1
  slices_S1x9x9_o0_8_5_S1x1x1 : S1x9x9.Slices ![0, 8, 5] S1x1x1
  slices_S1x9x9_o0_8_6_S1x1x1 : S1x9x9.Slices ![0, 8, 6] S1x1x1
  slices_S1x9x9_o0_8_7_S1x1x1 : S1x9x9.Slices ![0, 8, 7] S1x1x1
  slices_S1x9x9_o0_8_8_S1x1x1 : S1x9x9.Slices ![0, 8, 8] S1x1x1
  shapeCasts_S1x128x128_S1x1x128x128 : S1x128x128.ShapeCasts S1x1x128x128
  concatenates_S1x1x128x128_S1x1x128x128_S1x1x128x128_S1x1x128x128_S1x1x128x128_S1x1x128x128_S1x1x128x128_S1x1x128x128_S1x1x128x128_S1x9x128x128_d1 : Shape.Concatenates [S1x1x128x128, S1x1x128x128, S1x1x128x128, S1x1x128x128, S1x1x128x128, S1x1x128x128, S1x1x128x128, S1x1x128x128, S1x1x128x128] S1x9x128x128 1
  transposes_S1x9x128x128_p0_2_3_1_S1x128x128x9 : S1x9x128x128.Transposes [0, 2, 3, 1] S1x128x128x9
  shapeCasts_S1x128x128x9_S1x128x1152 : S1x128x128x9.ShapeCasts S1x128x1152
  shapeCasts_S256x128x1152_S256x128x128x9 : S256x128x1152.ShapeCasts S256x128x128x9
  gather_S256x9_S9x1_S256x9_0_1_n_n_1_1_2561_wf : GatherDims.WF S256x9 S9x1 S256x9 [0] [1] [] [1] [] 1 ![256, 1]
  dot_S128x128_S128x1152_S128x1152_1_0_0_1_n_n_wf : DotDims.WF S128x128 S128x1152 S128x1152 [1] [0] [0] [1] [] []
  dot_S1152x128_S128x128_S1152x128_1_0_0_1_n_n_wf : DotDims.WF S1152x128 S128x128 S1152x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1152.size a ≤ S256x128x1152.size a
  hwx0_0 : ∀ i : grid0.Coords, EltTy.bits .f32 = 32 ∨ (Rect.block (s := S256x128x1152) S1x128x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S256x128x1.size a
  hwx0_1 : ∀ i : grid0.Coords, EltTy.bits .i32 = 32 ∨ (Rect.block (s := S256x128x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S256x1x128.size a
  hwx0_2 : ∀ i : grid0.Coords, EltTy.bits .i32 = 32 ∨ (Rect.block (s := S256x1x128) S1x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x9x9.size a ≤ S256x9x9.size a
  hwx0_3 : ∀ i : grid0.Coords, EltTy.bits .f32 = 32 ∨ (Rect.block (s := S256x9x9) S1x9x9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1152.size a ≤ S256x128x1152.size a
  hwx0_4 : ∀ i : grid0.Coords, EltTy.bits .f32 = 32 ∨ (Rect.block (s := S256x128x1152) S1x128x1152.size (cc0_transform_4 i) (hinb0_4 i)).WholeWords (EltTy.packing .f32)

variable [Facts₀]

def gather_S256x9_S9x1_S256x9_0_1_n_n_1_1_2561 : GatherDims S256x9 S9x1 S256x9 where
  offsetDims := [0]
  collapsedSliceDims := [1]
  operandBatchingDims := []
  startIndicesBatchingDims := []
  startIndexMap := [1]
  indexVectorDim := 1
  sliceSizes := ![256, 1]
  wf := gather_S256x9_S9x1_S256x9_0_1_n_n_1_1_2561_wf
def dot_S128x128_S128x1152_S128x1152_1_0_0_1_n_n : DotDims S128x128 S128x1152 S128x1152 where
  lhsContracting := [1]
  rhsContracting := [0]
  lhsNonContracting := [0]
  rhsNonContracting := [1]
  lhsBatch := []
  rhsBatch := []
  wf := dot_S128x128_S128x1152_S128x1152_1_0_0_1_n_n_wf
def dot_S1152x128_S128x128_S1152x128_1_0_0_1_n_n : DotDims S1152x128 S128x128 S1152x128 where
  lhsContracting := [1]
  rhsContracting := [0]
  lhsNonContracting := [0]
  rhsNonContracting := [1]
  lhsBatch := []
  rhsBatch := []
  wf := dot_S1152x128_S128x128_S1152x128_1_0_0_1_n_n_wf

abbrev win0_0 : Pipeline.Window sig grid0 :=
  Pipeline.Window.ofSpec (Memref.whole main_v35) S1x128x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x9x9.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128x1152.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x128x128x9 : Shape := ⟨4, ![256, 128, 128, 9]⟩
abbrev S256x128 : Shape := ⟨2, ![256, 128]⟩
abbrev S256x3 : Shape := ⟨2, ![256, 3]⟩
abbrev S9 : Shape := ⟨1, ![9]⟩
abbrev S256x128x1x1 : Shape := ⟨4, ![256, 128, 1, 1]⟩
abbrev S_ : Shape := ⟨0, ![]⟩
abbrev S256x128x1 : Shape := ⟨3, ![256, 128, 1]⟩
abbrev S1 : Shape := ⟨1, ![1]⟩
abbrev S1x1x1 : Shape := ⟨3, ![1, 1, 1]⟩
abbrev S256x1x128x1 : Shape := ⟨4, ![256, 1, 128, 1]⟩
abbrev S256x1 : Shape := ⟨2, ![256, 1]⟩
abbrev S1x9 : Shape := ⟨2, ![1, 9]⟩
abbrev S256x9 : Shape := ⟨2, ![256, 9]⟩
abbrev S9x1 : Shape := ⟨2, ![9, 1]⟩
abbrev S256x1x1x9 : Shape := ⟨4, ![256, 1, 1, 9]⟩
abbrev S256x9x1 : Shape := ⟨3, ![256, 9, 1]⟩

abbrev nBuf : Space → Nat
  | .hbm => 120
  | .vmem => 0
  | .smem => 0
  | _ => 0

abbrev bufTy : (tb : Table) → Fin (tcTables nBuf tb) → BufTy
  | .hbm, ⟨0, _⟩ => ⟨S256x128x128x9, .f32⟩
  | .hbm, ⟨1, _⟩ => ⟨S256x128, .i32⟩
  | .hbm, ⟨2, _⟩ => ⟨S256x128, .i32⟩
  | .hbm, ⟨3, _⟩ => ⟨S256x3, .i32⟩
  | .hbm, ⟨4, _⟩ => ⟨S9, .i32⟩
  | .hbm, ⟨5, _⟩ => ⟨S9, .i32⟩
  | .hbm, ⟨6, _⟩ => ⟨S9, .i32⟩
  | .hbm, ⟨7, _⟩ => ⟨S256x128x1x1, .i32⟩
  | .hbm, ⟨8, _⟩ => ⟨S_, .i32⟩
  | .hbm, ⟨9, _⟩ => ⟨S256x128x1x1, .i32⟩
  | .hbm, ⟨10, _⟩ => ⟨S256x128x1x1, .i1⟩
  | .hbm, ⟨11, _⟩ => ⟨S_, .i32⟩
  | .hbm, ⟨12, _⟩ => ⟨S256x128x1x1, .i32⟩
  | .hbm, ⟨13, _⟩ => ⟨S256x128x1x1, .i32⟩
  | .hbm, ⟨14, _⟩ => ⟨S256x128x1x1, .i32⟩
  | .hbm, ⟨15, _⟩ => ⟨S256x128x1, .i32⟩
  | .hbm, ⟨16, _⟩ => ⟨S1, .i32⟩
  | .hbm, ⟨17, _⟩ => ⟨S_, .i32⟩
  | .hbm, ⟨18, _⟩ => ⟨S256x128x1, .i32⟩
  | .hbm, ⟨19, _⟩ => ⟨S256x128x1, .i1⟩
  | .hbm, ⟨20, _⟩ => ⟨S1x1x1, .i32⟩
  | .hbm, ⟨21, _⟩ => ⟨S256x128x1, .i32⟩
  | .hbm, ⟨22, _⟩ => ⟨S256x128x1, .i1⟩
  | .hbm, ⟨23, _⟩ => ⟨S256x128x1, .i1⟩
  | .hbm, ⟨24, _⟩ => ⟨S_, .i1⟩
  | .hbm, ⟨25, _⟩ => ⟨S256x128, .i1⟩
  | .hbm, ⟨26, _⟩ => ⟨S256x128x128x9, .f32⟩
  | .hbm, ⟨27, _⟩ => ⟨S256x128x128x9, .i1⟩
  | .hbm, ⟨28, _⟩ => ⟨S_, .f32⟩
  | .hbm, ⟨29, _⟩ => ⟨S256x128x128x9, .f32⟩
  | .hbm, ⟨30, _⟩ => ⟨S256x128x128x9, .f32⟩
  | .hbm, ⟨31, _⟩ => ⟨S256x1x128x1, .i32⟩
  | .hbm, ⟨32, _⟩ => ⟨S_, .i32⟩
  | .hbm, ⟨33, _⟩ => ⟨S256x1x128x1, .i32⟩
  | .hbm, ⟨34, _⟩ => ⟨S256x1x128x1, .i1⟩
  | .hbm, ⟨35, _⟩ => ⟨S_, .i32⟩
  | .hbm, ⟨36, _⟩ => ⟨S256x1x128x1, .i32⟩
  | .hbm, ⟨37, _⟩ => ⟨S256x1x128x1, .i32⟩
  | .hbm, ⟨38, _⟩ => ⟨S256x1x128x1, .i32⟩
  | .hbm, ⟨39, _⟩ => ⟨S256x128x1, .i32⟩
  | .hbm, ⟨40, _⟩ => ⟨S1, .i32⟩
  | .hbm, ⟨41, _⟩ => ⟨S_, .i32⟩
  | .hbm, ⟨42, _⟩ => ⟨S256x128x1, .i32⟩
  | .hbm, ⟨43, _⟩ => ⟨S256x128x1, .i1⟩
  | .hbm, ⟨44, _⟩ => ⟨S1x1x1, .i32⟩
  | .hbm, ⟨45, _⟩ => ⟨S256x128x1, .i32⟩
  | .hbm, ⟨46, _⟩ => ⟨S256x128x1, .i1⟩
  | .hbm, ⟨47, _⟩ => ⟨S256x128x1, .i1⟩
  | .hbm, ⟨48, _⟩ => ⟨S_, .i1⟩
  | .hbm, ⟨49, _⟩ => ⟨S256x128, .i1⟩
  | .hbm, ⟨50, _⟩ => ⟨S256x128x128x9, .f32⟩
  | .hbm, ⟨51, _⟩ => ⟨S256x128x128x9, .i1⟩
  | .hbm, ⟨52, _⟩ => ⟨S_, .f32⟩
  | .hbm, ⟨53, _⟩ => ⟨S256x128x128x9, .f32⟩
  | .hbm, ⟨54, _⟩ => ⟨S256x128x128x9, .f32⟩
  | .hbm, ⟨55, _⟩ => ⟨S9, .i32⟩
  | .hbm, ⟨56, _⟩ => ⟨S256x1, .i32⟩
  | .hbm, ⟨57, _⟩ => ⟨S_, .i32⟩
  | .hbm, ⟨58, _⟩ => ⟨S256x1, .i32⟩
  | .hbm, ⟨59, _⟩ => ⟨S256x1, .i1⟩
  | .hbm, ⟨60, _⟩ => ⟨S1x9, .i32⟩
  | .hbm, ⟨61, _⟩ => ⟨S1x9, .i32⟩
  | .hbm, ⟨62, _⟩ => ⟨S256x9, .i1⟩
  | .hbm, ⟨63, _⟩ => ⟨S256x9, .i32⟩
  | .hbm, ⟨64, _⟩ => ⟨S256x9, .i32⟩
  | .hbm, ⟨65, _⟩ => ⟨S256x9, .i32⟩
  | .hbm, ⟨66, _⟩ => ⟨S256x1, .i32⟩
  | .hbm, ⟨67, _⟩ => ⟨S_, .i32⟩
  | .hbm, ⟨68, _⟩ => ⟨S256x1, .i32⟩
  | .hbm, ⟨69, _⟩ => ⟨S256x1, .i1⟩
  | .hbm, ⟨70, _⟩ => ⟨S_, .i32⟩
  | .hbm, ⟨71, _⟩ => ⟨S9, .i32⟩
  | .hbm, ⟨72, _⟩ => ⟨S9, .i1⟩
  | .hbm, ⟨73, _⟩ => ⟨S_, .i32⟩
  | .hbm, ⟨74, _⟩ => ⟨S9, .i32⟩
  | .hbm, ⟨75, _⟩ => ⟨S9, .i32⟩
  | .hbm, ⟨76, _⟩ => ⟨S9, .i32⟩
  | .hbm, ⟨77, _⟩ => ⟨S9x1, .i32⟩
  | .hbm, ⟨78, _⟩ => ⟨S256x9, .i32⟩
  | .hbm, ⟨79, _⟩ => ⟨S256x9, .i1⟩
  | .hbm, ⟨80, _⟩ => ⟨S256x9, .i32⟩
  | .hbm, ⟨81, _⟩ => ⟨S256x1, .i32⟩
  | .hbm, ⟨82, _⟩ => ⟨S_, .i32⟩
  | .hbm, ⟨83, _⟩ => ⟨S256x1, .i32⟩
  | .hbm, ⟨84, _⟩ => ⟨S256x1, .i1⟩
  | .hbm, ⟨85, _⟩ => ⟨S_, .i32⟩
  | .hbm, ⟨86, _⟩ => ⟨S9, .i32⟩
  | .hbm, ⟨87, _⟩ => ⟨S9, .i1⟩
  | .hbm, ⟨88, _⟩ => ⟨S_, .i32⟩
  | .hbm, ⟨89, _⟩ => ⟨S9, .i32⟩
  | .hbm, ⟨90, _⟩ => ⟨S9, .i32⟩
  | .hbm, ⟨91, _⟩ => ⟨S9, .i32⟩
  | .hbm, ⟨92, _⟩ => ⟨S9x1, .i32⟩
  | .hbm, ⟨93, _⟩ => ⟨S256x9, .i32⟩
  | .hbm, ⟨94, _⟩ => ⟨S256x9, .i1⟩
  | .hbm, ⟨95, _⟩ => ⟨S256x9, .i32⟩
  | .hbm, ⟨96, _⟩ => ⟨S256x1x1x9, .i32⟩
  | .hbm, ⟨97, _⟩ => ⟨S_, .i32⟩
  | .hbm, ⟨98, _⟩ => ⟨S256x1x1x9, .i32⟩
  | .hbm, ⟨99, _⟩ => ⟨S256x1x1x9, .i1⟩
  | .hbm, ⟨100, _⟩ => ⟨S_, .i32⟩
  | .hbm, ⟨101, _⟩ => ⟨S256x1x1x9, .i32⟩
  | .hbm, ⟨102, _⟩ => ⟨S256x1x1x9, .i32⟩
  | .hbm, ⟨103, _⟩ => ⟨S256x1x1x9, .i32⟩
  | .hbm, ⟨104, _⟩ => ⟨S256x9x1, .i32⟩
  | .hbm, ⟨105, _⟩ => ⟨S1, .i32⟩
  | .hbm, ⟨106, _⟩ => ⟨S_, .i32⟩
  | .hbm, ⟨107, _⟩ => ⟨S256x9x1, .i32⟩
  | .hbm, ⟨108, _⟩ => ⟨S256x9x1, .i1⟩
  | .hbm, ⟨109, _⟩ => ⟨S1x1x1, .i32⟩
  | .hbm, ⟨110, _⟩ => ⟨S256x9x1, .i32⟩
  | .hbm, ⟨111, _⟩ => ⟨S256x9x1, .i1⟩
  | .hbm, ⟨112, _⟩ => ⟨S256x9x1, .i1⟩
  | .hbm, ⟨113, _⟩ => ⟨S_, .i1⟩
  | .hbm, ⟨114, _⟩ => ⟨S256x9, .i1⟩
  | .hbm, ⟨115, _⟩ => ⟨S256x128x128x9, .f32⟩
  | .hbm, ⟨116, _⟩ => ⟨S256x128x128x9, .i1⟩
  | .hbm, ⟨117, _⟩ => ⟨S_, .f32⟩
  | .hbm, ⟨118, _⟩ => ⟨S256x128x128x9, .f32⟩
  | .hbm, ⟨119, _⟩ => ⟨S256x128x128x9, .f32⟩
  | _, _ => ⟨S256x128x128x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_c_2 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v10 : Ref sig .tc := ⟨.hbm, 65, rfl⟩
abbrev main_v11 : Ref sig .tc := ⟨.hbm, 66, rfl⟩
abbrev main_c_3 : Ref sig .tc := ⟨.hbm, 67, rfl⟩
abbrev main_v12 : Ref sig .tc := ⟨.hbm, 68, rfl⟩
abbrev main_v13 : Ref sig .tc := ⟨.hbm, 69, rfl⟩
abbrev main_c_4 : Ref sig .tc := ⟨.hbm, 70, rfl⟩
abbrev main_v14 : Ref sig .tc := ⟨.hbm, 71, rfl⟩
abbrev main_v15 : Ref sig .tc := ⟨.hbm, 72, rfl⟩
abbrev main_c_5 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_call3_v0 : Ref sig .tc := ⟨.hbm, 79, rfl⟩
abbrev main_v21 : Ref sig .tc := ⟨.hbm, 80, rfl⟩
abbrev main_v22 : Ref sig .tc := ⟨.hbm, 81, rfl⟩
abbrev main_c_6 : Ref sig .tc := ⟨.hbm, 82, rfl⟩
abbrev main_v23 : Ref sig .tc := ⟨.hbm, 83, rfl⟩
abbrev main_v24 : Ref sig .tc := ⟨.hbm, 84, rfl⟩
abbrev main_c_7 : Ref sig .tc := ⟨.hbm, 85, rfl⟩
abbrev main_v25 : Ref sig .tc := ⟨.hbm, 86, rfl⟩
abbrev main_v26 : Ref sig .tc := ⟨.hbm, 87, rfl⟩
abbrev main_c_8 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_call4_v0 : Ref sig .tc := ⟨.hbm, 94, rfl⟩
abbrev main_v32 : Ref sig .tc := ⟨.hbm, 95, rfl⟩
abbrev main_v33 : Ref sig .tc := ⟨.hbm, 96, rfl⟩
abbrev main_call5_c : Ref sig .tc := ⟨.hbm, 97, rfl⟩
abbrev main_call5_v0 : Ref sig .tc := ⟨.hbm, 98, rfl⟩
abbrev main_call5_v1 : Ref sig .tc := ⟨.hbm, 99, rfl⟩
abbrev main_call5_c_0 : Ref sig .tc := ⟨.hbm, 100, rfl⟩
abbrev main_call5_v2 : Ref sig .tc := ⟨.hbm, 101, rfl⟩
abbrev main_call5_v3 : Ref sig .tc := ⟨.hbm, 102, rfl⟩
abbrev main_call5_v4 : Ref sig .tc := ⟨.hbm, 103, rfl⟩
abbrev main_call5_v5 : Ref sig .tc := ⟨.hbm, 104, rfl⟩
abbrev main_call5_c_1 : Ref sig .tc := ⟨.hbm, 105, rfl⟩
abbrev main_call5_c_2 : Ref sig .tc := ⟨.hbm, 106, rfl⟩
abbrev main_call5_v6 : Ref sig .tc := ⟨.hbm, 107, rfl⟩
abbrev main_call5_v7 : Ref sig .tc := ⟨.hbm, 108, rfl⟩
abbrev main_call5_v8 : Ref sig .tc := ⟨.hbm, 109, rfl⟩
abbrev main_call5_v9 : Ref sig .tc := ⟨.hbm, 110, rfl⟩
abbrev main_call5_v10 : Ref sig .tc := ⟨.hbm, 111, rfl⟩
abbrev main_call5_v11 : Ref sig .tc := ⟨.hbm, 112, rfl⟩
abbrev main_call5_c_3 : Ref sig .tc := ⟨.hbm, 113, rfl⟩
abbrev main_call5_v12 : Ref sig .tc := ⟨.hbm, 114, rfl⟩
abbrev main_call5_v13 : Ref sig .tc := ⟨.hbm, 115, rfl⟩
abbrev main_call5_v14 : Ref sig .tc := ⟨.hbm, 116, rfl⟩
abbrev main_call5_cst : Ref sig .tc := ⟨.hbm, 117, rfl⟩
abbrev main_call5_v15 : Ref sig .tc := ⟨.hbm, 118, rfl⟩
abbrev main_v34 : Ref sig .tc := ⟨.hbm, 119, rfl⟩

abbrev nD : Nat := 1
abbrev τ : Topo := Topo.v7x

variable {F : FTy → Type} [FloatOps F]

class Facts₀ : Prop where
  bcast_S256x128_S256x128x1x1_0_1 : S256x128.BroadcastsInDim S256x128x1x1 (![0, 1] : Fin 2 → Fin S256x128x1x1.rank)
  bcast_S_S256x128x1x1 : S_.BroadcastsInDim S256x128x1x1 (![] : Fin 0 → Fin S256x128x1x1.rank)
  shapeCasts_S256x128x1x1_S256x128x1 : S256x128x1x1.ShapeCasts S256x128x1
  bcast_S_S256x128x1 : S_.BroadcastsInDim S256x128x1 (![] : Fin 0 → Fin S256x128x1.rank)
  bcast_S1_S1x1x1_2 : S1.BroadcastsInDim S1x1x1 (![2] : Fin 1 → Fin S1x1x1.rank)
  bcast_S1x1x1_S256x128x1_0_1_2 : S1x1x1.BroadcastsInDim S256x128x1 (![0, 1, 2] : Fin 3 → Fin S256x128x1.rank)
  reducesTo_S256x128x1_S256x128_d2 : S256x128x1.ReducesTo [2] S256x128
  h_S_ : 0 < S_.numel
  bcast_S256x128_S256x128x128x9_0_1 : S256x128.BroadcastsInDim S256x128x128x9 (![0, 1] : Fin 2 → Fin S256x128x128x9.rank)
  bcast_S_S256x128x128x9 : S_.BroadcastsInDim S256x128x128x9 (![] : Fin 0 → Fin S256x128x128x9.rank)
  bcast_S256x128_S256x1x128x1_0_2 : S256x128.BroadcastsInDim S256x1x128x1 (![0, 2] : Fin 2 → Fin S256x1x128x1.rank)
  bcast_S_S256x1x128x1 : S_.BroadcastsInDim S256x1x128x1 (![] : Fin 0 → Fin S256x1x128x1.rank)
  shapeCasts_S256x1x128x1_S256x128x1 : S256x1x128x1.ShapeCasts S256x128x1
  bcast_S256x128_S256x128x128x9_0_2 : S256x128.BroadcastsInDim S256x128x128x9 (![0, 2] : Fin 2 → Fin S256x128x128x9.rank)
  slices_S256x3_S256x1_0_0 : S256x3.Slices ![0, 0] S256x1
  bcast_S_S256x1 : S_.BroadcastsInDim S256x1 (![] : Fin 0 → Fin S256x1.rank)
  bcast_S9_S1x9_1 : S9.BroadcastsInDim S1x9 (![1] : Fin 1 → Fin S1x9.rank)
  bcast_S256x1_S256x9_0_1 : S256x1.BroadcastsInDim S256x9 (![0, 1] : Fin 2 → Fin S256x9.rank)
  bcast_S1x9_S256x9_0_1 : S1x9.BroadcastsInDim S256x9 (![0, 1] : Fin 2 → Fin S256x9.rank)
  slices_S256x3_S256x1_0_1 : S256x3.Slices ![0, 1] S256x1
  bcast_S_S9 : S_.BroadcastsInDim S9 (![] : Fin 0 → Fin S9.rank)
  bcast_S9_S9x1_0 : S9.BroadcastsInDim S9x1 (![0] : Fin 1 → Fin S9x1.rank)
  slices_S256x3_S256x1_0_2 : S256x3.Slices ![0, 2] S256x1
  bcast_S256x9_S256x1x1x9_0_3 : S256x9.BroadcastsInDim S256x1x1x9 (![0, 3] : Fin 2 → Fin S256x1x1x9.rank)
  bcast_S_S256x1x1x9 : S_.BroadcastsInDim S256x1x1x9 (![] : Fin 0 → Fin S256x1x1x9.rank)
  shapeCasts_S256x1x1x9_S256x9x1 : S256x1x1x9.ShapeCasts S256x9x1
  bcast_S_S256x9x1 : S_.BroadcastsInDim S256x9x1 (![] : Fin 0 → Fin S256x9x1.rank)
  bcast_S1x1x1_S256x9x1_0_1_2 : S1x1x1.BroadcastsInDim S256x9x1 (![0, 1, 2] : Fin 3 → Fin S256x9x1.rank)
  reducesTo_S256x9x1_S256x9_d2 : S256x9x1.ReducesTo [2] S256x9
  bcast_S256x9_S256x128x128x9_0_3 : S256x9.BroadcastsInDim S256x128x128x9 (![0, 3] : Fin 2 → Fin S256x128x128x9.rank)
  gather_S256x128x128x9_S256x128x1_S256x128x128x9_23_1_0_0_1_2_111289_wf : GatherDims.WF S256x128x128x9 S256x128x1 S256x128x128x9 [2, 3] [1] [0] [1] [0] 2 ![1, 1, 128, 9]
  gather_S256x128x128x9_S256x128x1_S256x128x128x9_13_2_0_0_2_2_112819_wf : GatherDims.WF S256x128x128x9 S256x128x1 S256x128x128x9 [1, 3] [2] [0] [2] [0] 2 ![1, 128, 1, 9]
  gather_S256x9_S9x1_S256x9_0_1_n_n_1_1_2561_wf : GatherDims.WF S256x9 S9x1 S256x9 [0] [1] [] [1] [] 1 ![256, 1]
  gather_S256x128x128x9_S256x9x1_S256x128x128x9_12_3_0_0_3_2_11281281_wf : GatherDims.WF S256x128x128x9 S256x9x1 S256x128x128x9 [1, 2] [3] [0] [3] [0] 2 ![1, 128, 128, 1]

variable [Facts₀]

def gather_S256x128x128x9_S256x128x1_S256x128x128x9_23_1_0_0_1_2_111289 : GatherDims S256x128x128x9 S256x128x1 S256x128x128x9 where
  offsetDims := [2, 3]
  collapsedSliceDims := [1]
  operandBatchingDims := [0]
  startIndicesBatchingDims := [0]
  startIndexMap := [1]
  indexVectorDim := 2
  sliceSizes := ![1, 1, 128, 9]
  wf := gather_S256x128x128x9_S256x128x1_S256x128x128x9_23_1_0_0_1_2_111289_wf
def gather_S256x128x128x9_S256x128x1_S256x128x128x9_13_2_0_0_2_2_112819 : GatherDims S256x128x128x9 S256x128x1 S256x128x128x9 where
  offsetDims := [1, 3]
  collapsedSliceDims := [2]
  operandBatchingDims := [0]
  startIndicesBatchingDims := [0]
  startIndexMap := [2]
  indexVectorDim := 2
  sliceSizes := ![1, 128, 1, 9]
  wf := gather_S256x128x128x9_S256x128x1_S256x128x128x9_13_2_0_0_2_2_112819_wf
def gather_S256x9_S9x1_S256x9_0_1_n_n_1_1_2561 : GatherDims S256x9 S9x1 S256x9 where
  offsetDims := [0]
  collapsedSliceDims := [1]
  operandBatchingDims := []
  startIndicesBatchingDims := []
  startIndexMap := [1]
  indexVectorDim := 1
  sliceSizes := ![256, 1]
  wf := gather_S256x9_S9x1_S256x9_0_1_n_n_1_1_2561_wf
def gather_S256x128x128x9_S256x9x1_S256x128x128x9_12_3_0_0_3_2_11281281 : GatherDims S256x128x128x9 S256x9x1 S256x128x128x9 where
  offsetDims := [1, 2]
  collapsedSliceDims := [3]
  operandBatchingDims := [0]
  startIndicesBatchingDims := [0]
  startIndexMap := [3]
  indexVectorDim := 2
  sliceSizes := ![1, 128, 128, 1]
  wf := gather_S256x128x128x9_S256x9x1_S256x128x128x9_12_3_0_0_3_2_11281281_wf

class Facts : Prop extends Facts₀ where

variable [Facts]
-- ==== Proof.Spec.lean ====
/-
  What both programs compute, as one function of the argument arrays.

  Sample b of the input x : [256, 128, 128, 9] is re-read through three index tables: its rows through
  row_perm[b, ·], its columns through col_perm[b, ·] and its channels through a channel map p[b, ·] that the
  three flags of the sample select. Entry (b, h, w, c) of the result is
      x[b, row_perm[b, h], col_perm[b, w], p[b, c]].
  The tables hold 32-bit words; a word names a position when, read as a signed integer, it lies in the axis'
  range. Outside that range this file's reading clamps the word, which is only a way of making the function total:
  every statement that uses it carries the hypothesis that the words are in range.
-/
import Idealize.ShloMosaic.PureOps.Ideal
import Idealize.ShloMosaic.Lib.ValueIdx

open scoped BigOperators

noncomputable section

namespace Cert.Flip

open Idealize.ShloMosaic Idealize.ShloMosaic.ValueIdx

/-- The input and the result: 256 samples of 128 × 128 pixels of 9 channels. -/
abbrev SX : Shape := ⟨4, ![256, 128, 128, 9]⟩
/-- A table of row (or column) positions, one row of 128 per sample. -/
abbrev SI : Shape := ⟨2, ![256, 128]⟩
/-- The channel map: 9 channel positions per sample. -/
abbrev SP : Shape := ⟨2, ![256, 9]⟩
/-- The flags: three words per sample. -/
abbrev SF : Shape := ⟨2, ![256, 3]⟩

/-- A word that, read as a signed integer, names one of the positions `0 … n − 1`. -/
def InRange (n : Nat) (v : BitVec 32) : Prop := 0 ≤ v.toInt ∧ v.toInt < (n : ℤ)

/-- The position among 128 a word names (read signed, clamped into `0 … 127`). -/
def pos128 (v : BitVec 32) : Fin 128 := ⟨min v.toInt.toNat 127, by omega⟩
/-- The position among 9 a word names (read signed, clamped into `0 … 8`). -/
def pos9 (v : BitVec 32) : Fin 9 := ⟨min v.toInt.toNat 8, by omega⟩

theorem pos128_val {v : BitVec 32} (h : InRange 128 v) : ((pos128 v).val : ℤ) = v.toInt := by
  obtain ⟨h0, h1⟩ := h
  show ((min v.toInt.toNat 127 : ℕ) : ℤ) = v.toInt
  omega

theorem pos9_val {v : BitVec 32} (h : InRange 9 v) : ((pos9 v).val : ℤ) = v.toInt := by
  obtain ⟨h0, h1⟩ := h
  show ((min v.toInt.toNat 8 : ℕ) : ℤ) = v.toInt
  omega

/-- Pixel `w`, channel `c` of a row laid out as 128 · 9 = 1152 consecutive lanes. -/
def lane (w : Fin 128) (c : Fin 9) : Fin 1152 := ⟨w.val * 9 + c.val, by have := w.isLt; have := c.isLt; omega⟩

/-- THE RESULT: entry `(b, h, w, c)` is `x[b, rp[b, h], cp[b, w], p[b, c]]`. -/
def G (x : FVec Ideal SX .f32) (rp cp : IVec SI 32) (p : IVec SP 32) : FVec Ideal SX .f32 := fun i =>
  x (ix4 (n0 := 256) (n1 := 128) (n2 := 128) (n3 := 9) (i 0)
    (pos128 (rp (ix2 (n0 := 256) (n1 := 128) (i 0) (i 1))))
    (pos128 (cp (ix2 (n0 := 256) (n1 := 128) (i 0) (i 2))))
    (pos9 (p (ix2 (n0 := 256) (n1 := 9) (i 0) (i 3)))))

theorem G_apply (x : FVec Ideal SX .f32) (rp cp : IVec SI 32) (p : IVec SP 32) (b : Fin 256) (h w : Fin 128) (c : Fin 9) :
    G x rp cp p (ix4 b h w c) = x (ix4 b (pos128 (rp (ix2 b h))) (pos128 (cp (ix2 b w))) (pos9 (p (ix2 b c)))) := rfl

/-- A sum against a selector that is one at `k₀` and zero elsewhere picks the `k₀`-th term (on the extended reals a
    zero factor annihilates even an infinite one, and adding zeros changes nothing). -/
theorem sum_onehot_mul {n : Nat} (k₀ : Fin n) (f : Fin n → EReal) :
    ∑ k : Fin n, (if k = k₀ then (1 : EReal) else 0) * f k = f k₀ := by
  rw [Finset.sum_eq_single k₀]
  · rw [if_pos rfl, one_mul]
  · intro b _ hb; rw [if_neg hb, zero_mul]
  · intro h; exact absurd (Finset.mem_univ _) h

/-- The same with the selector as the right factor. -/
theorem sum_mul_onehot {n : Nat} (k₀ : Fin n) (f : Fin n → EReal) :
    ∑ k : Fin n, f k * (if k = k₀ then (1 : EReal) else 0) = f k₀ := by
  rw [Finset.sum_eq_single k₀]
  · rw [if_pos rfl, mul_one]
  · intro b _ hb; rw [if_neg hb, mul_zero]
  · intro h; exact absurd (Finset.mem_univ _) h

end Cert.Flip

end
-- ==== Proof.PChain.lean ====
/-
  The channel map both programs compute from the flags.

  Start from the identity on the nine channels, or from the first fixed permutation when the sample's first flag is
  positive; re-read it through the second fixed permutation when the second flag is positive; re-read that through
  the third when the third flag is positive. Every entry is therefore always one of the channels 0 … 8, whatever the
  flags are.
-/
import proofs.«430446_j88493506166927_3_alg».proof.Proof.Spec
import Idealize.ShloMosaic.Lib.StableHlo.Predicate
import Idealize.ShloMosaic.Lib.Pipeline.Value

noncomputable section

namespace Cert.Flip

open Idealize.ShloMosaic Idealize.ShloMosaic.ValueIdx

/-! ## Shapes, their relations, and the three fixed permutations -/

/-- A vector over the nine channels. -/
abbrev T9 : Shape := ⟨1, ![9]⟩
/-- One word per sample, as a column. -/
abbrev T256x1 : Shape := ⟨2, ![256, 1]⟩
/-- A single word. -/
abbrev T0 : Shape := ⟨0, ![]⟩
/-- A vector over the nine channels, as a row. -/
abbrev T1x9 : Shape := ⟨2, ![1, 9]⟩
/-- A vector over the nine channels, as a column. -/
abbrev T9x1 : Shape := ⟨2, ![9, 1]⟩

theorem slices_flag0 : SF.Slices ![0, 0] T256x1 := by decide
theorem slices_flag1 : SF.Slices ![0, 1] T256x1 := by decide
theorem slices_flag2 : SF.Slices ![0, 2] T256x1 := by decide
theorem bcast_T0_T256x1 : T0.BroadcastsInDim T256x1 (![] : Fin 0 → Fin T256x1.rank) := by decide
theorem bcast_T0_T9 : T0.BroadcastsInDim T9 (![] : Fin 0 → Fin T9.rank) := by decide
theorem bcast_T9_T1x9 : T9.BroadcastsInDim T1x9 (![1] : Fin 1 → Fin T1x9.rank) := by decide
theorem bcast_T9_T9x1 : T9.BroadcastsInDim T9x1 (![0] : Fin 1 → Fin T9x1.rank) := by decide
theorem bcast_T256x1_SP : T256x1.BroadcastsInDim SP (![0, 1] : Fin 2 → Fin SP.rank) := by decide
theorem bcast_T1x9_SP : T1x9.BroadcastsInDim SP (![0, 1] : Fin 2 → Fin SP.rank) := by decide

/-- The first fixed permutation of the channels: (1 3)(2 4)(6 7). -/
abbrev perm0 : Fin 9 → BitVec 32 := fun
  | 0 => 0#32 | 1 => 3#32 | 2 => 4#32 | 3 => 1#32 | 4 => 2#32 | 5 => 5#32 | 6 => 7#32 | 7 => 6#32
  | 8 => 8#32
  | _ => 0#32

/-- The second fixed permutation of the channels: (3 4)(5 7)(6 8). -/
abbrev perm1 : Fin 9 → BitVec 32 := fun
  | 0 => 0#32 | 1 => 1#32 | 2 => 2#32 | 3 => 4#32 | 4 => 3#32 | 5 => 7#32 | 6 => 8#32 | 7 => 5#32
  | 8 => 6#32
  | _ => 0#32

/-- The third fixed permutation of the channels: (1 2)(5 6)(7 8). -/
abbrev perm2 : Fin 9 → BitVec 32 := fun
  | 0 => 0#32 | 1 => 2#32 | 2 => 1#32 | 3 => 3#32 | 4 => 4#32 | 5 => 6#32 | 6 => 5#32 | 7 => 8#32
  | 8 => 7#32
  | _ => 0#32

theorem takeDims_wf : GatherDims.WF (⟨2, ![256, 9]⟩ : Shape) (⟨2, ![9, 1]⟩ : Shape) (⟨2, ![256, 9]⟩ : Shape) [0] [1] [] [1] [] 1 ![256, 1] := by
  decide

/-- Reading a per-sample map of the channels through a vector of nine positions: entry (b, c) of the result is
    entry (b, k) of the map, k the c-th position (clamped into the channels). -/
def takeDims : GatherDims ⟨2, ![256, 9]⟩ ⟨2, ![9, 1]⟩ ⟨2, ![256, 9]⟩ where
  offsetDims := [0]
  collapsedSliceDims := [1]
  operandBatchingDims := []
  startIndicesBatchingDims := []
  startIndexMap := [1]
  indexVectorDim := 1
  sliceSizes := ![256, 1]
  wf := takeDims_wf

/-! ## The chain of host operations -/

/-- The three fixed permutations as vectors over the channels. -/
def tab0 : IVec T9 32 := fun i => perm0 (T9.rowMajor i)
def tab1 : IVec T9 32 := fun i => perm1 (T9.rowMajor i)
def tab2 : IVec T9 32 := fun i => perm2 (T9.rowMajor i)

/-- The identity on the channels: entry c is c. -/
def ident9 : IVec T9 32 := iotaInDim T9 32 0

/-- Per sample: is flag k positive (k = 0, 1, 2)? -/
def flag0 (f : IVec SF 32) : IVec T256x1 1 :=
  cmpi .sgt (extractStridedSlice T256x1 ![0, 0] f slices_flag0)
    (broadcastInDim T256x1 ![] bcast_T0_T256x1 (constantI T0 32 0#32))
def flag1 (f : IVec SF 32) : IVec T256x1 1 :=
  cmpi .sgt (extractStridedSlice T256x1 ![0, 1] f slices_flag1)
    (broadcastInDim T256x1 ![] bcast_T0_T256x1 (constantI T0 32 0#32))
def flag2 (f : IVec SF 32) : IVec T256x1 1 :=
  cmpi .sgt (extractStridedSlice T256x1 ![0, 2] f slices_flag2)
    (broadcastInDim T256x1 ![] bcast_T0_T256x1 (constantI T0 32 0#32))

/-- The start: per sample the first permutation where the first flag is positive, the identity elsewhere. -/
def start (f : IVec SF 32) : IVec SP 32 :=
  select (broadcastInDim SP ![0, 1] bcast_T256x1_SP (flag0 f))
    (broadcastInDim SP ![0, 1] bcast_T1x9_SP (broadcastInDim T1x9 ![1] bcast_T9_T1x9 tab0))
    (broadcastInDim SP ![0, 1] bcast_T1x9_SP (broadcastInDim T1x9 ![1] bcast_T9_T1x9 ident9))

/-- A vector of positions made ready for reading along the channel axis: a negative position counts from the end
    (nine is added to it), and the vector is stood up as a column. -/
def wrapIdx (c : IVec T9 32) : IVec T9x1 32 :=
  broadcastInDim T9x1 ![0] bcast_T9_T9x1
    (select (cmpi .slt c (broadcastInDim T9 ![] bcast_T0_T9 (constantI T0 32 0#32)))
      (addi c (broadcastInDim T9 ![] bcast_T0_T9 (constantI T0 32 9#32))) c)

/-- After the second flag: the start re-read through the second permutation where that flag is positive. -/
def step1 (f : IVec SF 32) : IVec SP 32 :=
  select (broadcastInDim SP ![0, 1] bcast_T256x1_SP (flag1 f))
    (Host.gather takeDims (start f) (wrapIdx tab1)) (start f)

/-- The channel map as the host operations compute it from the flags. -/
def pchain (f : IVec SF 32) : IVec SP 32 :=
  select (broadcastInDim SP ![0, 1] bcast_T256x1_SP (flag2 f))
    (Host.gather takeDims (step1 f) (wrapIdx tab2)) (step1 f)

/-! ## Every entry is a channel -/

/-- All entries of a vector of words are channels. -/
def AllChan {S : Shape} (v : IVec S 32) : Prop := ∀ i, InRange 9 (v i)

/-- A choice, entry by entry, between two vectors of channels is a vector of channels. -/
theorem allChan_select {S : Shape} (c : IVec S 1) {a b : IVec S 32} (ha : AllChan a) (hb : AllChan b) :
    AllChan (select c a b) := by
  intro i
  rw [select_apply]
  unfold Scalar.select
  split
  · exact ha i
  · exact hb i

/-- A broadcast only repeats entries. -/
theorem allChan_bcast {S T : Shape} (dims : Fin S.rank → Fin T.rank) (h : S.BroadcastsInDim T dims) {x : IVec S 32}
    (hx : AllChan x) : AllChan (broadcastInDim T dims h x) :=
  fun _ => hx _

/-- Reading a vector through positions only picks entries of it, whatever the positions are. -/
theorem allChan_gather {s si t : Shape} (d : GatherDims s si t) {x : IVec s 32} (idx : IVec si 32)
    (hx : AllChan x) : AllChan (Host.gather d x idx) :=
  fun _ => hx _

theorem perm0_chan : ∀ k : Fin 9, InRange 9 (perm0 k) := by unfold InRange; decide
theorem ofNat_chan : ∀ k : Fin 9, InRange 9 (BitVec.ofNat 32 k.val) := by unfold InRange; decide

theorem allChan_tab0 : AllChan tab0 := fun _ => perm0_chan _

theorem allChan_ident9 : AllChan ident9 := fun i => ofNat_chan (i 0)

theorem allChan_start (f : IVec SF 32) : AllChan (start f) :=
  allChan_select _ (allChan_bcast _ _ (allChan_bcast _ _ allChan_tab0))
    (allChan_bcast _ _ (allChan_bcast _ _ allChan_ident9))

theorem allChan_step1 (f : IVec SF 32) : AllChan (step1 f) :=
  allChan_select _ (allChan_gather _ _ (allChan_start f)) (allChan_start f)

/-- Every entry of the channel map is a channel. -/
theorem pchain_range (f : IVec SF 32) (i : SP.Idx) : InRange 9 (pchain f i) :=
  allChan_select _ (allChan_gather _ _ (allChan_step1 f)) (allChan_step1 f) i

end Cert.Flip

end
-- ==== Proof.KBody.lean ====
/-
  The kernel body's two selector products, read at one element.

  The body builds a row selector (entry (h, h') is one when row_perm's word for row h is h') and a column selector
  (entry (w', w) is one when col_perm's word for column w is w'), multiplies the sample's block by the first on the
  left, moves the channel axis out of the lanes, and multiplies by the second on the right. With both words in range
  exactly one term of each contraction survives, so entry (cin, h, w) of the product is the block's entry at row
  row_perm[h], pixel col_perm[w], channel cin.
-/
import proofs.«430446_j88493506166927_3_alg».proof.Proof.Gen.KernelIdeal.Skeleton
import proofs.«430446_j88493506166927_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

open scoped BigOperators

noncomputable section

namespace Cert.KernelIdeal.Body

open Idealize.ShloMosaic Idealize.ShloMosaic.ValueIdx Cert.KernelIdeal Cert.KernelIdeal.Gen Cert.Flip

/-- A widened equality bit, read as a float, is one when the two words agree and zero otherwise. -/
theorem sel_word (a b : BitVec 32) :
    (FloatOps.sitofp (F := Ideal) .f32 ((IntOp.cmpi .eq a b).setWidth 32) : EReal) = if a = b then 1 else 0 := by
  by_cases h : a = b
  · rw [if_pos h, StableHlo.Predicate.cmpi_eq_iff.mpr h]
    show (((((1#1 : BitVec 1).setWidth 32).toInt : ℝ)) : EReal) = 1
    rw [show ((1#1 : BitVec 1).setWidth 32).toInt = 1 from by decide]
    simp
  · rw [if_neg h, eq_zero_of_ne_one (fun h1 => h (StableHlo.Predicate.cmpi_eq_iff.mp h1))]
    show (((((0#1 : BitVec 1).setWidth 32).toInt : ℝ)) : EReal) = 0
    rw [show ((0#1 : BitVec 1).setWidth 32).toInt = 0 from by decide]
    simp

/-- An in-range word equals the word of position `k` exactly when `k` is the position it names. -/
theorem word_eq_iff {v : BitVec 32} (hv : InRange 128 v) (k : Fin 128) :
    v = BitVec.ofNat 32 k.val ↔ k = pos128 v := by
  have hp := pos128_val hv
  have hk : (BitVec.ofNat 32 k.val).toInt = (k.val : ℤ) :=
    StableHlo.Predicate.toInt_ofNat_small k.val (by have := k.isLt; omega)
  constructor
  · intro h
    subst h
    rw [hk] at hp
    apply Fin.ext
    omega
  · intro h
    apply BitVec.eq_of_toInt_eq
    rw [hk, h, hp]

/-! ### The two selectors at an entry -/

/-- The row selector: entry `(0, h, h')` is one when `h'` is the position row `h`'s word names, zero otherwise. -/
theorem rowSel_apply (v0 : Vec Ideal S1x128x1 .i32)
    (hc : S1x128x1.ShapeCasts S1x128x1) (hi : S1x128x128.Iotas .tc 32 [2]) (hb : S1x128x1.Broadcasts S1x128x128) (hlt : 1 < 32)
    (hrow : ∀ h : Fin 128, InRange 128 (v0 (ix3 0 h 0))) (h h' : Fin 128) :
    (sitofp (F := Ideal) .f32 (extui 32 (cmpi .eq (broadcastTo S1x128x128 (shapeCast S1x128x1 v0 hc) hb)
        (iota .tc S1x128x128 32 [2] hi)) hlt) : FVec Ideal S1x128x128 .f32) (ix3 0 h h')
      = if h' = pos128 (v0 (ix3 0 h 0)) then 1 else 0 := by
  have e1 : broadcastTo S1x128x128 (shapeCast S1x128x1 v0 hc) hb (ix3 0 h h') = v0 (ix3 0 h 0) := by
    rw [shapeCast_self]
    refine broadcastTo_apply v0 hb (ix3 0 h h') (ix3 0 h 0) ?_
    intro a
    match a with
    | ⟨0, _⟩ => rfl
    | ⟨1, _⟩ => rfl
    | ⟨2, _⟩ => rfl
  have e2 : iota .tc S1x128x128 32 [2] hi (ix3 0 h h') = BitVec.ofNat 32 h'.val := by
    rw [iota_single_apply]
  show (FloatOps.sitofp (F := Ideal) .f32 ((IntOp.cmpi .eq (broadcastTo S1x128x128 (shapeCast S1x128x1 v0 hc) hb (ix3 0 h h'))
      (iota .tc S1x128x128 32 [2] hi (ix3 0 h h'))).setWidth 32) : EReal) = _
  rw [e1, e2, sel_word]
  by_cases hh : h' = pos128 (v0 (ix3 0 h 0))
  · rw [if_pos hh, if_pos ((word_eq_iff (hrow h) h').mpr hh)]
  · rw [if_neg hh, if_neg (fun e => hh ((word_eq_iff (hrow h) h').mp e))]

/-- The column selector: entry `(0, w', w)` is one when `w'` is the position column `w`'s word names, zero otherwise. -/
theorem colSel_apply (v7 : Vec Ideal S1x1x128 .i32)
    (hc : S1x1x128.ShapeCasts S1x1x128) (hi : S1x128x128.Iotas .tc 32 [1]) (hb : S1x1x128.Broadcasts S1x128x128) (hlt : 1 < 32)
    (hcol : ∀ w : Fin 128, InRange 128 (v7 (ix3 0 0 w))) (w' w : Fin 128) :
    (sitofp (F := Ideal) .f32 (extui 32 (cmpi .eq (iota .tc S1x128x128 32 [1] hi)
        (broadcastTo S1x128x128 (shapeCast S1x1x128 v7 hc) hb)) hlt) : FVec Ideal S1x128x128 .f32) (ix3 0 w' w)
      = if w' = pos128 (v7 (ix3 0 0 w)) then 1 else 0 := by
  have e1 : broadcastTo S1x128x128 (shapeCast S1x1x128 v7 hc) hb (ix3 0 w' w) = v7 (ix3 0 0 w) := by
    rw [shapeCast_self]
    refine broadcastTo_apply v7 hb (ix3 0 w' w) (ix3 0 0 w) ?_
    intro a
    match a with
    | ⟨0, _⟩ => rfl
    | ⟨1, _⟩ => rfl
    | ⟨2, _⟩ => rfl
  have e2 : iota .tc S1x128x128 32 [1] hi (ix3 0 w' w) = BitVec.ofNat 32 w'.val := by
    rw [iota_single_apply]
  show (FloatOps.sitofp (F := Ideal) .f32 ((IntOp.cmpi .eq (iota .tc S1x128x128 32 [1] hi (ix3 0 w' w))
      (broadcastTo S1x128x128 (shapeCast S1x1x128 v7 hc) hb (ix3 0 w' w))).setWidth 32) : EReal) = _
  rw [e1, e2, sel_word]
  by_cases hh : w' = pos128 (v7 (ix3 0 0 w))
  · rw [if_pos hh, if_pos ((word_eq_iff (hcol w) w').mpr hh).symm]
  · rw [if_neg hh, if_neg (fun e => hh ((word_eq_iff (hcol w) w').mp e.symm))]

/-! ### The two products at an entry -/

theorem lhs_D1_0 (j : S128x1152.Idx) (k : dot_S128x128_S128x1152_S128x1152_1_0_0_1_n_n.contr.Idx) :
    (dot_S128x128_S128x1152_S128x1152_1_0_0_1_n_n.lhsIdx j k 0).val = (j 0).val := by
  unfold DotDims.lhsIdx
  rw [dif_neg (show ¬(0 : Fin S128x128.rank) ∈ dot_S128x128_S128x1152_S128x1152_1_0_0_1_n_n.lhsBatch by decide),
    dif_pos (show (0 : Fin S128x128.rank) ∈ dot_S128x128_S128x1152_S128x1152_1_0_0_1_n_n.lhsNonContracting by decide)]
  rfl
theorem lhs_D1_1 (j : S128x1152.Idx) (k : dot_S128x128_S128x1152_S128x1152_1_0_0_1_n_n.contr.Idx) :
    (dot_S128x128_S128x1152_S128x1152_1_0_0_1_n_n.lhsIdx j k 1).val = (k ⟨0, by decide⟩).val :=
  dot_S128x128_S128x1152_S128x1152_1_0_0_1_n_n.lhsIdx_val_of_single rfl j k
theorem rhs_D1_0 (j : S128x1152.Idx) (k : dot_S128x128_S128x1152_S128x1152_1_0_0_1_n_n.contr.Idx) :
    (dot_S128x128_S128x1152_S128x1152_1_0_0_1_n_n.rhsIdx j k 0).val = (k ⟨0, by decide⟩).val :=
  dot_S128x128_S128x1152_S128x1152_1_0_0_1_n_n.rhsIdx_val_of_single rfl j k
theorem rhs_D1_1 (j : S128x1152.Idx) (k : dot_S128x128_S128x1152_S128x1152_1_0_0_1_n_n.contr.Idx) :
    (dot_S128x128_S128x1152_S128x1152_1_0_0_1_n_n.rhsIdx j k 1).val = (j 1).val := by
  unfold DotDims.rhsIdx
  rw [dif_neg (show ¬(1 : Fin S128x1152.rank) ∈ dot_S128x128_S128x1152_S128x1152_1_0_0_1_n_n.rhsBatch by decide),
    dif_pos (show (1 : Fin S128x1152.rank) ∈ dot_S128x128_S128x1152_S128x1152_1_0_0_1_n_n.rhsNonContracting by decide)]
  rfl

/-- The first product at `(h, l)`: the sum over the 128 contracted positions. -/
theorem mm1_apply (A : FVec Ideal S128x128 .f32) (B : FVec Ideal S128x1152 .f32) (h : Fin 128) (l : Fin 1152) :
    matmul dot_S128x128_S128x1152_S128x1152_1_0_0_1_n_n (some .fp32) A B (constant (F := Ideal) S128x1152 .f32 0x00000000#32) (ix2 h l)
      = ∑ k : Fin 128, A (ix2 h k) * B (ix2 k l) := by
  show FloatOps.matmul dot_S128x128_S128x1152_S128x1152_1_0_0_1_n_n (some .fp32) A B (constant (F := Ideal) S128x1152 .f32 0x00000000#32) (ix2 h l) = _
  rw [Ideal.matmul_constant_zero_apply, ← Equiv.sum_comp (contrEquiv1 dot_S128x128_S128x1152_S128x1152_1_0_0_1_n_n 128 rfl rfl).symm]
  refine Finset.sum_congr rfl fun c _ => ?_
  have c2 := contrEquiv1_symm_val dot_S128x128_S128x1152_S128x1152_1_0_0_1_n_n 128 rfl rfl c
  have l2 : dot_S128x128_S128x1152_S128x1152_1_0_0_1_n_n.lhsIdx (ix2 h l) ((contrEquiv1 _ 128 rfl rfl).symm c) = ix2 h c := by
    funext ax; apply Fin.ext
    match ax with
    | ⟨0, _⟩ => exact lhs_D1_0 _ _
    | ⟨1, _⟩ => exact (lhs_D1_1 _ _).trans c2
  have r2 : dot_S128x128_S128x1152_S128x1152_1_0_0_1_n_n.rhsIdx (ix2 h l) ((contrEquiv1 _ 128 rfl rfl).symm c) = ix2 c l := by
    funext ax; apply Fin.ext
    match ax with
    | ⟨0, _⟩ => exact (rhs_D1_0 _ _).trans c2
    | ⟨1, _⟩ => exact rhs_D1_1 _ _
  rw [l2, r2]

theorem lhs_D2_0 (j : S1152x128.Idx) (k : dot_S1152x128_S128x128_S1152x128_1_0_0_1_n_n.contr.Idx) :
    (dot_S1152x128_S128x128_S1152x128_1_0_0_1_n_n.lhsIdx j k 0).val = (j 0).val := by
  unfold DotDims.lhsIdx
  rw [dif_neg (show ¬(0 : Fin S1152x128.rank) ∈ dot_S1152x128_S128x128_S1152x128_1_0_0_1_n_n.lhsBatch by decide),
    dif_pos (show (0 : Fin S1152x128.rank) ∈ dot_S1152x128_S128x128_S1152x128_1_0_0_1_n_n.lhsNonContracting by decide)]
  rfl
theorem lhs_D2_1 (j : S1152x128.Idx) (k : dot_S1152x128_S128x128_S1152x128_1_0_0_1_n_n.contr.Idx) :
    (dot_S1152x128_S128x128_S1152x128_1_0_0_1_n_n.lhsIdx j k 1).val = (k ⟨0, by decide⟩).val :=
  dot_S1152x128_S128x128_S1152x128_1_0_0_1_n_n.lhsIdx_val_of_single rfl j k
theorem rhs_D2_0 (j : S1152x128.Idx) (k : dot_S1152x128_S128x128_S1152x128_1_0_0_1_n_n.contr.Idx) :
    (dot_S1152x128_S128x128_S1152x128_1_0_0_1_n_n.rhsIdx j k 0).val = (k ⟨0, by decide⟩).val :=
  dot_S1152x128_S128x128_S1152x128_1_0_0_1_n_n.rhsIdx_val_of_single rfl j k
theorem rhs_D2_1 (j : S1152x128.Idx) (k : dot_S1152x128_S128x128_S1152x128_1_0_0_1_n_n.contr.Idx) :
    (dot_S1152x128_S128x128_S1152x128_1_0_0_1_n_n.rhsIdx j k 1).val = (j 1).val := by
  unfold DotDims.rhsIdx
  rw [dif_neg (show ¬(1 : Fin S128x128.rank) ∈ dot_S1152x128_S128x128_S1152x128_1_0_0_1_n_n.rhsBatch by decide),
    dif_pos (show (1 : Fin S128x128.rank) ∈ dot_S1152x128_S128x128_S1152x128_1_0_0_1_n_n.rhsNonContracting by decide)]
  rfl

/-- The second product at `(r, w)`: the sum over the 128 contracted positions. -/
theorem mm2_apply (A : FVec Ideal S1152x128 .f32) (B : FVec Ideal S128x128 .f32) (r : Fin 1152) (w : Fin 128) :
    matmul dot_S1152x128_S128x128_S1152x128_1_0_0_1_n_n (some .fp32) A B (constant (F := Ideal) S1152x128 .f32 0x00000000#32) (ix2 r w)
      = ∑ k : Fin 128, A (ix2 r k) * B (ix2 k w) := by
  show FloatOps.matmul dot_S1152x128_S128x128_S1152x128_1_0_0_1_n_n (some .fp32) A B (constant (F := Ideal) S1152x128 .f32 0x00000000#32) (ix2 r w) = _
  rw [Ideal.matmul_constant_zero_apply, ← Equiv.sum_comp (contrEquiv1 dot_S1152x128_S128x128_S1152x128_1_0_0_1_n_n 128 rfl rfl).symm]
  refine Finset.sum_congr rfl fun c _ => ?_
  have c2 := contrEquiv1_symm_val dot_S1152x128_S128x128_S1152x128_1_0_0_1_n_n 128 rfl rfl c
  have l2 : dot_S1152x128_S128x128_S1152x128_1_0_0_1_n_n.lhsIdx (ix2 r w) ((contrEquiv1 _ 128 rfl rfl).symm c) = ix2 r c := by
    funext ax; apply Fin.ext
    match ax with
    | ⟨0, _⟩ => exact lhs_D2_0 _ _
    | ⟨1, _⟩ => exact (lhs_D2_1 _ _).trans c2
  have r2 : dot_S1152x128_S128x128_S1152x128_1_0_0_1_n_n.rhsIdx (ix2 r w) ((contrEquiv1 _ 128 rfl rfl).symm c) = ix2 c w := by
    funext ax; apply Fin.ext
    match ax with
    | ⟨0, _⟩ => exact (rhs_D2_0 _ _).trans c2
    | ⟨1, _⟩ => exact rhs_D2_1 _ _
  rw [l2, r2]

/-! ### The layout steps at an entry -/

/-- Row `c · 128 + h` of the `[1152, 128]` matrix whose rows are the nine channel planes stacked. -/
def planeRow (c : Fin 9) (h : Fin 128) : Fin 1152 := ⟨c.val * 128 + h.val, by have := c.isLt; have := h.isLt; omega⟩

/-- The lanes split into pixel and channel: `[1, 128, 1152]` cast to `[1, 128, 128, 9]` reads, at `(0, h, w, c)`, lane
    `w · 9 + c` of row `h`. -/
theorem cast_lanes_apply {α : Type} (x : S1x128x1152.Idx → α) (hc : S1x128x1152.ShapeCasts S1x128x128x9)
    (h w : Fin 128) (c : Fin 9) :
    shapeCast S1x128x128x9 x hc (ix4 0 h w c) = x (ix3 0 h (lane w c)) :=
  shapeCast_apply x hc _ _ (by
    rw [Shape.rowMajor_val_three, Shape.rowMajor_val_four]
    show ((0 : ℕ) * 128 + h.val) * 1152 + (w.val * 9 + c.val) = (((0 : ℕ) * 128 + h.val) * 128 + w.val) * 9 + c.val
    omega)

/-- The channel axis moved in front of the pixel axes. -/
theorem transpose_planes_apply {α : Type} (x : S1x128x128x9.Idx → α) (ht : S1x128x128x9.Transposes [0, 3, 1, 2] S1x9x128x128)
    (c : Fin 9) (h w : Fin 128) :
    transpose S1x9x128x128 [0, 3, 1, 2] x ht (ix4 0 c h w) = x (ix4 0 h w c) :=
  transpose_apply _ x ht _ _ fun b => match b with | ⟨0, _⟩ => rfl | ⟨1, _⟩ => rfl | ⟨2, _⟩ => rfl | ⟨3, _⟩ => rfl

/-- The nine planes stacked into one tall matrix: `[1, 9, 128, 128]` cast to `[1, 1152, 128]`. -/
theorem cast_stack_apply {α : Type} (x : S1x9x128x128.Idx → α) (hc : S1x9x128x128.ShapeCasts S1x1152x128)
    (c : Fin 9) (h w : Fin 128) :
    shapeCast S1x1152x128 x hc (ix3 0 (planeRow c h) w) = x (ix4 0 c h w) :=
  shapeCast_apply x hc _ _ (by
    rw [Shape.rowMajor_val_three, Shape.rowMajor_val_four]
    show (((0 : ℕ) * 9 + c.val) * 128 + h.val) * 128 + w.val = ((0 : ℕ) * 1152 + (c.val * 128 + h.val)) * 128 + w.val
    omega)

/-- And the tall matrix cut back into nine planes: `[1, 1152, 128]` cast to `[1, 9, 128, 128]`. -/
theorem cast_unstack_apply {α : Type} (x : S1x1152x128.Idx → α) (hc : S1x1152x128.ShapeCasts S1x9x128x128)
    (c : Fin 9) (h w : Fin 128) :
    shapeCast S1x9x128x128 x hc (ix4 0 c h w) = x (ix3 0 (planeRow c h) w) :=
  shapeCast_apply x hc _ _ (by
    rw [Shape.rowMajor_val_three, Shape.rowMajor_val_four]
    show ((0 : ℕ) * 1152 + (c.val * 128 + h.val)) * 128 + w.val = (((0 : ℕ) * 9 + c.val) * 128 + h.val) * 128 + w.val
    omega)

/-! ### The two selector products -/

/-- The first product: multiplying on the left by a selector whose row `h` is one at `k₀` and zero elsewhere reads
    row `k₀` of the block. -/
theorem rowProduct_apply (A : FVec Ideal S1x128x128 .f32) (X : FVec Ideal S1x128x1152 .f32)
    (hc1 : S1x128x128.ShapeCasts S128x128) (hc2 : S1x128x1152.ShapeCasts S128x1152) (h k₀ : Fin 128)
    (hA : ∀ h' : Fin 128, A (ix3 0 h h') = if h' = k₀ then 1 else 0) (l : Fin 1152) :
    matmul dot_S128x128_S128x1152_S128x1152_1_0_0_1_n_n (some .fp32) (shapeCast S128x128 A hc1) (shapeCast S128x1152 X hc2)
        (constant (F := Ideal) S128x1152 .f32 0x00000000#32) (ix2 h l)
      = X (ix3 0 k₀ l) := by
  rw [mm1_apply]
  rw [Finset.sum_congr rfl (fun k _ => by rw [shapeCast_1ab_ab_apply, shapeCast_1ab_ab_apply, hA])]
  exact sum_onehot_mul k₀ (fun k => X (ix3 0 k l))

/-- The second product: multiplying on the right by a selector whose column `w` is one at `k₀` and zero elsewhere
    reads column `k₀`. -/
theorem colProduct_apply (Y : FVec Ideal S1152x128 .f32) (B : FVec Ideal S1x128x128 .f32)
    (hc : S1x128x128.ShapeCasts S128x128) (w k₀ : Fin 128)
    (hB : ∀ w' : Fin 128, B (ix3 0 w' w) = if w' = k₀ then 1 else 0) (r : Fin 1152) :
    matmul dot_S1152x128_S128x128_S1152x128_1_0_0_1_n_n (some .fp32) Y (shapeCast S128x128 B hc)
        (constant (F := Ideal) S1152x128 .f32 0x00000000#32) (ix2 r w)
      = Y (ix2 r k₀) := by
  rw [mm2_apply]
  rw [Finset.sum_congr rfl (fun k _ => by rw [shapeCast_1ab_ab_apply, hB])]
  exact sum_mul_onehot k₀ (fun k => Y (ix2 r k))

/-- Entry `(cin, h, w)` of the doubly permuted block: the loaded block at row `row_perm[h]`, pixel `col_perm[w]`,
    channel `cin`. -/
theorem pay3_apply (v0 : Vec Ideal S1x128x1 .i32) (v7 : Vec Ideal S1x1x128 .i32) (v16 : Vec Ideal S1x128x1152 .f32)
    (hrow : ∀ h : Fin 128, InRange 128 (v0 (ix3 0 h 0))) (hcol : ∀ w : Fin 128, InRange 128 (v7 (ix3 0 0 w)))
    (cin : Fin 9) (h w : Fin 128) :
    k0_pay3 (F := Ideal) v0 v7 v16 (ix4 0 cin h w)
      = v16 (ix3 0 (pos128 (v0 (ix3 0 h 0))) (lane (pos128 (v7 (ix3 0 0 w))) cin)) := by
  unfold k0_pay3
  rw [cast_unstack_apply, shapeCast_ab_1ab_apply,
    colProduct_apply _ _ _ w (pos128 (v7 (ix3 0 0 w))) (fun w' => colSel_apply v7 _ _ _ _ hcol w' w),
    shapeCast_1ab_ab_apply, cast_stack_apply, transpose_planes_apply, cast_lanes_apply, shapeCast_ab_1ab_apply,
    rowProduct_apply _ _ _ _ h (pos128 (v0 (ix3 0 h 0))) (fun h' => rowSel_apply v0 _ _ _ _ hrow h h'),
    shapeCast_self]

end Cert.KernelIdeal.Body

end
-- ==== Proof.KMix.lean ====
/-
  What the kernel body leaves in the output block, read at one element.

  After the two selector products the body mixes the nine channel planes with the sample's 9 × 9 channel selector:
  output plane c is the sum over cin of plane cin times selector entry (c, cin). When row c of the selector is one at
  q c and zero elsewhere the sum is plane q c. The planes are then stacked, the channel axis moved back into the
  lanes, and the block stored whole.
-/
import proofs.«430446_j88493506166927_3_alg».proof.Proof.Gen.KernelIdeal.Frame
import proofs.«430446_j88493506166927_3_alg».proof.Proof.KBody

open scoped BigOperators

noncomputable section

namespace Cert.KernelIdeal.Body

open Idealize.ShloMosaic Idealize.ShloMosaic.ValueIdx Cert.KernelIdeal Cert.KernelIdeal.Gen Cert.Flip

namespace Mix

/-! ## Small facts used below -/

/-- The zero offset of a whole rank-3 block, as a function. -/
theorem hz3 : (![0, 0, 0] : Fin 3 → Nat) = fun _ => 0 := funext fun a => by fin_cases a <;> rfl

/-- A nine-term sum of products against the indicator of `k` is the `k`-th factor. -/
theorem nine_onehot (f s : Fin 9 → EReal) (k : Fin 9) (hs : ∀ cin : Fin 9, s cin = if cin = k then (1 : EReal) else 0) :
    f 0 * s 0 + f 1 * s 1 + f 2 * s 2 + f 3 * s 3 + f 4 * s 4 + f 5 * s 5 + f 6 * s 6 + f 7 * s 7 + f 8 * s 8 = f k := by
  have e : ∑ cin : Fin 9, f cin * s cin
      = f 0 * s 0 + f 1 * s 1 + f 2 * s 2 + f 3 * s 3 + f 4 * s 4 + f 5 * s 5 + f 6 * s 6 + f 7 * s 7 + f 8 * s 8 := by
    rw [Fin.sum_univ_castSucc, Fin.sum_univ_eight]
    rfl
  rw [← e]
  simp only [hs]
  exact sum_mul_onehot k f

/-- One of nine things, by position. -/
def pick9 {α : Type} (p0 p1 p2 p3 p4 p5 p6 p7 p8 : α) : Fin 9 → α
  | ⟨0, _⟩ => p0
  | ⟨1, _⟩ => p1
  | ⟨2, _⟩ => p2
  | ⟨3, _⟩ => p3
  | ⟨4, _⟩ => p4
  | ⟨5, _⟩ => p5
  | ⟨6, _⟩ => p6
  | ⟨7, _⟩ => p7
  | ⟨8, _⟩ => p8

/-! ## One selector entry spread over a plane -/

theorem entry_lt1 {a b : Nat} (hs : S1x9x9.Slices ![0, a, b] S1x1x1) : a < 9 := by
  obtain ⟨_, h⟩ := hs
  exact h ⟨1, by decide⟩

theorem entry_lt2 {a b : Nat} (hs : S1x9x9.Slices ![0, a, b] S1x1x1) : b < 9 := by
  obtain ⟨_, h⟩ := hs
  exact h ⟨2, by decide⟩

/-- Entry `(a, b)` of the 9 × 9 selector, cut out, flattened and spread over a 128 × 128 plane, is that entry
    everywhere. -/
theorem entry_bc_apply (a b : Nat) (v15 : FVec Ideal S1x9x9 .f32)
    (hs : S1x9x9.Slices ![0, a, b] S1x1x1) (i : S1x128x128.Idx) :
    broadcastTo S1x128x128 (shapeCast S1x1x1 (shapeCast S1 (extractStridedSlice S1x1x1 ![0, a, b] v15 hs)
      shapeCasts_S1x1x1_S1) shapeCasts_S1_S1x1x1) broadcasts_S1x1x1_S1x128x128 i
      = v15 (ix3 0 ⟨a, entry_lt1 hs⟩ ⟨b, entry_lt2 hs⟩) := by
  rw [shapeCast_shapeCast]
  refine (broadcastTo_apply _ _ i (ix3 0 0 0) ?_).trans ?_
  · intro ax
    match ax with
    | ⟨0, _⟩ => rfl
    | ⟨1, _⟩ => rfl
    | ⟨2, _⟩ => rfl
  · exact extractStridedSlice_apply _ _ _ _ _ (fun ax => by
      match ax with
      | ⟨0, _⟩ => rfl
      | ⟨1, _⟩ => rfl
      | ⟨2, _⟩ => rfl)

/-! ## The nine output planes, each a nine-term sum

Output plane `c` at a pixel is the sum over `cin` of input plane `cin` at that pixel times selector entry `(c, cin)`,
added up from `cin = 0` on. -/

theorem plane0_apply (v15 : FVec Ideal S1x9x9 .f32) (v29 : FVec Ideal S1x9x128x128 .f32) (v44 : FVec Ideal S1x1x128x128 .f32)
    (P0 P1 P2 P3 P4 P5 P6 : FVec Ideal S1x128x128 .f32) (i : S1x128x128.Idx) :
    k0_pay14 v15 v29 P0 P1 P2 P3 P4 P5 P6 v44 i
      = P0 i * v15 (ix3 0 0 0) + P1 i * v15 (ix3 0 0 1) + P2 i * v15 (ix3 0 0 2) + P3 i * v15 (ix3 0 0 3)
        + P4 i * v15 (ix3 0 0 4) + P5 i * v15 (ix3 0 0 5) + P6 i * v15 (ix3 0 0 6) + k0_pay12 v44 i * v15 (ix3 0 0 7)
        + k0_pay13 v29 i * v15 (ix3 0 0 8) := by
  simp only [k0_pay14, addf_apply, mulf_apply, entry_bc_apply]
  rfl

theorem plane1_apply (v15 : FVec Ideal S1x9x9 .f32) (P0 P1 P2 P3 P4 P5 P6 P7 P8 : FVec Ideal S1x128x128 .f32)
    (i : S1x128x128.Idx) :
    k0_pay16 v15 P0 P1 P2 P3 P4 P5 P6 P7 P8 (k0_pay15 v15) i
      = P0 i * v15 (ix3 0 1 0) + P1 i * v15 (ix3 0 1 1) + P2 i * v15 (ix3 0 1 2) + P3 i * v15 (ix3 0 1 3)
        + P4 i * v15 (ix3 0 1 4) + P5 i * v15 (ix3 0 1 5) + P6 i * v15 (ix3 0 1 6) + P7 i * v15 (ix3 0 1 7)
        + P8 i * v15 (ix3 0 1 8) := by
  simp only [k0_pay16, k0_pay15, addf_apply, mulf_apply, entry_bc_apply]
  rfl

theorem plane2_apply (v15 : FVec Ideal S1x9x9 .f32) (P0 P1 P2 P3 P4 P5 P6 P7 P8 : FVec Ideal S1x128x128 .f32)
    (i : S1x128x128.Idx) :
    k0_pay18 v15 P2 P3 P4 P5 P6 P7 P8 (k0_pay17 v15 P0 P1) i
      = P0 i * v15 (ix3 0 2 0) + P1 i * v15 (ix3 0 2 1) + P2 i * v15 (ix3 0 2 2) + P3 i * v15 (ix3 0 2 3)
        + P4 i * v15 (ix3 0 2 4) + P5 i * v15 (ix3 0 2 5) + P6 i * v15 (ix3 0 2 6) + P7 i * v15 (ix3 0 2 7)
        + P8 i * v15 (ix3 0 2 8) := by
  simp only [k0_pay18, k0_pay17, addf_apply, mulf_apply, entry_bc_apply]
  rfl

theorem plane3_apply (v15 : FVec Ideal S1x9x9 .f32) (P0 P1 P2 P3 P4 P5 P6 P7 P8 : FVec Ideal S1x128x128 .f32)
    (i : S1x128x128.Idx) :
    k0_pay21 v15 P3 P4 P5 P6 P7 P8 (k0_pay19 v15 P0 P1 P2) (k0_pay20 v15) i
      = P0 i * v15 (ix3 0 3 0) + P1 i * v15 (ix3 0 3 1) + P2 i * v15 (ix3 0 3 2) + P3 i * v15 (ix3 0 3 3)
        + P4 i * v15 (ix3 0 3 4) + P5 i * v15 (ix3 0 3 5) + P6 i * v15 (ix3 0 3 6) + P7 i * v15 (ix3 0 3 7)
        + P8 i * v15 (ix3 0 3 8) := by
  simp only [k0_pay21, k0_pay19, k0_pay20, addf_apply, mulf_apply, entry_bc_apply]
  rfl

theorem plane4_apply (v15 : FVec Ideal S1x9x9 .f32) (P0 P1 P2 P3 P4 P5 P6 P7 P8 : FVec Ideal S1x128x128 .f32)
    (i : S1x128x128.Idx) :
    k0_pay24 v15 P4 P5 P6 P7 P8 (k0_pay22 v15 P0 P1 P2 P3) (k0_pay23 v15) i
      = P0 i * v15 (ix3 0 4 0) + P1 i * v15 (ix3 0 4 1) + P2 i * v15 (ix3 0 4 2) + P3 i * v15 (ix3 0 4 3)
        + P4 i * v15 (ix3 0 4 4) + P5 i * v15 (ix3 0 4 5) + P6 i * v15 (ix3 0 4 6) + P7 i * v15 (ix3 0 4 7)
        + P8 i * v15 (ix3 0 4 8) := by
  simp only [k0_pay24, k0_pay22, k0_pay23, addf_apply, mulf_apply, entry_bc_apply]
  rfl

theorem plane5_apply (v15 : FVec Ideal S1x9x9 .f32) (P0 P1 P2 P3 P4 P5 P6 P7 P8 : FVec Ideal S1x128x128 .f32)
    (i : S1x128x128.Idx) :
    k0_pay27 v15 P5 P6 P7 P8 (k0_pay25 v15 P0 P1 P2 P3 P4) (k0_pay26 v15) i
      = P0 i * v15 (ix3 0 5 0) + P1 i * v15 (ix3 0 5 1) + P2 i * v15 (ix3 0 5 2) + P3 i * v15 (ix3 0 5 3)
        + P4 i * v15 (ix3 0 5 4) + P5 i * v15 (ix3 0 5 5) + P6 i * v15 (ix3 0 5 6) + P7 i * v15 (ix3 0 5 7)
        + P8 i * v15 (ix3 0 5 8) := by
  simp only [k0_pay27, k0_pay25, k0_pay26, addf_apply, mulf_apply, entry_bc_apply]
  rfl

theorem plane6_apply (v15 : FVec Ideal S1x9x9 .f32) (P0 P1 P2 P3 P4 P5 P6 P7 P8 : FVec Ideal S1x128x128 .f32)
    (i : S1x128x128.Idx) :
    k0_pay30 v15 P6 P7 P8 (k0_pay28 v15 P0 P1 P2 P3 P4 P5) (k0_pay29 v15) i
      = P0 i * v15 (ix3 0 6 0) + P1 i * v15 (ix3 0 6 1) + P2 i * v15 (ix3 0 6 2) + P3 i * v15 (ix3 0 6 3)
        + P4 i * v15 (ix3 0 6 4) + P5 i * v15 (ix3 0 6 5) + P6 i * v15 (ix3 0 6 6) + P7 i * v15 (ix3 0 6 7)
        + P8 i * v15 (ix3 0 6 8) := by
  simp only [k0_pay30, k0_pay28, k0_pay29, addf_apply, mulf_apply, entry_bc_apply]
  rfl

theorem plane7_apply (v15 : FVec Ideal S1x9x9 .f32) (P0 P1 P2 P3 P4 P5 P6 P7 P8 : FVec Ideal S1x128x128 .f32)
    (i : S1x128x128.Idx) :
    k0_pay33 v15 P8 (k0_pay31 v15 P0 P1 P2 P3 P4 P5 P6) (k0_pay32 v15 P7) i
      = P0 i * v15 (ix3 0 7 0) + P1 i * v15 (ix3 0 7 1) + P2 i * v15 (ix3 0 7 2) + P3 i * v15 (ix3 0 7 3)
        + P4 i * v15 (ix3 0 7 4) + P5 i * v15 (ix3 0 7 5) + P6 i * v15 (ix3 0 7 6) + P7 i * v15 (ix3 0 7 7)
        + P8 i * v15 (ix3 0 7 8) := by
  simp only [k0_pay33, k0_pay31, k0_pay32, addf_apply, mulf_apply, entry_bc_apply]
  rfl

theorem plane8_apply (v15 : FVec Ideal S1x9x9 .f32) (P0 P1 P2 P3 P4 P5 P6 P7 P8 : FVec Ideal S1x128x128 .f32)
    (i : S1x128x128.Idx) :
    k0_pay34 v15 P0 P1 P2 P3 P4 P5 P6 P7 P8 i
      = P0 i * v15 (ix3 0 8 0) + P1 i * v15 (ix3 0 8 1) + P2 i * v15 (ix3 0 8 2) + P3 i * v15 (ix3 0 8 3)
        + P4 i * v15 (ix3 0 8 4) + P5 i * v15 (ix3 0 8 5) + P6 i * v15 (ix3 0 8 6) + P7 i * v15 (ix3 0 8 7)
        + P8 i * v15 (ix3 0 8 8) := by
  simp only [k0_pay34, addf_apply, mulf_apply, entry_bc_apply]
  rfl

/-! ## The nine input planes are the nine channels of the doubly permuted block -/

theorem slice_lt {o : Nat} (hs : S1x9x128x128.Slices ![0, o, 0, 0] S1x1x128x128) : o < 9 := by
  obtain ⟨_, h⟩ := hs
  exact h ⟨1, by decide⟩

/-- Channel `o` cut out of a 9-channel stack and its unit axis dropped, at a pixel, is the stack at `(o, pixel)`. -/
theorem in_plane_apply (o : Nat) (v29 : FVec Ideal S1x9x128x128 .f32)
    (hs : S1x9x128x128.Slices ![0, o, 0, 0] S1x1x128x128) (h w : Fin 128) :
    shapeCast S1x128x128 (extractStridedSlice S1x1x128x128 ![0, o, 0, 0] v29 hs) shapeCasts_S1x1x128x128_S1x128x128
      (ix3 0 h w) = v29 (ix4 0 ⟨o, slice_lt hs⟩ h w) := by
  refine (shapeCast_1abc_abc_apply _ _ 0 h w).trans ?_
  exact slice4_axis1_apply o v29 hs 0 0 h w ⟨o, slice_lt hs⟩ rfl

theorem in0_apply (v0 : Vec Ideal S1x128x1 .i32) (v7 : Vec Ideal S1x1x128 .i32) (v16 : Vec Ideal S1x128x1152 .f32)
    (h w : Fin 128) : k0_pay4 v0 v7 v16 (ix3 0 h w) = k0_pay3 v0 v7 v16 (ix4 0 0 h w) := by
  simp only [k0_pay4, in_plane_apply]
  rfl

theorem in1_apply (v0 : Vec Ideal S1x128x1 .i32) (v7 : Vec Ideal S1x1x128 .i32) (v16 : Vec Ideal S1x128x1152 .f32)
    (h w : Fin 128) : k0_pay5 v0 v7 v16 (ix3 0 h w) = k0_pay3 v0 v7 v16 (ix4 0 1 h w) := by
  simp only [k0_pay5, in_plane_apply]
  rfl

theorem in2_apply (v0 : Vec Ideal S1x128x1 .i32) (v7 : Vec Ideal S1x1x128 .i32) (v16 : Vec Ideal S1x128x1152 .f32)
    (h w : Fin 128) : k0_pay6 v0 v7 v16 (ix3 0 h w) = k0_pay3 v0 v7 v16 (ix4 0 2 h w) := by
  simp only [k0_pay6, in_plane_apply]
  rfl

theorem in3_apply (v0 : Vec Ideal S1x128x1 .i32) (v7 : Vec Ideal S1x1x128 .i32) (v16 : Vec Ideal S1x128x1152 .f32)
    (h w : Fin 128) : k0_pay7 v0 v7 v16 (ix3 0 h w) = k0_pay3 v0 v7 v16 (ix4 0 3 h w) := by
  simp only [k0_pay7, in_plane_apply]
  rfl

theorem in4_apply (v0 : Vec Ideal S1x128x1 .i32) (v7 : Vec Ideal S1x1x128 .i32) (v16 : Vec Ideal S1x128x1152 .f32)
    (h w : Fin 128) : k0_pay8 v0 v7 v16 (ix3 0 h w) = k0_pay3 v0 v7 v16 (ix4 0 4 h w) := by
  simp only [k0_pay8, in_plane_apply]
  rfl

theorem in5_apply (v0 : Vec Ideal S1x128x1 .i32) (v7 : Vec Ideal S1x1x128 .i32) (v16 : Vec Ideal S1x128x1152 .f32)
    (h w : Fin 128) : k0_pay9 v0 v7 v16 (ix3 0 h w) = k0_pay3 v0 v7 v16 (ix4 0 5 h w) := by
  simp only [k0_pay9, in_plane_apply]
  rfl

theorem in6_apply (v0 : Vec Ideal S1x128x1 .i32) (v7 : Vec Ideal S1x1x128 .i32) (v16 : Vec Ideal S1x128x1152 .f32)
    (h w : Fin 128) : k0_pay10 v0 v7 v16 (ix3 0 h w) = k0_pay3 v0 v7 v16 (ix4 0 6 h w) := by
  simp only [k0_pay10, in_plane_apply]
  rfl

theorem in7_apply (v0 : Vec Ideal S1x128x1 .i32) (v7 : Vec Ideal S1x1x128 .i32) (v16 : Vec Ideal S1x128x1152 .f32)
    (h w : Fin 128) : k0_pay12 (k0_pay11 v0 v7 v16) (ix3 0 h w) = k0_pay3 v0 v7 v16 (ix4 0 7 h w) := by
  simp only [k0_pay12, k0_pay11, in_plane_apply]
  rfl

theorem in8_apply (v29 : FVec Ideal S1x9x128x128 .f32) (h w : Fin 128) :
    k0_pay13 v29 (ix3 0 h w) = v29 (ix4 0 8 h w) := by
  simp only [k0_pay13, in_plane_apply]
  rfl

/-- The selector block is read as it is. -/
theorem sel_eq (v14 : Vec Ideal S1x9x9 .f32) : k0_pay2 v14 = v14 := by
  unfold k0_pay2
  exact shapeCast_self _ _

/-! ## The stacked planes, moved back into the lanes -/

/-- A 9-channel stack with the channel axis moved last and folded into the lanes reads, at row `h` and lane
    `w·9 + c`, the stack at `(c, h, w)`. -/
theorem lanes_apply (X : FVec Ideal S1x9x128x128 .f32) (h w : Fin 128) (c : Fin 9) :
    shapeCast S1x128x1152 (transpose S1x128x128x9 [0, 2, 3, 1] X transposes_S1x9x128x128_p0_2_3_1_S1x128x128x9)
      shapeCasts_S1x128x128x9_S1x128x1152 (ix3 0 h (lane w c)) = X (ix4 0 c h w) := by
  refine (shapeCast_apply _ _ _ (ix4 0 h w c) ?_).trans ?_
  · rw [Shape.rowMajor_val_four, Shape.rowMajor_val_three]
    show ((0 * 128 + h.val) * 128 + w.val) * 9 + c.val = (0 * 128 + h.val) * 1152 + (w.val * 9 + c.val)
    omega
  · exact transpose_apply _ _ _ _ _ (fun b => by
      match b with
      | ⟨0, _⟩ => rfl
      | ⟨1, _⟩ => rfl
      | ⟨2, _⟩ => rfl
      | ⟨3, _⟩ => rfl)

/-- Piece `k` of nine planes stacked along a new channel axis, at channel `k`, is that plane. -/
theorem stack_apply (xs : List ((s : Shape) × (s.Idx → EReal)))
    (hcat : Shape.Concatenates (xs.map (·.1)) S1x9x128x128 1) (k : Nat) (hk9 : k < 9) (hk : k < xs.length)
    (p : FVec Ideal S1x128x128 .f32)
    (hxk : xs[k] = ⟨S1x1x128x128, shapeCast S1x1x128x128 p shapeCasts_S1x128x128_S1x1x128x128⟩)
    (hpre : (((xs.take k).map (·.1)).map fun s =>
      if h : s.rank = S1x9x128x128.rank then s.size ((1 : Fin S1x9x128x128.rank).cast h.symm) else 0).sum = k)
    (h w : Fin 128) :
    concatenate S1x9x128x128 1 xs hcat (ix4 0 ⟨k, hk9⟩ h w) = p (ix3 0 h w) := by
  refine (concatenate_apply_piece (1 : Fin S1x9x128x128.rank) xs hcat (ix4 0 ⟨k, hk9⟩ h w) k hk S1x1x128x128 _ hxk rfl k hpre
    (ix4 0 0 h w) (fun b hb => ?_) rfl).trans ?_
  · match b with
    | ⟨0, _⟩ => rfl
    | ⟨1, _⟩ => exact absurd rfl hb
    | ⟨2, _⟩ => rfl
    | ⟨3, _⟩ => rfl
  · exact shapeCast_abc_1abc_apply p _ 0 0 h w

/-- The stored block at row `h`, lane `w·9 + c`, is output plane `c` at pixel `(h, w)`. -/
theorem pay1_apply (p0 p1 p2 p3 p4 p5 p6 p7 p8 : FVec Ideal S1x128x128 .f32) (h w : Fin 128) (c : Fin 9) :
    k0_pay1 p0 p1 p2 p3 p4 p5 p6 p7 p8 (ix3 0 h (lane w c)) = pick9 p0 p1 p2 p3 p4 p5 p6 p7 p8 c (ix3 0 h w) := by
  simp only [k0_pay1]
  rw [lanes_apply]
  match c with
  | ⟨0, _⟩ =>
    refine stack_apply _ _ 0 _ ?_ p0 ?_ ?_ h w
    · show (_ : ℕ) < 9
      decide
    · rfl
    · rfl
  | ⟨1, _⟩ =>
    refine stack_apply _ _ 1 _ ?_ p1 ?_ ?_ h w
    · show (_ : ℕ) < 9
      decide
    · rfl
    · rfl
  | ⟨2, _⟩ =>
    refine stack_apply _ _ 2 _ ?_ p2 ?_ ?_ h w
    · show (_ : ℕ) < 9
      decide
    · rfl
    · rfl
  | ⟨3, _⟩ =>
    refine stack_apply _ _ 3 _ ?_ p3 ?_ ?_ h w
    · show (_ : ℕ) < 9
      decide
    · rfl
    · rfl
  | ⟨4, _⟩ =>
    refine stack_apply _ _ 4 _ ?_ p4 ?_ ?_ h w
    · show (_ : ℕ) < 9
      decide
    · rfl
    · rfl
  | ⟨5, _⟩ =>
    refine stack_apply _ _ 5 _ ?_ p5 ?_ ?_ h w
    · show (_ : ℕ) < 9
      decide
    · rfl
    · rfl
  | ⟨6, _⟩ =>
    refine stack_apply _ _ 6 _ ?_ p6 ?_ ?_ h w
    · show (_ : ℕ) < 9
      decide
    · rfl
    · rfl
  | ⟨7, _⟩ =>
    refine stack_apply _ _ 7 _ ?_ p7 ?_ ?_ h w
    · show (_ : ℕ) < 9
      decide
    · rfl
    · rfl
  | ⟨8, _⟩ =>
    refine stack_apply _ _ 8 _ ?_ p8 ?_ ?_ h w
    · show (_ : ℕ) < 9
      decide
    · rfl
    · rfl

/-! ## Output plane `c`, whichever it is -/

/-- Each of the nine output planes, at a pixel, is the nine-term sum of the input planes at that pixel against row
    `c` of the selector. -/
theorem mixed_apply (v15 : FVec Ideal S1x9x9 .f32) (v29 : FVec Ideal S1x9x128x128 .f32)
    (v44 : FVec Ideal S1x1x128x128 .f32) (P0 P1 P2 P3 P4 P5 P6 : FVec Ideal S1x128x128 .f32) (c : Fin 9)
    (i : S1x128x128.Idx) :
    pick9 (k0_pay14 v15 v29 P0 P1 P2 P3 P4 P5 P6 v44)
        (k0_pay16 v15 P0 P1 P2 P3 P4 P5 P6 (k0_pay12 v44) (k0_pay13 v29) (k0_pay15 v15))
        (k0_pay18 v15 P2 P3 P4 P5 P6 (k0_pay12 v44) (k0_pay13 v29) (k0_pay17 v15 P0 P1))
        (k0_pay21 v15 P3 P4 P5 P6 (k0_pay12 v44) (k0_pay13 v29) (k0_pay19 v15 P0 P1 P2) (k0_pay20 v15))
        (k0_pay24 v15 P4 P5 P6 (k0_pay12 v44) (k0_pay13 v29) (k0_pay22 v15 P0 P1 P2 P3) (k0_pay23 v15))
        (k0_pay27 v15 P5 P6 (k0_pay12 v44) (k0_pay13 v29) (k0_pay25 v15 P0 P1 P2 P3 P4) (k0_pay26 v15))
        (k0_pay30 v15 P6 (k0_pay12 v44) (k0_pay13 v29) (k0_pay28 v15 P0 P1 P2 P3 P4 P5) (k0_pay29 v15))
        (k0_pay33 v15 (k0_pay13 v29) (k0_pay31 v15 P0 P1 P2 P3 P4 P5 P6) (k0_pay32 v15 (k0_pay12 v44)))
        (k0_pay34 v15 P0 P1 P2 P3 P4 P5 P6 (k0_pay12 v44) (k0_pay13 v29)) c i
      = P0 i * v15 (ix3 0 c 0) + P1 i * v15 (ix3 0 c 1) + P2 i * v15 (ix3 0 c 2) + P3 i * v15 (ix3 0 c 3)
        + P4 i * v15 (ix3 0 c 4) + P5 i * v15 (ix3 0 c 5) + P6 i * v15 (ix3 0 c 6) + k0_pay12 v44 i * v15 (ix3 0 c 7)
        + k0_pay13 v29 i * v15 (ix3 0 c 8) := by
  match c with
  | ⟨0, _⟩ => exact plane0_apply v15 v29 v44 P0 P1 P2 P3 P4 P5 P6 i
  | ⟨1, _⟩ => exact plane1_apply v15 P0 P1 P2 P3 P4 P5 P6 _ _ i
  | ⟨2, _⟩ => exact plane2_apply v15 P0 P1 P2 P3 P4 P5 P6 _ _ i
  | ⟨3, _⟩ => exact plane3_apply v15 P0 P1 P2 P3 P4 P5 P6 _ _ i
  | ⟨4, _⟩ => exact plane4_apply v15 P0 P1 P2 P3 P4 P5 P6 _ _ i
  | ⟨5, _⟩ => exact plane5_apply v15 P0 P1 P2 P3 P4 P5 P6 _ _ i
  | ⟨6, _⟩ => exact plane6_apply v15 P0 P1 P2 P3 P4 P5 P6 _ _ i
  | ⟨7, _⟩ => exact plane7_apply v15 P0 P1 P2 P3 P4 P5 P6 _ _ i
  | ⟨8, _⟩ => exact plane8_apply v15 P0 P1 P2 P3 P4 P5 P6 _ _ i

end Mix

open Mix

/-- Entry `(h, w·9 + c)` of the output block after the body: the input block at row `row_perm[h]`, pixel
    `col_perm[w]`, channel `q c`, when the row and column words are in range and row `c` of the channel selector is
    the indicator of `q c`. -/
theorem out0_4_apply (x0 : Vec Ideal S1x128x1152 .f32) (x1 : Vec Ideal S1x128x1 .i32) (x2 : Vec Ideal S1x1x128 .i32)
    (x3 : Vec Ideal S1x9x9 .f32)
    (hrow : ∀ h : Fin 128, InRange 128 (x1 (ix3 0 h 0))) (hcol : ∀ w : Fin 128, InRange 128 (x2 (ix3 0 0 w)))
    (q : Fin 9 → Fin 9) (hq : ∀ c cin : Fin 9, x3 (ix3 0 c cin) = if cin = q c then (1 : EReal) else 0)
    (h w : Fin 128) (c : Fin 9) :
    out0_4 (F := Ideal) x0 x1 x2 x3 (ix3 0 h (lane w c))
      = x0 (ix3 0 (pos128 (x1 (ix3 0 h 0))) (lane (pos128 (x2 (ix3 0 0 w))) (q c))) := by
  unfold out0_4
  rw [View.canon_unit_zero hz3]
  simp only [View.ld_unit_zero (S := S1x128x1) hz3, View.ld_unit_zero (S := S1x1x128) hz3,
    View.ld_unit_zero (S := S1x9x9) hz3, View.ld_unit_zero (S := S1x128x1152) hz3]
  rw [pay1_apply, mixed_apply, in0_apply, in1_apply, in2_apply, in3_apply, in4_apply, in5_apply, in6_apply, in7_apply,
    in8_apply, sel_eq]
  exact (nine_onehot (fun cin => k0_pay3 x1 x2 x0 (ix4 0 cin h w)) (fun cin => x3 (ix3 0 c cin)) (q c) (hq c)).trans
    (pay3_apply x1 x2 x0 hrow hcol (q c) h w)

end Cert.KernelIdeal.Body

end
-- ==== Proof.KHost.lean ====
/-
  The arrays the kernel's region finds, read at one element.

  Before the region the host re-lays the input as [256, 128, 1152] (pixel w, channel c at lane w·9 + c), gives
  row_perm a trailing unit axis and col_perm a middle one, and turns the channel map into a [256, 9, 9] selector
  whose entry (b, c, cin) is one exactly when the map sends c to cin.
-/
import proofs.«430446_j88493506166927_3_alg».proof.Proof.Gen.KernelIdeal.Frame
import proofs.«430446_j88493506166927_3_alg».proof.Proof.Spec
import proofs.«430446_j88493506166927_3_alg».proof.Proof.PChain
import Idealize.ShloMosaic.Lib.StableHlo.Run
import Idealize.ShloMosaic.Lib.StableHlo.Predicate
import Idealize.ShloMosaic.Lib.Pipeline.Value
import Idealize.ShloMosaic.Lib.ValueIdx

noncomputable section

namespace Cert.KernelIdeal.HostVals

open Idealize.ShloMosaic Idealize.ShloMosaic.ValueIdx Idealize.SL.Sem Cert.KernelIdeal Cert.KernelIdeal.Gen Cert.Flip

variable (m : (ℓ : Loc nD τ sig) → Buf (Elt Ideal) ℓ)

/-! ## The three re-laid arguments -/

/-- The first window's array is the input re-read in row-major order at the shape [256, 128, 1152]. -/
theorem V35_eq (c : Dev nD) :
    (V (F := Ideal) m c main_v35 : S256x128x1152.Idx → EReal)
      = shapeCast S256x128x1152 (m ((c.tc : Thread nD τ).loc main_arg0)) shapeCasts_S256x128x128x9_S256x128x1152 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  open StableHlo in after_results
  rfl

/-- The second window's array is the row table repeated along a new trailing axis of extent one. -/
theorem V36_eq (c : Dev nD) :
    (V (F := Ideal) m c main_v36 : S256x128x1.Idx → BitVec 32)
      = broadcastInDim S256x128x1 ![0, 1] bcast_S256x128_S256x128x1_0_1 (m ((c.tc : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  open StableHlo in after_results

/-- The third window's array is the column table repeated along a new middle axis of extent one. -/
theorem V37_eq (c : Dev nD) :
    (V (F := Ideal) m c main_v37 : S256x1x128.Idx → BitVec 32)
      = broadcastInDim S256x1x128 ![0, 2] bcast_S256x128_S256x1x128_0_2 (m ((c.tc : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  open StableHlo in after_results

/-- The re-laid input at `(b, h, w·9 + ch)` is the input at `(b, h, w, ch)`: both sit at the row-major position
    `((b·128 + h)·128 + w)·9 + ch = (b·128 + h)·1152 + (w·9 + ch)`. -/
theorem V35_apply (c : Dev nD) (b : Fin 256) (h w : Fin 128) (ch : Fin 9) :
    V (F := Ideal) m c main_v35 (ix3 b h (lane w ch)) = m ((c.tc : Thread nD τ).loc main_arg0) (ix4 b h w ch) := by
  refine (congrFun (V35_eq m c) _).trans (shapeCast_apply _ _ _ (ix4 b h w ch) ?_)
  rw [Shape.rowMajor_val_four, Shape.rowMajor_val_three]
  show ((b.val * 128 + h.val) * 128 + w.val) * 9 + ch.val = (b.val * 128 + h.val) * 1152 + (w.val * 9 + ch.val)
  omega

/-- The row table with its trailing unit axis. -/
theorem V36_apply (c : Dev nD) (b : Fin 256) (h : Fin 128) :
    V (F := Ideal) m c main_v36 (ix3 b h 0) = m ((c.tc : Thread nD τ).loc main_arg1) (ix2 b h) := by
  refine (congrFun (V36_eq m c) _).trans (broadcastInDim_apply _ _ _ _ (ix2 b h) ?_)
  intro a
  match a with
  | ⟨0, _⟩ => rfl
  | ⟨1, _⟩ => rfl

/-- The column table with its middle unit axis. -/
theorem V37_apply (c : Dev nD) (b : Fin 256) (w : Fin 128) :
    V (F := Ideal) m c main_v37 (ix3 b 0 w) = m ((c.tc : Thread nD τ).loc main_arg2) (ix2 b w) := by
  refine (congrFun (V37_eq m c) _).trans (broadcastInDim_apply _ _ _ _ (ix2 b w) ?_)
  intro a
  match a with
  | ⟨0, _⟩ => rfl
  | ⟨1, _⟩ => rfl

/-! ## The channel selector -/

/-- A one-bit equality test converted to a float is the indicator of the equality. -/
theorem uitofp_cmpi_eq (a c : BitVec 32) :
    (FloatOps.uitofp (F := Ideal) .f32 (IntOp.cmpi .eq a c) : EReal) = if a = c then 1 else 0 := by
  show ((((IntOp.cmpi .eq a c).toNat : ℕ) : ℝ) : EReal) = _
  by_cases h : a = c
  · rw [if_pos h, StableHlo.Predicate.cmpi_eq_iff.mpr h]
    simp
  · rw [if_neg h, eq_zero_of_ne_one (fun h1 => h (StableHlo.Predicate.cmpi_eq_iff.mp h1))]
    simp

/-- A table given a trailing unit axis and then repeated along it reads the table. -/
theorem bcast_tab_apply {α : Type} (v : S256x9.Idx → α) (b : Fin 256) (co ci : Fin 9) :
    broadcastInDim S256x9x9 ![0, 1, 2] bcast_S256x9x1_S256x9x9_0_1_2
      (broadcastInDim S256x9x1 ![0, 1] bcast_S256x9_S256x9x1_0_1 v) (ix3 b co ci) = v (ix2 b co) := by
  rw [broadcastInDim_apply _ _ _ (ix3 b co ci) (ix3 b co (0 : Fin 1))
    (by intro a; match a with | ⟨0, _⟩ => rfl | ⟨1, _⟩ => rfl | ⟨2, _⟩ => rfl)]
  exact broadcastInDim_apply _ _ _ _ (ix2 b co) (by intro a; match a with | ⟨0, _⟩ => rfl | ⟨1, _⟩ => rfl)

/-- A row given two leading unit axes and then repeated along them reads the row. -/
theorem bcast_row_apply {α : Type} (v : S9.Idx → α) (b : Fin 256) (co ci : Fin 9) :
    broadcastInDim S256x9x9 ![0, 1, 2] bcast_S1x1x9_S256x9x9_0_1_2
      (broadcastInDim S1x1x9 ![2] bcast_S9_S1x1x9_2 v) (ix3 b co ci) = v (ix1 ci) := by
  rw [broadcastInDim_apply _ _ _ (ix3 b co ci) (ix3 (0 : Fin 1) (0 : Fin 1) ci)
    (by intro a; match a with | ⟨0, _⟩ => rfl | ⟨1, _⟩ => rfl | ⟨2, _⟩ => rfl)]
  exact broadcastInDim_apply _ _ _ _ (ix1 ci) (by intro a; match a with | ⟨0, _⟩ => rfl)

/-- The selector built from a table of words: at `(b, co, ci)` it compares the table's word at `(b, co)` with the
    word of `ci`, and is one where they agree and zero elsewhere. -/
theorem sel_apply (v : IVec S256x9 32) (b : Fin 256) (co ci : Fin 9) :
    (uitofp .f32 (cmpi .eq
        (broadcastInDim S256x9x9 ![0, 1, 2] bcast_S256x9x1_S256x9x9_0_1_2
          (broadcastInDim S256x9x1 ![0, 1] bcast_S256x9_S256x9x1_0_1 v))
        (broadcastInDim S256x9x9 ![0, 1, 2] bcast_S1x1x9_S256x9x9_0_1_2
          (broadcastInDim S1x1x9 ![2] bcast_S9_S1x1x9_2 (iotaInDim S9 32 0)))) : FVec Ideal S256x9x9 .f32) (ix3 b co ci)
      = if v (ix2 b co) = BitVec.ofNat 32 ci.val then (1 : EReal) else 0 := by
  show FloatOps.uitofp (F := Ideal) .f32 (IntOp.cmpi .eq _ _) = _
  rw [bcast_tab_apply, bcast_row_apply, uitofp_cmpi_eq]
  rfl

/-- A word in the channel range is the word of `ci` exactly when `ci` is the channel it names: both say that the
    word, read signed, is the integer `ci`. -/
theorem word_eq_iff {v : BitVec 32} (hv : InRange 9 v) (ci : Fin 9) : v = BitVec.ofNat 32 ci.val ↔ ci = pos9 v := by
  have hp := pos9_val hv
  have hci := ci.isLt
  constructor
  · intro h
    apply Fin.ext
    have : v.toInt = (ci.val : ℤ) := by rw [h]; exact StableHlo.Predicate.toInt_ofNat_small ci.val (by omega)
    omega
  · intro h
    apply BitVec.eq_of_toInt_eq
    rw [StableHlo.Predicate.toInt_ofNat_small ci.val (by omega), h]
    exact hp.symm

/-- The fourth window's array is the selector built from the channel-map buffer. -/
theorem V34_eq (c : Dev nD) :
    (V (F := Ideal) m c main_v34 : S256x9x9.Idx → EReal)
      = (uitofp .f32 (cmpi .eq
        (broadcastInDim S256x9x9 ![0, 1, 2] bcast_S256x9x1_S256x9x9_0_1_2
          (broadcastInDim S256x9x1 ![0, 1] bcast_S256x9_S256x9x1_0_1 (V (F := Ideal) m c main_v28 : S256x9.Idx → BitVec 32)))
        (broadcastInDim S256x9x9 ![0, 1, 2] bcast_S1x1x9_S256x9x9_0_1_2
          (broadcastInDim S1x1x9 ![2] bcast_S9_S1x1x9_2 (iotaInDim S9 32 0)))) : FVec Ideal S256x9x9 .f32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  open StableHlo in after_results_simp

/-- The channel-map buffer holds the channel map of the flags: the host operations that fill it are, one for one,
    the operations that define the map. -/
theorem V28_eq (c : Dev nD) :
    (V (F := Ideal) m c main_v28 : S256x9.Idx → BitVec 32) = pchain (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  open StableHlo in after_results_simp
  simp only [StableHlo.TRef.ofBuf, StableHlo.TRef.toBuf, cast_eq]
  rfl

/-- The channel selector: entry `(b, co, ci)` is one exactly when the channel map sends `co` to `ci`. -/
theorem V34_apply (c : Dev nD) (b : Fin 256) (co ci : Fin 9) :
    V (F := Ideal) m c main_v34 (ix3 b co ci)
      = if ci = pos9 (pchain (m ((c.tc : Thread nD τ).loc main_arg3)) (ix2 b co)) then (1 : EReal) else 0 := by
  have e := congrFun (V34_eq m c) (ix3 b co ci)
  rw [V28_eq m c, sel_apply] at e
  exact e.trans (if_congr (word_eq_iff (pchain_range _ _) ci) rfl rfl)

end Cert.KernelIdeal.HostVals

end
-- ==== Proof.KValue.lean ====
/-
  The kernel's result array as one function of the arguments.

  Grid point b stages sample b of each operand, the body writes the permuted sample into the output block, and the
  blocks of the 256 points tile the output array; the host then re-lays it as [256, 128, 128, 9].
-/
import proofs.«430446_j88493506166927_3_alg».proof.Proof.Gen.KernelIdeal.Frame
import proofs.«430446_j88493506166927_3_alg».proof.Proof.Spec
import proofs.«430446_j88493506166927_3_alg».proof.Proof.PChain
import proofs.«430446_j88493506166927_3_alg».proof.Proof.KMix
import proofs.«430446_j88493506166927_3_alg».proof.Proof.KHost
import Idealize.ShloMosaic.Lib.Pipeline.Value

noncomputable section

namespace Cert.KernelIdeal.Value

open Idealize.ShloMosaic Idealize.ShloMosaic.ValueIdx Idealize.SL.Sem Cert.KernelIdeal Cert.KernelIdeal.Gen Cert.Flip
open Idealize.ShloMosaic.Pipeline (Dat)

section Blocks

variable (m : (ℓ : Loc nD τ sig) → Buf (Elt Ideal) ℓ)

/-! ## Where a grid point's blocks sit -/

/-- Every window's index map sends grid point `t` to block `(t, 0, 0)`: the point works on sample `t` alone. -/
theorem point_blocks : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The sample grid point `t` works on. -/
def sample (t : Fin cfg0.N) : Fin 256 := ⟨t.val, lt_of_lt_of_eq t.isLt N_0⟩

/-! ## Lanes: pixel and channel of a position among the 1152 of a row -/

/-- The pixel of lane `j`. -/
def pix (j : Fin 1152) : Fin 128 := ⟨j.val / 9, by have := j.isLt; omega⟩
/-- The channel of lane `j`. -/
def chan (j : Fin 1152) : Fin 9 := ⟨j.val % 9, by omega⟩

/-- Every lane is the lane of its pixel and channel. -/
theorem lane_pix_chan (j : Fin 1152) : lane (pix j) (chan j) = j :=
  Fin.ext (by show j.val / 9 * 9 + j.val % 9 = j.val; omega)
theorem pix_lane (w : Fin 128) (ch : Fin 9) : pix (lane w ch) = w :=
  Fin.ext (by show (w.val * 9 + ch.val) / 9 = w.val; have := ch.isLt; omega)
theorem chan_lane (w : Fin 128) (ch : Fin 9) : chan (lane w ch) = ch :=
  Fin.ext (by show (w.val * 9 + ch.val) % 9 = ch.val; have := ch.isLt; omega)

/-! ## The result with pixels and channels laid along one axis -/

/-- The permuted input as a [256, 128, 1152] array: entry `(b, h, j)` is entry `(b, h, pixel of j, channel of j)`
    of `G` of the arguments. -/
def permuted (c : Dev nD) : S256x128x1152.Idx → EReal := fun i =>
  G (m ((c.tc : Thread nD τ).loc main_arg0)) (m ((c.tc : Thread nD τ).loc main_arg1))
    (m ((c.tc : Thread nD τ).loc main_arg2)) (pchain (m ((c.tc : Thread nD τ).loc main_arg3)))
    (ix4 (n0 := 256) (n1 := 128) (n2 := 128) (n3 := 9) (i 0) (i 1) (pix (i 2)) (chan (i 2)))

/-- Its entry at row `h`, pixel `w`, channel `ch` of sample `b`: the input at the row, pixel and channel the three
    tables name. -/
theorem permuted_apply (c : Dev nD) (b : Fin 256) (h w : Fin 128) (ch : Fin 9) :
    permuted m c (ix3 b h (lane w ch))
      = m ((c.tc : Thread nD τ).loc main_arg0) (ix4 b (pos128 (m ((c.tc : Thread nD τ).loc main_arg1) (ix2 b h)))
          (pos128 (m ((c.tc : Thread nD τ).loc main_arg2) (ix2 b w)))
          (pos9 (pchain (m ((c.tc : Thread nD τ).loc main_arg3)) (ix2 b ch)))) := by
  show G _ _ _ _ (ix4 b h (pix (lane w ch)) (chan (lane w ch))) = _
  rw [pix_lane, chan_lane]
  exact G_apply _ _ _ _ b h w ch

/-! ## The staged blocks of a point, read at an element

    Block `t` of an array of leading extent 256 and unit leading block extent is its slab at sample `t`: the block's
    element `(0, p, q)` is the array's element `(t, p, q)`. -/

/-- The input block: sample `t`, row `h`, lane `j`. -/
theorem xblock_apply (c : Dev nD) (t : Fin cfg0.N) (h : Fin 128) (j : Fin 1152) :
    (iblk m c 0 t : Vec Ideal S1x128x1152 .f32) (ix3 0 h j) = V (F := Ideal) m c main_v35 (ix3 (sample t) h j) := by
  obtain ⟨⟨e0, e1, e2⟩, -⟩ := point_blocks t
  show V (F := Ideal) m c main_v35 (((cfg0.win 0).blk t).view.emb (ix3 0 h j)) = _
  refine congrArg _ (funext fun a => Fin.ext ?_)
  match a with
  | ⟨0, _⟩ => show win0_0.index t (0 : Fin 3) * 1 + 1 * 0 = t.val; omega
  | ⟨1, _⟩ => show win0_0.index t (1 : Fin 3) * 128 + 1 * h.val = h.val; omega
  | ⟨2, _⟩ => show win0_0.index t (2 : Fin 3) * 1152 + 1 * j.val = j.val; omega

/-- The row table's block: sample `t`, row `h`. -/
theorem rowblock_apply (c : Dev nD) (t : Fin cfg0.N) (h : Fin 128) :
    (iblk m c 1 t : Vec Ideal S1x128x1 .i32) (ix3 0 h 0) = V (F := Ideal) m c main_v36 (ix3 (sample t) h 0) := by
  obtain ⟨-, ⟨e0, e1, e2⟩, -⟩ := point_blocks t
  show V (F := Ideal) m c main_v36 (((cfg0.win 1).blk t).view.emb (ix3 0 h 0)) = _
  refine congrArg _ (funext fun a => Fin.ext ?_)
  match a with
  | ⟨0, _⟩ => show win0_1.index t (0 : Fin 3) * 1 + 1 * 0 = t.val; omega
  | ⟨1, _⟩ => show win0_1.index t (1 : Fin 3) * 128 + 1 * h.val = h.val; omega
  | ⟨2, _⟩ => show win0_1.index t (2 : Fin 3) * 1 + 1 * 0 = 0; omega

/-- The column table's block: sample `t`, pixel `w`. -/
theorem colblock_apply (c : Dev nD) (t : Fin cfg0.N) (w : Fin 128) :
    (iblk m c 2 t : Vec Ideal S1x1x128 .i32) (ix3 0 0 w) = V (F := Ideal) m c main_v37 (ix3 (sample t) 0 w) := by
  obtain ⟨-, -, ⟨e0, e1, e2⟩, -⟩ := point_blocks t
  show V (F := Ideal) m c main_v37 (((cfg0.win 2).blk t).view.emb (ix3 0 0 w)) = _
  refine congrArg _ (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 128 + 1 * w.val = w.val; omega

/-- The channel selector's block: sample `t`, output channel `co`, input channel `ci`. -/
theorem selblock_apply (c : Dev nD) (t : Fin cfg0.N) (co ci : Fin 9) :
    (iblk m c 3 t : Vec Ideal S1x9x9 .f32) (ix3 0 co ci) = V (F := Ideal) m c main_v34 (ix3 (sample t) co ci) := by
  obtain ⟨-, -, -, ⟨e0, e1, e2⟩, -⟩ := point_blocks t
  show V (F := Ideal) m c main_v34 (((cfg0.win 3).blk t).view.emb (ix3 0 co ci)) = _
  refine congrArg _ (funext fun a => Fin.ext ?_)
  match a with
  | ⟨0, _⟩ => show win0_3.index t (0 : Fin 3) * 1 + 1 * 0 = t.val; omega
  | ⟨1, _⟩ => show win0_3.index t (1 : Fin 3) * 9 + 1 * co.val = co.val; omega
  | ⟨2, _⟩ => show win0_3.index t (2 : Fin 3) * 9 + 1 * ci.val = ci.val; omega

/-! ## What the body writes is one sample of the permuted array -/

/-- For blocks whose row and column words are positions and whose selector's row `c` is the indicator of `q c`: if
    the input block re-read through the two tables and `q` is slab `b` of an array `A`, the body's output block at
    `(0, h, j)` is `A` at `(b, h, j)` (lane `j` split into its pixel and channel). -/
theorem body_writes_slab (x0 : Vec Ideal S1x128x1152 .f32) (x1 : Vec Ideal S1x128x1 .i32) (x2 : Vec Ideal S1x1x128 .i32)
    (x3 : Vec Ideal S1x9x9 .f32) (A : S256x128x1152.Idx → EReal) (b : Fin 256)
    (hrow : ∀ h : Fin 128, InRange 128 (x1 (ix3 0 h 0))) (hcol : ∀ w : Fin 128, InRange 128 (x2 (ix3 0 0 w)))
    (q : Fin 9 → Fin 9) (hq : ∀ c cin : Fin 9, x3 (ix3 0 c cin) = if cin = q c then (1 : EReal) else 0)
    (hA : ∀ (h w : Fin 128) (ch : Fin 9),
      x0 (ix3 0 (pos128 (x1 (ix3 0 h 0))) (lane (pos128 (x2 (ix3 0 0 w))) (q ch))) = A (ix3 b h (lane w ch)))
    (h : Fin 128) (j : Fin 1152) :
    out0_4 (F := Ideal) x0 x1 x2 x3 (ix3 0 h j) = A (ix3 b h j) :=
  calc out0_4 (F := Ideal) x0 x1 x2 x3 (ix3 0 h j)
      = out0_4 (F := Ideal) x0 x1 x2 x3 (ix3 0 h (lane (pix j) (chan j))) := by rw [lane_pix_chan]
    _ = x0 (ix3 0 (pos128 (x1 (ix3 0 h 0))) (lane (pos128 (x2 (ix3 0 0 (pix j)))) (q (chan j)))) :=
        Body.out0_4_apply x0 x1 x2 x3 hrow hcol q hq h (pix j) (chan j)
    _ = A (ix3 b h (lane (pix j) (chan j))) := hA h (pix j) (chan j)
    _ = A (ix3 b h j) := by rw [lane_pix_chan]

/-- The same at any index of the block: its leading coordinate is `0`. -/
theorem body_writes_slab_idx (x0 : Vec Ideal S1x128x1152 .f32) (x1 : Vec Ideal S1x128x1 .i32)
    (x2 : Vec Ideal S1x1x128 .i32) (x3 : Vec Ideal S1x9x9 .f32) (A : S256x128x1152.Idx → EReal) (b : Fin 256)
    (hrow : ∀ h : Fin 128, InRange 128 (x1 (ix3 0 h 0))) (hcol : ∀ w : Fin 128, InRange 128 (x2 (ix3 0 0 w)))
    (q : Fin 9 → Fin 9) (hq : ∀ c cin : Fin 9, x3 (ix3 0 c cin) = if cin = q c then (1 : EReal) else 0)
    (hA : ∀ (h w : Fin 128) (ch : Fin 9),
      x0 (ix3 0 (pos128 (x1 (ix3 0 h 0))) (lane (pos128 (x2 (ix3 0 0 w))) (q ch))) = A (ix3 b h (lane w ch)))
    (y : S1x128x1152.Idx) :
    out0_4 (F := Ideal) x0 x1 x2 x3 y = A (ix3 b (y 1) (y 2)) := by
  have hy : y = ix3 0 (y 1) (y 2) := by
    funext a
    match a with
    | ⟨0, _⟩ => exact Fin.ext (by have h0 : (y 0).val < 1 := (y 0).isLt; show (y 0).val = 0; omega)
    | ⟨1, _⟩ => rfl
    | ⟨2, _⟩ => rfl
  exact (congrArg (out0_4 (F := Ideal) x0 x1 x2 x3) hy).trans
    (body_writes_slab x0 x1 x2 x3 A b hrow hcol q hq hA (y 1) (y 2))

/-- WHAT POINT `t` WRITES BACK is block `t` of the permuted array: the staged tables hold sample `t`'s positions, the
    staged selector is the indicator of sample `t`'s channel map, and the staged input is sample `t` of the input
    with pixel and channel along the lanes. -/
theorem point_writes_sample (c : Dev nD) (t : Fin cfg0.N)
    (hr : ∀ i : SI.Idx, InRange 128 (m ((c.tc : Thread nD τ).loc main_arg1) i))
    (hc : ∀ i : SI.Idx, InRange 128 (m ((c.tc : Thread nD τ).loc main_arg2) i)) :
    (dats m 0 c).flushed 4 t = ((cfg0.win 4).blk t).view.read (Elt Ideal) (permuted m c) := by
  show (cfg0.win 4).cut (grid0.coords t) ((dats m 0 c).after 4 t) = _
  rw [after0_4]
  obtain ⟨-, -, -, -, e0, e1, e2⟩ := point_blocks t
  have er : ∀ h : Fin 128, (iblk m c 1 t : Vec Ideal S1x128x1 .i32) (ix3 0 h 0)
      = m ((c.tc : Thread nD τ).loc main_arg1) (ix2 (sample t) h) :=
    fun h => (rowblock_apply m c t h).trans (HostVals.V36_apply m c (sample t) h)
  have ec : ∀ w : Fin 128, (iblk m c 2 t : Vec Ideal S1x1x128 .i32) (ix3 0 0 w)
      = m ((c.tc : Thread nD τ).loc main_arg2) (ix2 (sample t) w) :=
    fun w => (colblock_apply m c t w).trans (HostVals.V37_apply m c (sample t) w)
  funext y
  show out0_4 (F := Ideal) (iblk m c 0 t) (iblk m c 1 t) (iblk m c 2 t) (iblk m c 3 t) y
      = permuted m c (((cfg0.win 4).blk t).view.emb y)
  refine (body_writes_slab_idx (iblk m c 0 t) (iblk m c 1 t) (iblk m c 2 t) (iblk m c 3 t) (permuted m c) (sample t)
    (fun h => Eq.mpr (congrArg (InRange 128) (er h)) (hr _))
    (fun w => Eq.mpr (congrArg (InRange 128) (ec w)) (hc _))
    (fun co => pos9 (pchain (m ((c.tc : Thread nD τ).loc main_arg3)) (ix2 (sample t) co)))
    (fun co ci => (selblock_apply m c t co ci).trans (HostVals.V34_apply m c (sample t) co ci))
    ?_ y).trans ?_
  · intro h w ch
    rw [er h, ec w, permuted_apply]
    exact (xblock_apply m c t _ _).trans (HostVals.V35_apply m c (sample t) _ _ _)
  · refine congrArg (permuted m c) (funext fun a => Fin.ext ?_)
    match a with
    | ⟨0, _⟩ =>
      show t.val = win0_4.index t (0 : Fin 3) * 1 + 1 * (y 0).val
      have hy : (y 0).val < 1 := (y 0).isLt
      omega
    | ⟨1, _⟩ => show (y 1).val = win0_4.index t (1 : Fin 3) * 128 + 1 * (y 1).val; omega
    | ⟨2, _⟩ => show (y 2).val = win0_4.index t (2 : Fin 3) * 1152 + 1 * (y 2).val; omega

/-! ## The 256 blocks tile the output array -/

/-- An index of the output array is in point `t`'s block iff each coordinate is in the block's range on its axis. -/
theorem mem_sample_block (t : Fin cfg0.N) (i : S256x128x1152.Idx) :
    i ∈ ((cfg0.win 4).blk t).view.set ↔ ∀ a : Fin 3, win0_4.index t a * S1x128x1152.size a ≤ (i a).val
      ∧ (i a).val < win0_4.index t a * S1x128x1152.size a + S1x128x1152.size a := by
  show i ∈ ((View.whole main_v38).slice (win0_4.rect t)).set ↔ _
  rw [View.set_slice_whole, Rect.mem_set_unit]
  exact Iff.rfl

/-- Index `(b, h, j)` lies in the block of point `b`, which writes back. -/
theorem samples_cover (i : S256x128x1152.Idx) :
    ∃ t : Fin cfg0.N, (cfg0.win 4).flush t = true ∧ i ∈ ((cfg0.win 4).blk t).view.set := by
  have hi0 : (i 0).val < 256 := (i 0).isLt
  have hi1 : (i 1).val < 128 := (i 1).isLt
  have hi2 : (i 2).val < 1152 := (i 2).isLt
  obtain ⟨t, ht⟩ : ∃ t : Fin cfg0.N, t.val = (i 0).val := ⟨⟨(i 0).val, lt_of_lt_of_eq hi0 N_0.symm⟩, rfl⟩
  obtain ⟨-, -, -, -, e0, e1, e2⟩ := point_blocks t
  refine ⟨t, flush0_4 t, ?_⟩
  rw [mem_sample_block]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 1152 ≤ (i 2).val ∧ (i 2).val < win0_4.index t (2 : Fin 3) * 1152 + 1152
    omega

/-- THE OUTPUT ARRAY after the last point is the permuted array. -/
theorem output_array (c : Dev nD)
    (hr : ∀ i : SI.Idx, InRange 128 (m ((c.tc : Thread nD τ).loc main_arg1) i))
    (hc : ∀ i : SI.Idx, InRange 128 (m ((c.tc : Thread nD τ).loc main_arg2) i)) :
    (dats m 0 c).arrAt 4 cfg0.N = permuted m c :=
  (dats m 0 c).arrAt_eq_of_cover 4 (permuted m c) (fun t _ => point_writes_sample m c t hr hc) samples_cover

/-! ## The host re-lays the output as [256, 128, 128, 9] -/

/-- Entry `(b, h, w, ch)` of a [256, 128, 1152] array re-laid as [256, 128, 128, 9] is its entry at lane
    `w · 9 + ch`: the two have the same row-major position. -/
theorem relay_apply (A : S256x128x1152.Idx → EReal) (b : Fin 256) (h w : Fin 128) (ch : Fin 9) :
    shapeCast S256x128x128x9 A shapeCasts_S256x128x1152_S256x128x128x9 (ix4 b h w ch) = A (ix3 b h (lane w ch)) :=
  shapeCast_apply A _ (ix4 b h w ch) (ix3 b h (lane w ch)) (by
    rw [Shape.rowMajor_val_three, Shape.rowMajor_val_four]
    show (b.val * 128 + h.val) * 1152 + (w.val * 9 + ch.val) = ((b.val * 128 + h.val) * 128 + w.val) * 9 + ch.val
    omega)

/-- The permuted array re-laid is `G` of the arguments, entry by entry. -/
theorem relay_permuted (c : Dev nD) (b : Fin 256) (h w : Fin 128) (ch : Fin 9) :
    shapeCast S256x128x128x9 (permuted m c) shapeCasts_S256x128x1152_S256x128x128x9 (ix4 b h w ch)
      = G (m ((c.tc : Thread nD τ).loc main_arg0)) (m ((c.tc : Thread nD τ).loc main_arg1))
          (m ((c.tc : Thread nD τ).loc main_arg2)) (pchain (m ((c.tc : Thread nD τ).loc main_arg3))) (ix4 b h w ch) :=
  (relay_apply (permuted m c) b h w ch).trans ((permuted_apply m c b h w ch).trans (G_apply _ _ _ _ b h w ch).symm)

/-- THE RESULT BUFFER after the host's last operation: `G` of the arguments. -/
theorem result_eq (c : Dev nD)
    (hr : ∀ i : SI.Idx, InRange 128 (m ((c.tc : Thread nD τ).loc main_arg1) i))
    (hc : ∀ i : SI.Idx, InRange 128 (m ((c.tc : Thread nD τ).loc main_arg2) i)) :
    Pipeline.afterTail₀ cfgs (dats m) 0 (V0 m) [hostOps1] c main_v39
      = G (m ((c.tc : Thread nD τ).loc main_arg0)) (m ((c.tc : Thread nD τ).loc main_arg1))
          (m ((c.tc : Thread nD τ).loc main_arg2)) (pchain (m ((c.tc : Thread nD τ).loc main_arg3))) := by
  have e : Pipeline.withArrays (cfgs 0).spec c (V0 m c) (fun w => (dats m 0 c).arrAt w (cfgs 0).N)
      (Proc.devRef .tc main_v38) = permuted m c :=
    (Pipeline.withArrays_arr spec0 launch0.win.arr_inj c _ _ 4).trans (output_array m c hr hc)
  unfold Pipeline.afterTail₀
  show StableHlo.after hostOps1 _ (Proc.devRef .tc main_v39) = _
  after_results
  funext i
  show shapeCast S256x128x128x9 (Pipeline.withArrays (cfgs 0).spec c (V0 m c)
      (fun w => (dats m 0 c).arrAt w (cfgs 0).N) (Proc.devRef .tc main_v38))
      shapeCasts_S256x128x1152_S256x128x128x9 i = _
  rw [e]
  exact (congrArg (shapeCast S256x128x128x9 (permuted m c) shapeCasts_S256x128x1152_S256x128x128x9) (eq_ix4 i)).trans
    ((relay_permuted m c (i 0) (i 1) (i 2) (i 3)).trans (congrArg (G _ _ _ _) (eq_ix4 i).symm))

end Blocks

/-- Every weakly fair execution of the idealized kernel program ends with its result at `G` of the arguments, which
    are unchanged, when the row and column tables hold positions. -/
theorem kernel_run (m : (ℓ : Loc nD τ sig) → Buf (Elt Ideal) ℓ) (ρ : Dev nD → PrngReg)
    (hr : ∀ (c : Dev nD) (i : SI.Idx), InRange 128 (m ((c.tc : Thread nD τ).loc main_arg1) i))
    (hc : ∀ (c : Dev nD) (i : SI.Idx), InRange 128 (m ((c.tc : Thread nD τ).loc main_arg2) i)) :
    θ_run (defs (F := Ideal)) (onTc (τ := τ) (main (F := Ideal))) ⟨m, fun _ => 0, ρ⟩ (fun r => ∀ c : Dev nD,
      r.2.mem ((c.tc : Thread nD τ).loc main_v39)
          = G (m ((c.tc : Thread nD τ).loc main_arg0)) (m ((c.tc : Thread nD τ).loc main_arg1))
              (m ((c.tc : Thread nD τ).loc main_arg2)) (pchain (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v39 (Pipeline.mem_restRefs_of main_v39 (by decide) (by decide))).trans (result_eq m c (hr c) (hc c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Value

end
-- ==== Proof.RTerm.lean ====
/-
  The reference's result as a term of its arguments: the composition of its host operations.
-/
import proofs.«430446_j88493506166927_3_alg».proof.Proof.Gen.ReferenceIdeal
import Idealize.ShloMosaic.PureOps.Ideal

noncomputable section

namespace Cert.ReferenceIdeal.Term

open Idealize.ShloMosaic Cert.ReferenceIdeal
open Cert.ReferenceIdeal.Facts₀

/-- Re-reading along the row axis: a negative index is wrapped by 128, the row read is that index clamped into
    range, and an entry whose wrapped index is outside 0 … 127 is replaced by the fill value. -/
noncomputable def takeRows (x : FVec Ideal S256x128x128x9 .f32) (idx : IVec S256x128x1x1 32) : FVec Ideal S256x128x128x9 .f32 :=
  let c : IVec S_ 32 := constantI S_ 32 0#32
  let v0 : IVec S256x128x1x1 32 := broadcastInDim S256x128x1x1 ![] bcast_S_S256x128x1x1 c
  let v1 : IVec S256x128x1x1 1 := cmpi .slt idx v0
  let c_0 : IVec S_ 32 := constantI S_ 32 128#32
  let v2 : IVec S256x128x1x1 32 := broadcastInDim S256x128x1x1 ![] bcast_S_S256x128x1x1 c_0
  let v3 : IVec S256x128x1x1 32 := addi idx v2
  let v4 : IVec S256x128x1x1 32 := select v1 v3 idx
  let v5 : IVec S256x128x1 32 := shapeCast S256x128x1 v4 shapeCasts_S256x128x1x1_S256x128x1
  let c_1 : IVec S1 32 := constantI S1 32 127#32
  let c_2 : IVec S_ 32 := constantI S_ 32 0#32
  let v6 : IVec S256x128x1 32 := broadcastInDim S256x128x1 ![] bcast_S_S256x128x1 c_2
  let v7 : IVec S256x128x1 1 := cmpi .sge v5 v6
  let v8 : IVec S1x1x1 32 := broadcastInDim S1x1x1 ![2] bcast_S1_S1x1x1_2 c_1
  let v9 : IVec S256x128x1 32 := broadcastInDim S256x128x1 ![0, 1, 2] bcast_S1x1x1_S256x128x1_0_1_2 v8
  let v10 : IVec S256x128x1 1 := cmpi .sle v5 v9
  let v11 : IVec S256x128x1 1 := andi v7 v10
  let c_3 : IVec S_ 1 := constantI S_ 1 1#1
  let v12 : IVec S256x128 1 := Host.reduce IntOp.andi v11 c_3 reducesTo_S256x128x1_S256x128_d2 h_S_
  let v13 : FVec Ideal S256x128x128x9 .f32 :=
    Host.gather gather_S256x128x128x9_S256x128x1_S256x128x128x9_23_1_0_0_1_2_111289 x v5
  let v14 : IVec S256x128x128x9 1 := broadcastInDim S256x128x128x9 ![0, 1] bcast_S256x128_S256x128x128x9_0_1 v12
  let cst : FVec Ideal S_ .f32 := constant (F := Ideal) S_ .f32 0x7FC00000#32
  let v15 : FVec Ideal S256x128x128x9 .f32 := broadcastInDim S256x128x128x9 ![] bcast_S_S256x128x128x9 cst
  select v14 v13 v15

/-- The same re-reading along the column axis. -/
noncomputable def takeCols (x : FVec Ideal S256x128x128x9 .f32) (idx : IVec S256x1x128x1 32) : FVec Ideal S256x128x128x9 .f32 :=
  let c : IVec S_ 32 := constantI S_ 32 0#32
  let v0 : IVec S256x1x128x1 32 := broadcastInDim S256x1x128x1 ![] bcast_S_S256x1x128x1 c
  let v1 : IVec S256x1x128x1 1 := cmpi .slt idx v0
  let c_0 : IVec S_ 32 := constantI S_ 32 128#32
  let v2 : IVec S256x1x128x1 32 := broadcastInDim S256x1x128x1 ![] bcast_S_S256x1x128x1 c_0
  let v3 : IVec S256x1x128x1 32 := addi idx v2
  let v4 : IVec S256x1x128x1 32 := select v1 v3 idx
  let v5 : IVec S256x128x1 32 := shapeCast S256x128x1 v4 shapeCasts_S256x1x128x1_S256x128x1
  let c_1 : IVec S1 32 := constantI S1 32 127#32
  let c_2 : IVec S_ 32 := constantI S_ 32 0#32
  let v6 : IVec S256x128x1 32 := broadcastInDim S256x128x1 ![] bcast_S_S256x128x1 c_2
  let v7 : IVec S256x128x1 1 := cmpi .sge v5 v6
  let v8 : IVec S1x1x1 32 := broadcastInDim S1x1x1 ![2] bcast_S1_S1x1x1_2 c_1
  let v9 : IVec S256x128x1 32 := broadcastInDim S256x128x1 ![0, 1, 2] bcast_S1x1x1_S256x128x1_0_1_2 v8
  let v10 : IVec S256x128x1 1 := cmpi .sle v5 v9
  let v11 : IVec S256x128x1 1 := andi v7 v10
  let c_3 : IVec S_ 1 := constantI S_ 1 1#1
  let v12 : IVec S256x128 1 := Host.reduce IntOp.andi v11 c_3 reducesTo_S256x128x1_S256x128_d2 h_S_
  let v13 : FVec Ideal S256x128x128x9 .f32 :=
    Host.gather gather_S256x128x128x9_S256x128x1_S256x128x128x9_13_2_0_0_2_2_112819 x v5
  let v14 : IVec S256x128x128x9 1 := broadcastInDim S256x128x128x9 ![0, 2] bcast_S256x128_S256x128x128x9_0_2 v12
  let cst : FVec Ideal S_ .f32 := constant (F := Ideal) S_ .f32 0x7FC00000#32
  let v15 : FVec Ideal S256x128x128x9 .f32 := broadcastInDim S256x128x128x9 ![] bcast_S_S256x128x128x9 cst
  select v14 v13 v15

/-- The same re-reading along the channel axis (wrap by 9, range 0 … 8). -/
noncomputable def takeChans (x : FVec Ideal S256x128x128x9 .f32) (idx : IVec S256x1x1x9 32) : FVec Ideal S256x128x128x9 .f32 :=
  let c : IVec S_ 32 := constantI S_ 32 0#32
  let v0 : IVec S256x1x1x9 32 := broadcastInDim S256x1x1x9 ![] bcast_S_S256x1x1x9 c
  let v1 : IVec S256x1x1x9 1 := cmpi .slt idx v0
  let c_0 : IVec S_ 32 := constantI S_ 32 9#32
  let v2 : IVec S256x1x1x9 32 := broadcastInDim S256x1x1x9 ![] bcast_S_S256x1x1x9 c_0
  let v3 : IVec S256x1x1x9 32 := addi idx v2
  let v4 : IVec S256x1x1x9 32 := select v1 v3 idx
  let v5 : IVec S256x9x1 32 := shapeCast S256x9x1 v4 shapeCasts_S256x1x1x9_S256x9x1
  let c_1 : IVec S1 32 := constantI S1 32 8#32
  let c_2 : IVec S_ 32 := constantI S_ 32 0#32
  let v6 : IVec S256x9x1 32 := broadcastInDim S256x9x1 ![] bcast_S_S256x9x1 c_2
  let v7 : IVec S256x9x1 1 := cmpi .sge v5 v6
  let v8 : IVec S1x1x1 32 := broadcastInDim S1x1x1 ![2] bcast_S1_S1x1x1_2 c_1
  let v9 : IVec S256x9x1 32 := broadcastInDim S256x9x1 ![0, 1, 2] bcast_S1x1x1_S256x9x1_0_1_2 v8
  let v10 : IVec S256x9x1 1 := cmpi .sle v5 v9
  let v11 : IVec S256x9x1 1 := andi v7 v10
  let c_3 : IVec S_ 1 := constantI S_ 1 1#1
  let v12 : IVec S256x9 1 := Host.reduce IntOp.andi v11 c_3 reducesTo_S256x9x1_S256x9_d2 h_S_
  let v13 : FVec Ideal S256x128x128x9 .f32 :=
    Host.gather gather_S256x128x128x9_S256x9x1_S256x128x128x9_12_3_0_0_3_2_11281281 x v5
  let v14 : IVec S256x128x128x9 1 := broadcastInDim S256x128x128x9 ![0, 3] bcast_S256x9_S256x128x128x9_0_3 v12
  let cst : FVec Ideal S_ .f32 := constant (F := Ideal) S_ .f32 0x7FC00000#32
  let v15 : FVec Ideal S256x128x128x9 .f32 := broadcastInDim S256x128x128x9 ![] bcast_S_S256x128x128x9 cst
  select v14 v13 v15

/-- The three channel tables. -/
noncomputable def tab0 : IVec S9 32 := fun i => lit0 (S9.rowMajor i)
noncomputable def tab1 : IVec S9 32 := fun i => lit1 (S9.rowMajor i)
noncomputable def tab2 : IVec S9 32 := fun i => lit2 (S9.rowMajor i)

/-- A table as a column of gather indices, a negative entry wrapped by 9. -/
noncomputable def wrap9 (t : IVec S9 32) : IVec S9x1 32 :=
  let c_4 : IVec S_ 32 := constantI S_ 32 0#32
  let v14 : IVec S9 32 := broadcastInDim S9 ![] bcast_S_S9 c_4
  let v15 : IVec S9 1 := cmpi .slt t v14
  let c_5 : IVec S_ 32 := constantI S_ 32 9#32
  let v16 : IVec S9 32 := broadcastInDim S9 ![] bcast_S_S9 c_5
  let v17 : IVec S9 32 := addi t v16
  let v18 : IVec S9 32 := select v15 v17 t
  broadcastInDim S9x1 ![0] bcast_S9_S9x1_0 v18

/-- The first table where the first flag is positive, the identity elsewhere. -/
noncomputable def chan1 (f : IVec S256x3 32) : IVec S256x9 32 :=
  let v4 : IVec S9 32 := iotaInDim S9 32 0
  let v5 : IVec S256x1 32 := extractStridedSlice S256x1 ![0, 0] f slices_S256x3_S256x1_0_0
  let c_2 : IVec S_ 32 := constantI S_ 32 0#32
  let v6 : IVec S256x1 32 := broadcastInDim S256x1 ![] bcast_S_S256x1 c_2
  let v7 : IVec S256x1 1 := cmpi .sgt v5 v6
  let v8 : IVec S1x9 32 := broadcastInDim S1x9 ![1] bcast_S9_S1x9_1 tab0
  let v9 : IVec S1x9 32 := broadcastInDim S1x9 ![1] bcast_S9_S1x9_1 v4
  let w0 : IVec S256x9 1 := broadcastInDim S256x9 ![0, 1] bcast_S256x1_S256x9_0_1 v7
  let w1 : IVec S256x9 32 := broadcastInDim S256x9 ![0, 1] bcast_S1x9_S256x9_0_1 v8
  let w2 : IVec S256x9 32 := broadcastInDim S256x9 ![0, 1] bcast_S1x9_S256x9_0_1 v9
  select w0 w1 w2

/-- Where the second flag is positive, the map so far re-read through the second table. -/
noncomputable def chan2 (f : IVec S256x3 32) (p : IVec S256x9 32) : IVec S256x9 32 :=
  let v11 : IVec S256x1 32 := extractStridedSlice S256x1 ![0, 1] f slices_S256x3_S256x1_0_1
  let c_3 : IVec S_ 32 := constantI S_ 32 0#32
  let v12 : IVec S256x1 32 := broadcastInDim S256x1 ![] bcast_S_S256x1 c_3
  let v13 : IVec S256x1 1 := cmpi .sgt v11 v12
  let v20 : IVec S256x9 32 := Host.gather gather_S256x9_S9x1_S256x9_0_1_n_n_1_1_2561 p (wrap9 tab1)
  let u0 : IVec S256x9 1 := broadcastInDim S256x9 ![0, 1] bcast_S256x1_S256x9_0_1 v13
  select u0 v20 p

/-- Where the third flag is positive, the map so far re-read through the third table. -/
noncomputable def chan3 (f : IVec S256x3 32) (p : IVec S256x9 32) : IVec S256x9 32 :=
  let v22 : IVec S256x1 32 := extractStridedSlice S256x1 ![0, 2] f slices_S256x3_S256x1_0_2
  let c_6 : IVec S_ 32 := constantI S_ 32 0#32
  let v23 : IVec S256x1 32 := broadcastInDim S256x1 ![] bcast_S_S256x1 c_6
  let v24 : IVec S256x1 1 := cmpi .sgt v22 v23
  let v31 : IVec S256x9 32 := Host.gather gather_S256x9_S9x1_S256x9_0_1_n_n_1_1_2561 p (wrap9 tab2)
  let t0 : IVec S256x9 1 := broadcastInDim S256x9 ![0, 1] bcast_S256x1_S256x9_0_1 v24
  select t0 v31 p

/-- The channel map: the first table or the identity by the first flag's sign, then, by the second and the third
    flag's signs, the map so far re-read through the second and the third table. -/
noncomputable def chanMap (f : IVec S256x3 32) : IVec S256x9 32 :=
  chan3 f (chan2 f (chan1 f))

/-- What @main's operations compute, composed: the three re-readings of the input through the row table, the column
    table and the channel map. -/
noncomputable def refOut (x : FVec Ideal S256x128x128x9 .f32) (rp cp : IVec S256x128 32) (f : IVec S256x3 32) :
    FVec Ideal S256x128x128x9 .f32 :=
  takeChans
    (takeCols
      (takeRows x (broadcastInDim S256x128x1x1 ![0, 1] bcast_S256x128_S256x128x1x1_0_1 rp))
      (broadcastInDim S256x1x128x1 ![0, 2] bcast_S256x128_S256x1x128x1_0_2 cp))
    (broadcastInDim S256x1x1x9 ![0, 3] bcast_S256x9_S256x1x1x9_0_3 (chanMap f))

end Cert.ReferenceIdeal.Term

end
-- ==== Proof.RRun.lean ====
/-
  The reference's run: a straight line of host operations, so every execution ends with the result at the
  operations' composed term of the arguments, which are never written.
-/
import proofs.«430446_j88493506166927_3_alg».proof.Proof.Gen.ReferenceIdeal
import proofs.«430446_j88493506166927_3_alg».proof.Proof.RTerm
import Idealize.ShloMosaic.Lib.StableHlo.Run

noncomputable section

namespace Cert.ReferenceIdeal.Run

open Idealize.ShloMosaic Idealize.SL.Sem Idealize.ShloMosaic.StableHlo Cert.ReferenceIdeal Cert.ReferenceIdeal.Term
open Idealize.ShloMosaic.TcCoe Cert.ReferenceIdeal.Facts₀

variable {F : FTy → Type} [FloatOps F]

/-- @main's operations in order, each call replaced by its callee's operations over that call's buffers: the
    three tables and the row index's broadcast, the row re-reading's twenty-three, the column index's broadcast and
    the column re-reading's twenty-three, the channel map's forty-one (the three selections written out), its
    broadcast, and the channel re-reading's twenty-three. -/
abbrev ops : List (HloOp τ sig (Elt F)) :=
  [ nullary main_c (fun i => lit0 (S9.rowMajor i)),
    nullary main_c_0 (fun i => lit1 (S9.rowMajor i)),
    nullary main_c_1 (fun i => lit2 (S9.rowMajor i)),
    unary main_arg1 main_v0 (broadcastInDim S256x128x1x1 ![0, 1] bcast_S256x128_S256x128x1x1_0_1 : (⟨S256x128, .i32⟩ : BufTy).Contents (Elt F) → (⟨S256x128x1x1, .i32⟩ : BufTy).Contents (Elt F)),
    TRef.nullary main_call0.c (constantI S_ 32 0#32),
    TRef.unary main_call0.c main_call0.v0 (broadcastInDim S256x128x1x1 ![] bcast_S_S256x128x1x1),
    TRef.binary (.of main_v0 : TRef sig ⟨S256x128x1x1, .i32⟩) main_call0.v0 main_call0.v1 (cmpi .slt),
    TRef.nullary main_call0.c_0 (constantI S_ 32 128#32),
    TRef.unary main_call0.c_0 main_call0.v2 (broadcastInDim S256x128x1x1 ![] bcast_S_S256x128x1x1),
    TRef.binary (.of main_v0 : TRef sig ⟨S256x128x1x1, .i32⟩) main_call0.v2 main_call0.v3 addi,
    TRef.ternary main_call0.v1 main_call0.v3 (.of main_v0 : TRef sig ⟨S256x128x1x1, .i32⟩) main_call0.v4 select,
    TRef.reshape main_call0.v4 main_call0.v5 rfl shapeCasts_S256x128x1x1_S256x128x1,
    TRef.nullary main_call0.c_1 (constantI S1 32 127#32),
    TRef.nullary main_call0.c_2 (constantI S_ 32 0#32),
    TRef.unary main_call0.c_2 main_call0.v6 (broadcastInDim S256x128x1 ![] bcast_S_S256x128x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S256x128x1 ![0, 1, 2] bcast_S1x1x1_S256x128x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S256x128x1_S256x128_d2 h_S_),
    TRef.binary (.of main_arg0 : TRef sig ⟨S256x128x128x9, .f32⟩) main_call0.v5 main_call0.v13 (fun x i => Host.gather gather_S256x128x128x9_S256x128x1_S256x128x128x9_23_1_0_0_1_2_111289 x i),
    TRef.unary main_call0.v12 main_call0.v14 (broadcastInDim S256x128x128x9 ![0, 1] bcast_S256x128_S256x128x128x9_0_1),
    TRef.nullary main_call0.cst (constant S_ .f32 0x7FC00000#32),
    TRef.unary main_call0.cst main_call0.v15 (broadcastInDim S256x128x128x9 ![] bcast_S_S256x128x128x9),
    TRef.ternary main_call0.v14 main_call0.v13 main_call0.v15 main_call0.v16 select,
    unary main_arg2 main_v2 (broadcastInDim S256x1x128x1 ![0, 2] bcast_S256x128_S256x1x128x1_0_2 : (⟨S256x128, .i32⟩ : BufTy).Contents (Elt F) → (⟨S256x1x128x1, .i32⟩ : BufTy).Contents (Elt F)),
    TRef.nullary main_call1.c (constantI S_ 32 0#32),
    TRef.unary main_call1.c main_call1.v0 (broadcastInDim S256x1x128x1 ![] bcast_S_S256x1x128x1),
    TRef.binary (.of main_v2 : TRef sig ⟨S256x1x128x1, .i32⟩) main_call1.v0 main_call1.v1 (cmpi .slt),
    TRef.nullary main_call1.c_0 (constantI S_ 32 128#32),
    TRef.unary main_call1.c_0 main_call1.v2 (broadcastInDim S256x1x128x1 ![] bcast_S_S256x1x128x1),
    TRef.binary (.of main_v2 : TRef sig ⟨S256x1x128x1, .i32⟩) main_call1.v2 main_call1.v3 addi,
    TRef.ternary main_call1.v1 main_call1.v3 (.of main_v2 : TRef sig ⟨S256x1x128x1, .i32⟩) main_call1.v4 select,
    TRef.reshape main_call1.v4 main_call1.v5 rfl shapeCasts_S256x1x128x1_S256x128x1,
    TRef.nullary main_call1.c_1 (constantI S1 32 127#32),
    TRef.nullary main_call1.c_2 (constantI S_ 32 0#32),
    TRef.unary main_call1.c_2 main_call1.v6 (broadcastInDim S256x128x1 ![] bcast_S_S256x128x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S256x128x1 ![0, 1, 2] bcast_S1x1x1_S256x128x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S256x128x1_S256x128_d2 h_S_),
    TRef.binary (.of main_v1 : TRef sig ⟨S256x128x128x9, .f32⟩) main_call1.v5 main_call1.v13 (fun x i => Host.gather gather_S256x128x128x9_S256x128x1_S256x128x128x9_13_2_0_0_2_2_112819 x i),
    TRef.unary main_call1.v12 main_call1.v14 (broadcastInDim S256x128x128x9 ![0, 2] bcast_S256x128_S256x128x128x9_0_2),
    TRef.nullary main_call1.cst (constant S_ .f32 0x7FC00000#32),
    TRef.unary main_call1.cst main_call1.v15 (broadcastInDim S256x128x128x9 ![] bcast_S_S256x128x128x9),
    TRef.ternary main_call1.v14 main_call1.v13 main_call1.v15 main_call1.v16 select,
    nullary main_v4 (iotaInDim S9 32 0),
    unary main_arg3 main_v5 ((extractStridedSlice S256x1 ![0, 0] · slices_S256x3_S256x1_0_0) : (⟨S256x3, .i32⟩ : BufTy).Contents (Elt F) → (⟨S256x1, .i32⟩ : BufTy).Contents (Elt F)),
    nullary main_c_2 (constantI S_ 32 0#32),
    unary main_c_2 main_v6 (broadcastInDim S256x1 ![] bcast_S_S256x1 : (⟨S_, .i32⟩ : BufTy).Contents (Elt F) → (⟨S256x1, .i32⟩ : BufTy).Contents (Elt F)),
    binary main_v5 main_v6 main_v7 (cmpi .sgt : (⟨S256x1, .i32⟩ : BufTy).Contents (Elt F) → (⟨S256x1, .i32⟩ : BufTy).Contents (Elt F) → (⟨S256x1, .i1⟩ : BufTy).Contents (Elt F)),
    unary main_c main_v8 (broadcastInDim S1x9 ![1] bcast_S9_S1x9_1 : (⟨S9, .i32⟩ : BufTy).Contents (Elt F) → (⟨S1x9, .i32⟩ : BufTy).Contents (Elt F)),
    unary main_v4 main_v9 (broadcastInDim S1x9 ![1] bcast_S9_S1x9_1 : (⟨S9, .i32⟩ : BufTy).Contents (Elt F) → (⟨S1x9, .i32⟩ : BufTy).Contents (Elt F)),
    TRef.unary (.of main_v7 : TRef sig ⟨S256x1, .i1⟩) main_call2.v0 (broadcastInDim S256x9 ![0, 1] bcast_S256x1_S256x9_0_1),
    TRef.unary (.of main_v8 : TRef sig ⟨S1x9, .i32⟩) main_call2.v1 (broadcastInDim S256x9 ![0, 1] bcast_S1x9_S256x9_0_1),
    TRef.unary (.of main_v9 : TRef sig ⟨S1x9, .i32⟩) main_call2.v2 (broadcastInDim S256x9 ![0, 1] bcast_S1x9_S256x9_0_1),
    TRef.ternary main_call2.v0 main_call2.v1 main_call2.v2 main_call2.v3 select,
    unary main_arg3 main_v11 ((extractStridedSlice S256x1 ![0, 1] · slices_S256x3_S256x1_0_1) : (⟨S256x3, .i32⟩ : BufTy).Contents (Elt F) → (⟨S256x1, .i32⟩ : BufTy).Contents (Elt F)),
    nullary main_c_3 (constantI S_ 32 0#32),
    unary main_c_3 main_v12 (broadcastInDim S256x1 ![] bcast_S_S256x1 : (⟨S_, .i32⟩ : BufTy).Contents (Elt F) → (⟨S256x1, .i32⟩ : BufTy).Contents (Elt F)),
    binary main_v11 main_v12 main_v13 (cmpi .sgt : (⟨S256x1, .i32⟩ : BufTy).Contents (Elt F) → (⟨S256x1, .i32⟩ : BufTy).Contents (Elt F) → (⟨S256x1, .i1⟩ : BufTy).Contents (Elt F)),
    nullary main_c_4 (constantI S_ 32 0#32),
    unary main_c_4 main_v14 (broadcastInDim S9 ![] bcast_S_S9 : (⟨S_, .i32⟩ : BufTy).Contents (Elt F) → (⟨S9, .i32⟩ : BufTy).Contents (Elt F)),
    binary main_c_0 main_v14 main_v15 (cmpi .slt : (⟨S9, .i32⟩ : BufTy).Contents (Elt F) → (⟨S9, .i32⟩ : BufTy).Contents (Elt F) → (⟨S9, .i1⟩ : BufTy).Contents (Elt F)),
    nullary main_c_5 (constantI S_ 32 9#32),
    unary main_c_5 main_v16 (broadcastInDim S9 ![] bcast_S_S9 : (⟨S_, .i32⟩ : BufTy).Contents (Elt F) → (⟨S9, .i32⟩ : BufTy).Contents (Elt F)),
    binary main_c_0 main_v16 main_v17 (addi : (⟨S9, .i32⟩ : BufTy).Contents (Elt F) → (⟨S9, .i32⟩ : BufTy).Contents (Elt F) → (⟨S9, .i32⟩ : BufTy).Contents (Elt F)),
    ternary main_v15 main_v17 main_c_0 main_v18 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    unary main_v18 main_v19 (broadcastInDim S9x1 ![0] bcast_S9_S9x1_0 : (⟨S9, .i32⟩ : BufTy).Contents (Elt F) → (⟨S9x1, .i32⟩ : BufTy).Contents (Elt F)),
    binary main_v10 main_v19 main_v20 ((fun x i => Host.gather gather_S256x9_S9x1_S256x9_0_1_n_n_1_1_2561 x i) : (⟨S256x9, .i32⟩ : BufTy).Contents (Elt F) → (⟨S9x1, .i32⟩ : BufTy).Contents (Elt F) → (⟨S256x9, .i32⟩ : BufTy).Contents (Elt F)),
    TRef.unary (.of main_v13 : TRef sig ⟨S256x1, .i1⟩) main_call3.v0 (broadcastInDim S256x9 ![0, 1] bcast_S256x1_S256x9_0_1),
    TRef.ternary main_call3.v0 (.of main_v20 : TRef sig ⟨S256x9, .i32⟩) (.of main_v10 : TRef sig ⟨S256x9, .i32⟩) main_call3.v1 select,
    unary main_arg3 main_v22 ((extractStridedSlice S256x1 ![0, 2] · slices_S256x3_S256x1_0_2) : (⟨S256x3, .i32⟩ : BufTy).Contents (Elt F) → (⟨S256x1, .i32⟩ : BufTy).Contents (Elt F)),
    nullary main_c_6 (constantI S_ 32 0#32),
    unary main_c_6 main_v23 (broadcastInDim S256x1 ![] bcast_S_S256x1 : (⟨S_, .i32⟩ : BufTy).Contents (Elt F) → (⟨S256x1, .i32⟩ : BufTy).Contents (Elt F)),
    binary main_v22 main_v23 main_v24 (cmpi .sgt : (⟨S256x1, .i32⟩ : BufTy).Contents (Elt F) → (⟨S256x1, .i32⟩ : BufTy).Contents (Elt F) → (⟨S256x1, .i1⟩ : BufTy).Contents (Elt F)),
    nullary main_c_7 (constantI S_ 32 0#32),
    unary main_c_7 main_v25 (broadcastInDim S9 ![] bcast_S_S9 : (⟨S_, .i32⟩ : BufTy).Contents (Elt F) → (⟨S9, .i32⟩ : BufTy).Contents (Elt F)),
    binary main_c_1 main_v25 main_v26 (cmpi .slt : (⟨S9, .i32⟩ : BufTy).Contents (Elt F) → (⟨S9, .i32⟩ : BufTy).Contents (Elt F) → (⟨S9, .i1⟩ : BufTy).Contents (Elt F)),
    nullary main_c_8 (constantI S_ 32 9#32),
    unary main_c_8 main_v27 (broadcastInDim S9 ![] bcast_S_S9 : (⟨S_, .i32⟩ : BufTy).Contents (Elt F) → (⟨S9, .i32⟩ : BufTy).Contents (Elt F)),
    binary main_c_1 main_v27 main_v28 (addi : (⟨S9, .i32⟩ : BufTy).Contents (Elt F) → (⟨S9, .i32⟩ : BufTy).Contents (Elt F) → (⟨S9, .i32⟩ : BufTy).Contents (Elt F)),
    ternary main_v26 main_v28 main_c_1 main_v29 (select : (⟨S9, .i1⟩ : BufTy).Contents (Elt F) → (⟨S9, .i32⟩ : BufTy).Contents (Elt F) → (⟨S9, .i32⟩ : BufTy).Contents (Elt F) → (⟨S9, .i32⟩ : BufTy).Contents (Elt F)),
    unary main_v29 main_v30 (broadcastInDim S9x1 ![0] bcast_S9_S9x1_0 : (⟨S9, .i32⟩ : BufTy).Contents (Elt F) → (⟨S9x1, .i32⟩ : BufTy).Contents (Elt F)),
    binary main_v21 main_v30 main_v31 ((fun x i => Host.gather gather_S256x9_S9x1_S256x9_0_1_n_n_1_1_2561 x i) : (⟨S256x9, .i32⟩ : BufTy).Contents (Elt F) → (⟨S9x1, .i32⟩ : BufTy).Contents (Elt F) → (⟨S256x9, .i32⟩ : BufTy).Contents (Elt F)),
    TRef.unary (.of main_v24 : TRef sig ⟨S256x1, .i1⟩) main_call4.v0 (broadcastInDim S256x9 ![0, 1] bcast_S256x1_S256x9_0_1),
    TRef.ternary main_call4.v0 (.of main_v31 : TRef sig ⟨S256x9, .i32⟩) (.of main_v21 : TRef sig ⟨S256x9, .i32⟩) main_call4.v1 select,
    unary main_v32 main_v33 (broadcastInDim S256x1x1x9 ![0, 3] bcast_S256x9_S256x1x1x9_0_3 : (⟨S256x9, .i32⟩ : BufTy).Contents (Elt F) → (⟨S256x1x1x9, .i32⟩ : BufTy).Contents (Elt F)),
    TRef.nullary main_call5.c (constantI S_ 32 0#32),
    TRef.unary main_call5.c main_call5.v0 (broadcastInDim S256x1x1x9 ![] bcast_S_S256x1x1x9),
    TRef.binary (.of main_v33 : TRef sig ⟨S256x1x1x9, .i32⟩) main_call5.v0 main_call5.v1 (cmpi .slt),
    TRef.nullary main_call5.c_0 (constantI S_ 32 9#32),
    TRef.unary main_call5.c_0 main_call5.v2 (broadcastInDim S256x1x1x9 ![] bcast_S_S256x1x1x9),
    TRef.binary (.of main_v33 : TRef sig ⟨S256x1x1x9, .i32⟩) main_call5.v2 main_call5.v3 addi,
    TRef.ternary main_call5.v1 main_call5.v3 (.of main_v33 : TRef sig ⟨S256x1x1x9, .i32⟩) main_call5.v4 select,
    TRef.reshape main_call5.v4 main_call5.v5 rfl shapeCasts_S256x1x1x9_S256x9x1,
    TRef.nullary main_call5.c_1 (constantI S1 32 8#32),
    TRef.nullary main_call5.c_2 (constantI S_ 32 0#32),
    TRef.unary main_call5.c_2 main_call5.v6 (broadcastInDim S256x9x1 ![] bcast_S_S256x9x1),
    TRef.binary main_call5.v5 main_call5.v6 main_call5.v7 (cmpi .sge),
    TRef.unary main_call5.c_1 main_call5.v8 (broadcastInDim S1x1x1 ![2] bcast_S1_S1x1x1_2),
    TRef.unary main_call5.v8 main_call5.v9 (broadcastInDim S256x9x1 ![0, 1, 2] bcast_S1x1x1_S256x9x1_0_1_2),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S256x9x1_S256x9_d2 h_S_),
    TRef.binary (.of main_v3 : TRef sig ⟨S256x128x128x9, .f32⟩) main_call5.v5 main_call5.v13 (fun x i => Host.gather gather_S256x128x128x9_S256x9x1_S256x128x128x9_12_3_0_0_3_2_11281281 x i),
    TRef.unary main_call5.v12 main_call5.v14 (broadcastInDim S256x128x128x9 ![0, 3] bcast_S256x9_S256x128x128x9_0_3),
    TRef.nullary main_call5.cst (constant S_ .f32 0x7FC00000#32),
    TRef.unary main_call5.cst main_call5.v15 (broadcastInDim S256x128x128x9 ![] bcast_S_S256x128x128x9),
    TRef.ternary main_call5.v14 main_call5.v13 main_call5.v15 main_call5.v16 select ]

set_option maxRecDepth 4096 in
set_option maxHeartbeats 1000000 in
/-- @main is that straight line: the callees' definitions unfolded at their calls, both sides are one chain of
    steps once sequencing is reassociated. -/
theorem main_eq (c : Dev nD) : main (F := F) c = seq ops := by
  simp only [main, fn_take_along_axis.body, fn_take_along_axis_0.body, fn_take_along_axis_2.body, fn_where.body,
    fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., nullary_bufs_sub ..,
    unary_bufs_sub .., binary_bufs_sub .., unary_bufs_sub .., unary_bufs_sub .., unary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., ternary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

attribute [local irreducible] Host.reduce Host.gather in
set_option maxRecDepth 8192 in
set_option maxHeartbeats 2000000 in
/-- The fold of the operations at the result buffer is the composed term: each operation's result is read at its
    own buffer and passed over at every other, the typed references' transports are the identity at these literal
    buffers, and what is left is the term's definition unfolded. The reductions and the gathers stay folded
    meanwhile: the equation never looks inside them. -/
theorem out_eq (V : Valuation τ sig (Elt Ideal)) :
    after (ops (F := Ideal)) V (main_v34 : DevRef τ sig)
      = refOut (V (main_arg0 : DevRef τ sig)) (V (main_arg1 : DevRef τ sig)) (V (main_arg2 : DevRef τ sig))
          (V (main_arg3 : DevRef τ sig)) := by
  after_results_simp
  unfold refOut takeChans takeCols takeRows chanMap chan3 chan2 chan1 wrap9 tab0 tab1 tab2
  rfl

set_option maxHeartbeats 1000000 in
/-- No operation writes an argument's buffer. -/
theorem arg0_eq (V : Valuation τ sig (Elt F)) :
    after (ops (F := F)) V (main_arg0 : DevRef τ sig) = V (main_arg0 : DevRef τ sig) := by
  after_results_simp

set_option maxHeartbeats 1000000 in
theorem arg1_eq (V : Valuation τ sig (Elt F)) :
    after (ops (F := F)) V (main_arg1 : DevRef τ sig) = V (main_arg1 : DevRef τ sig) := by
  after_results_simp

set_option maxHeartbeats 1000000 in
theorem arg2_eq (V : Valuation τ sig (Elt F)) :
    after (ops (F := F)) V (main_arg2 : DevRef τ sig) = V (main_arg2 : DevRef τ sig) := by
  after_results_simp

set_option maxHeartbeats 1000000 in
theorem arg3_eq (V : Valuation τ sig (Elt F)) :
    after (ops (F := F)) V (main_arg3 : DevRef τ sig) = V (main_arg3 : DevRef τ sig) := by
  after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v34).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.Run

end
-- ==== Proof.RValue.lean ====
/-
  The reference's term is the common function of the arguments.

  Each re-reading normalises a negative word by adding the axis' extent, masks the result to a not-a-number fill where
  the word is still out of range, and gathers along one axis. With every word a position the normalisation changes
  nothing and the mask lets everything through, so the three re-readings compose to
  x[b, rp[b, h], cp[b, w], p[b, c]].

  The file goes bottom-up. First the gather's operand index, coordinate by coordinate: on the batching axis the
  sample, on the collapsed axis the start index read signed and clamped (which is the position the word names), on
  the two offset axes the result's own coordinates. Then the words: for a word in range the comparison with zero and
  with the last position come out as the bits 0, 1, 1, and a conjunction of ones over the unit axis is one. Then the
  reshapes and broadcasts of the index tables at an element, one re-reading at an element, the agreement of the
  reference's channel map with the common one, and the composition.
-/
import proofs.«430446_j88493506166927_3_alg».proof.Proof.RTerm
import proofs.«430446_j88493506166927_3_alg».proof.Proof.Spec
import proofs.«430446_j88493506166927_3_alg».proof.Proof.PChain
import Idealize.ShloMosaic.Lib.ValueIdx
import Idealize.ShloMosaic.Lib.Pipeline.Value
import Idealize.ShloMosaic.PureOps.Reduce

noncomputable section

namespace Cert.ReferenceIdeal.RefValue

open Idealize.ShloMosaic Idealize.ShloMosaic.ValueIdx Cert.ReferenceIdeal Cert.ReferenceIdeal.Term Cert.Flip

variable {α : Type}

/-! ## The coordinates of a gather's operand index -/

section Coord
variable {s si t : Shape} (d : GatherDims s si t)

/-- The start-indices coordinate of a kept axis is the result's coordinate on the batch axis in the same position. -/
theorem siCoord_val_of (j : t.Idx) (b : Fin si.rank) (hb : b ∈ d.siKept) (n : Nat) (hn : d.siKept.idxOf b = n)
    (hlt : n < d.batchDims.length) (o : Fin t.rank) (ho : d.batchDims[n] = o) : (d.siCoord j b hb).val = (j o).val := by
  subst hn; subst ho
  unfold GatherDims.siCoord
  rfl

/-- On a batching axis the batching coordinate is the start-indices coordinate of the paired axis. -/
theorem batchCoord_of (j : t.Idx) (a : Fin s.rank) (ha : a ∈ d.operandBatchingDims) (n : Nat)
    (hn : d.operandBatchingDims.idxOf a = n) (hlt : n < d.startIndicesBatchingDims.length) (b : Fin si.rank)
    (hb : d.startIndicesBatchingDims[n] = b) (hb' : b ∈ d.siKept) : d.batchCoord j a = (d.siCoord j b hb').val := by
  subst hn; subst hb
  unfold GatherDims.batchCoord
  rw [dif_pos ha]

/-- On an axis that is neither collapsed nor batching the offset coordinate is the result's coordinate on the offset
    axis in the same position. -/
theorem offCoord_of (j : t.Idx) (a : Fin s.rank) (ha : a ∈ d.sKept) (n : Nat) (hn : d.sKept.idxOf a = n)
    (hlt : n < d.offsetDims.length) (o : Fin t.rank) (ho : d.offsetDims[n] = o) : d.offCoord j a = (j o).val := by
  subst hn; subst ho
  unfold GatherDims.offCoord
  rw [dif_pos ha]

end Coord

/-! ## The three gathers at an element

Operand [256, 128, 128, 9], start indices [256, k, 1] with the index vector on the last axis, axis 0 batching on both
sides, one collapsed axis that the start index addresses, the other two axes offset axes of full extent. The result at
(b, h, w, c) is the operand at the same coordinates except on the collapsed axis, where it is the position named by the
start index of (b, ·) on the result's coordinate for that axis. -/

theorem gatherRows_apply (d : GatherDims S256x128x128x9 S256x128x1 S256x128x128x9)
    (hoff : d.offsetDims = [2, 3]) (hcoll : d.collapsedSliceDims = [1]) (hob : d.operandBatchingDims = [0])
    (hsb : d.startIndicesBatchingDims = [0]) (hsim : d.startIndexMap = [1]) (hivd : d.indexVectorDim = 2)
    (x : S256x128x128x9.Idx → α) (idx : IVec S256x128x1 32) (b : Fin 256) (h w : Fin 128) (c : Fin 9) :
    Host.gather d x idx (ix4 b h w c) = x (ix4 b (pos128 (idx (ix3 b h (0 : Fin 1)))) w c) := by
  have hbd : d.batchDims = [0, 1] := by
    show S256x128x128x9.kept d.offsetDims = _
    rw [hoff]; decide
  have hsk : d.siKept = [0, 1] := by
    show (List.finRange S256x128x1.rank).filter (fun a => a.val ≠ d.indexVectorDim) = _
    rw [hivd]; decide
  have hks : d.sKept = [2, 3] := by
    show S256x128x128x9.kept (d.collapsedSliceDims ++ d.operandBatchingDims) = _
    rw [hcoll, hob]; decide
  have m0 : (0 : Fin S256x128x1.rank) ∈ d.siKept := by rw [hsk]; decide
  have m1 : (1 : Fin S256x128x1.rank) ∈ d.siKept := by rw [hsk]; decide
  have c0 : (d.siCoord (ix4 b h w c) 0 m0).val = b.val :=
    siCoord_val_of d _ 0 m0 0 (by rw [hsk]; decide) (by rw [hbd]; decide) 0 (by simp only [hbd]; rfl)
  have c1 : (d.siCoord (ix4 b h w c) 1 m1).val = h.val :=
    siCoord_val_of d _ 1 m1 1 (by rw [hsk]; decide) (by rw [hbd]; decide) 1 (by simp only [hbd]; rfl)
  unfold Host.gather
  congr 1
  funext a
  refine Fin.ext ?_
  show d.start (ix4 b h w c) idx a + d.batchCoord (ix4 b h w c) a + d.offCoord (ix4 b h w c) a = _
  match a with
  | ⟨0, _⟩ =>
    have hs : d.start (ix4 b h w c) idx (0 : Fin S256x128x128x9.rank) = 0 :=
      d.start_batching _ _ _ (by rw [hob]; decide)
    have ho : d.offCoord (ix4 b h w c) (0 : Fin S256x128x128x9.rank) = 0 :=
      d.offCoord_eq_zero _ _ (by rw [hks]; decide)
    have hb : d.batchCoord (ix4 b h w c) (0 : Fin S256x128x128x9.rank) = b.val := by
      rw [batchCoord_of d _ 0 (by rw [hob]; decide) 0 (by rw [hob]; decide) (by rw [hsb]; decide) 0
        (by simp only [hsb]; rfl) m0]
      exact c0
    show d.start (ix4 b h w c) idx 0 + d.batchCoord (ix4 b h w c) 0 + d.offCoord (ix4 b h w c) 0 = b.val
    rw [hs, ho, hb]; omega
  | ⟨1, _⟩ =>
    have hm : (1 : Fin S256x128x128x9.rank) ∈ d.startIndexMap := by rw [hsim]; decide
    have hb : d.batchCoord (ix4 b h w c) (1 : Fin S256x128x128x9.rank) = 0 :=
      d.batchCoord_eq_zero _ _ (by rw [hob]; decide)
    have ho : d.offCoord (ix4 b h w c) (1 : Fin S256x128x128x9.rank) = 0 :=
      d.offCoord_eq_zero _ _ (by rw [hks]; decide)
    have hsl : d.sliceSizes (1 : Fin S256x128x128x9.rank) = 1 := d.slice_collapsed _ (by rw [hcoll]; decide)
    have hsi : d.siIdx (ix4 b h w c) ⟨d.startIndexMap.idxOf (1 : Fin S256x128x128x9.rank), List.idxOf_lt_length_iff.2 hm⟩
        = ix3 b h (0 : Fin 1) := by
      funext q
      refine Fin.ext ?_
      match q with
      | ⟨0, _⟩ =>
        unfold GatherDims.siIdx
        rw [dif_neg (by rw [hivd]; show ¬ (0 : Nat) = 2; decide)]
        exact c0
      | ⟨1, _⟩ =>
        unfold GatherDims.siIdx
        rw [dif_neg (by rw [hivd]; show ¬ (1 : Nat) = 2; decide)]
        exact c1
      | ⟨2, _⟩ =>
        unfold GatherDims.siIdx
        rw [dif_pos (by rw [hivd])]
        show d.startIndexMap.idxOf (1 : Fin S256x128x128x9.rank) = 0
        rw [hsim]; decide
    have hs : d.start (ix4 b h w c) idx (1 : Fin S256x128x128x9.rank) = min (idx (ix3 b h (0 : Fin 1))).toInt.toNat 127 := by
      unfold GatherDims.start
      rw [dif_pos hm, hsi, hsl]
      rfl
    show d.start (ix4 b h w c) idx 1 + d.batchCoord (ix4 b h w c) 1 + d.offCoord (ix4 b h w c) 1 = (pos128 (idx (ix3 b h (0 : Fin 1)))).val
    rw [hs, ho, hb]; rfl
  | ⟨2, _⟩ =>
    have hs : d.start (ix4 b h w c) idx (2 : Fin S256x128x128x9.rank) = 0 := by
      unfold GatherDims.start
      rw [dif_neg (by rw [hsim]; decide)]
    have hb : d.batchCoord (ix4 b h w c) (2 : Fin S256x128x128x9.rank) = 0 :=
      d.batchCoord_eq_zero _ _ (by rw [hob]; decide)
    have ho : d.offCoord (ix4 b h w c) (2 : Fin S256x128x128x9.rank) = w.val :=
      offCoord_of d _ 2 (by rw [hks]; decide) 0 (by rw [hks]; decide) (by rw [hoff]; decide) 2 (by simp only [hoff]; rfl)
    show d.start (ix4 b h w c) idx 2 + d.batchCoord (ix4 b h w c) 2 + d.offCoord (ix4 b h w c) 2 = w.val
    rw [hs, ho, hb]; omega
  | ⟨3, _⟩ =>
    have hs : d.start (ix4 b h w c) idx (3 : Fin S256x128x128x9.rank) = 0 := by
      unfold GatherDims.start
      rw [dif_neg (by rw [hsim]; decide)]
    have hb : d.batchCoord (ix4 b h w c) (3 : Fin S256x128x128x9.rank) = 0 :=
      d.batchCoord_eq_zero _ _ (by rw [hob]; decide)
    have ho : d.offCoord (ix4 b h w c) (3 : Fin S256x128x128x9.rank) = c.val :=
      offCoord_of d _ 3 (by rw [hks]; decide) 1 (by rw [hks]; decide) (by rw [hoff]; decide) 3 (by simp only [hoff]; rfl)
    show d.start (ix4 b h w c) idx 3 + d.batchCoord (ix4 b h w c) 3 + d.offCoord (ix4 b h w c) 3 = c.val
    rw [hs, ho, hb]; omega

theorem gatherCols_apply (d : GatherDims S256x128x128x9 S256x128x1 S256x128x128x9)
    (hoff : d.offsetDims = [1, 3]) (hcoll : d.collapsedSliceDims = [2]) (hob : d.operandBatchingDims = [0])
    (hsb : d.startIndicesBatchingDims = [0]) (hsim : d.startIndexMap = [2]) (hivd : d.indexVectorDim = 2)
    (x : S256x128x128x9.Idx → α) (idx : IVec S256x128x1 32) (b : Fin 256) (h w : Fin 128) (c : Fin 9) :
    Host.gather d x idx (ix4 b h w c) = x (ix4 b h (pos128 (idx (ix3 b w (0 : Fin 1)))) c) := by
  have hbd : d.batchDims = [0, 2] := by
    show S256x128x128x9.kept d.offsetDims = _
    rw [hoff]; decide
  have hsk : d.siKept = [0, 1] := by
    show (List.finRange S256x128x1.rank).filter (fun a => a.val ≠ d.indexVectorDim) = _
    rw [hivd]; decide
  have hks : d.sKept = [1, 3] := by
    show S256x128x128x9.kept (d.collapsedSliceDims ++ d.operandBatchingDims) = _
    rw [hcoll, hob]; decide
  have m0 : (0 : Fin S256x128x1.rank) ∈ d.siKept := by rw [hsk]; decide
  have m1 : (1 : Fin S256x128x1.rank) ∈ d.siKept := by rw [hsk]; decide
  have c0 : (d.siCoord (ix4 b h w c) 0 m0).val = b.val :=
    siCoord_val_of d _ 0 m0 0 (by rw [hsk]; decide) (by rw [hbd]; decide) 0 (by simp only [hbd]; rfl)
  have c1 : (d.siCoord (ix4 b h w c) 1 m1).val = w.val :=
    siCoord_val_of d _ 1 m1 1 (by rw [hsk]; decide) (by rw [hbd]; decide) 2 (by simp only [hbd]; rfl)
  unfold Host.gather
  congr 1
  funext a
  refine Fin.ext ?_
  show d.start (ix4 b h w c) idx a + d.batchCoord (ix4 b h w c) a + d.offCoord (ix4 b h w c) a = _
  match a with
  | ⟨0, _⟩ =>
    have hs : d.start (ix4 b h w c) idx (0 : Fin S256x128x128x9.rank) = 0 :=
      d.start_batching _ _ _ (by rw [hob]; decide)
    have ho : d.offCoord (ix4 b h w c) (0 : Fin S256x128x128x9.rank) = 0 :=
      d.offCoord_eq_zero _ _ (by rw [hks]; decide)
    have hb : d.batchCoord (ix4 b h w c) (0 : Fin S256x128x128x9.rank) = b.val := by
      rw [batchCoord_of d _ 0 (by rw [hob]; decide) 0 (by rw [hob]; decide) (by rw [hsb]; decide) 0
        (by simp only [hsb]; rfl) m0]
      exact c0
    show d.start (ix4 b h w c) idx 0 + d.batchCoord (ix4 b h w c) 0 + d.offCoord (ix4 b h w c) 0 = b.val
    rw [hs, ho, hb]; omega
  | ⟨1, _⟩ =>
    have hs : d.start (ix4 b h w c) idx (1 : Fin S256x128x128x9.rank) = 0 := by
      unfold GatherDims.start
      rw [dif_neg (by rw [hsim]; decide)]
    have hb : d.batchCoord (ix4 b h w c) (1 : Fin S256x128x128x9.rank) = 0 :=
      d.batchCoord_eq_zero _ _ (by rw [hob]; decide)
    have ho : d.offCoord (ix4 b h w c) (1 : Fin S256x128x128x9.rank) = h.val :=
      offCoord_of d _ 1 (by rw [hks]; decide) 0 (by rw [hks]; decide) (by rw [hoff]; decide) 1 (by simp only [hoff]; rfl)
    show d.start (ix4 b h w c) idx 1 + d.batchCoord (ix4 b h w c) 1 + d.offCoord (ix4 b h w c) 1 = h.val
    rw [hs, ho, hb]; omega
  | ⟨2, _⟩ =>
    have hm : (2 : Fin S256x128x128x9.rank) ∈ d.startIndexMap := by rw [hsim]; decide
    have hb : d.batchCoord (ix4 b h w c) (2 : Fin S256x128x128x9.rank) = 0 :=
      d.batchCoord_eq_zero _ _ (by rw [hob]; decide)
    have ho : d.offCoord (ix4 b h w c) (2 : Fin S256x128x128x9.rank) = 0 :=
      d.offCoord_eq_zero _ _ (by rw [hks]; decide)
    have hsl : d.sliceSizes (2 : Fin S256x128x128x9.rank) = 1 := d.slice_collapsed _ (by rw [hcoll]; decide)
    have hsi : d.siIdx (ix4 b h w c) ⟨d.startIndexMap.idxOf (2 : Fin S256x128x128x9.rank), List.idxOf_lt_length_iff.2 hm⟩
        = ix3 b w (0 : Fin 1) := by
      funext q
      refine Fin.ext ?_
      match q with
      | ⟨0, _⟩ =>
        unfold GatherDims.siIdx
        rw [dif_neg (by rw [hivd]; show ¬ (0 : Nat) = 2; decide)]
        exact c0
      | ⟨1, _⟩ =>
        unfold GatherDims.siIdx
        rw [dif_neg (by rw [hivd]; show ¬ (1 : Nat) = 2; decide)]
        exact c1
      | ⟨2, _⟩ =>
        unfold GatherDims.siIdx
        rw [dif_pos (by rw [hivd])]
        show d.startIndexMap.idxOf (2 : Fin S256x128x128x9.rank) = 0
        rw [hsim]; decide
    have hs : d.start (ix4 b h w c) idx (2 : Fin S256x128x128x9.rank) = min (idx (ix3 b w (0 : Fin 1))).toInt.toNat 127 := by
      unfold GatherDims.start
      rw [dif_pos hm, hsi, hsl]
      rfl
    show d.start (ix4 b h w c) idx 2 + d.batchCoord (ix4 b h w c) 2 + d.offCoord (ix4 b h w c) 2 = (pos128 (idx (ix3 b w (0 : Fin 1)))).val
    rw [hs, ho, hb]; rfl
  | ⟨3, _⟩ =>
    have hs : d.start (ix4 b h w c) idx (3 : Fin S256x128x128x9.rank) = 0 := by
      unfold GatherDims.start
      rw [dif_neg (by rw [hsim]; decide)]
    have hb : d.batchCoord (ix4 b h w c) (3 : Fin S256x128x128x9.rank) = 0 :=
      d.batchCoord_eq_zero _ _ (by rw [hob]; decide)
    have ho : d.offCoord (ix4 b h w c) (3 : Fin S256x128x128x9.rank) = c.val :=
      offCoord_of d _ 3 (by rw [hks]; decide) 1 (by rw [hks]; decide) (by rw [hoff]; decide) 3 (by simp only [hoff]; rfl)
    show d.start (ix4 b h w c) idx 3 + d.batchCoord (ix4 b h w c) 3 + d.offCoord (ix4 b h w c) 3 = c.val
    rw [hs, ho, hb]; omega

theorem gatherChans_apply (d : GatherDims S256x128x128x9 S256x9x1 S256x128x128x9)
    (hoff : d.offsetDims = [1, 2]) (hcoll : d.collapsedSliceDims = [3]) (hob : d.operandBatchingDims = [0])
    (hsb : d.startIndicesBatchingDims = [0]) (hsim : d.startIndexMap = [3]) (hivd : d.indexVectorDim = 2)
    (x : S256x128x128x9.Idx → α) (idx : IVec S256x9x1 32) (b : Fin 256) (h w : Fin 128) (c : Fin 9) :
    Host.gather d x idx (ix4 b h w c) = x (ix4 b h w (pos9 (idx (ix3 b c (0 : Fin 1))))) := by
  have hbd : d.batchDims = [0, 3] := by
    show S256x128x128x9.kept d.offsetDims = _
    rw [hoff]; decide
  have hsk : d.siKept = [0, 1] := by
    show (List.finRange S256x9x1.rank).filter (fun a => a.val ≠ d.indexVectorDim) = _
    rw [hivd]; decide
  have hks : d.sKept = [1, 2] := by
    show S256x128x128x9.kept (d.collapsedSliceDims ++ d.operandBatchingDims) = _
    rw [hcoll, hob]; decide
  have m0 : (0 : Fin S256x9x1.rank) ∈ d.siKept := by rw [hsk]; decide
  have m1 : (1 : Fin S256x9x1.rank) ∈ d.siKept := by rw [hsk]; decide
  have c0 : (d.siCoord (ix4 b h w c) 0 m0).val = b.val :=
    siCoord_val_of d _ 0 m0 0 (by rw [hsk]; decide) (by rw [hbd]; decide) 0 (by simp only [hbd]; rfl)
  have c1 : (d.siCoord (ix4 b h w c) 1 m1).val = c.val :=
    siCoord_val_of d _ 1 m1 1 (by rw [hsk]; decide) (by rw [hbd]; decide) 3 (by simp only [hbd]; rfl)
  unfold Host.gather
  congr 1
  funext a
  refine Fin.ext ?_
  show d.start (ix4 b h w c) idx a + d.batchCoord (ix4 b h w c) a + d.offCoord (ix4 b h w c) a = _
  match a with
  | ⟨0, _⟩ =>
    have hs : d.start (ix4 b h w c) idx (0 : Fin S256x128x128x9.rank) = 0 :=
      d.start_batching _ _ _ (by rw [hob]; decide)
    have ho : d.offCoord (ix4 b h w c) (0 : Fin S256x128x128x9.rank) = 0 :=
      d.offCoord_eq_zero _ _ (by rw [hks]; decide)
    have hb : d.batchCoord (ix4 b h w c) (0 : Fin S256x128x128x9.rank) = b.val := by
      rw [batchCoord_of d _ 0 (by rw [hob]; decide) 0 (by rw [hob]; decide) (by rw [hsb]; decide) 0
        (by simp only [hsb]; rfl) m0]
      exact c0
    show d.start (ix4 b h w c) idx 0 + d.batchCoord (ix4 b h w c) 0 + d.offCoord (ix4 b h w c) 0 = b.val
    rw [hs, ho, hb]; omega
  | ⟨1, _⟩ =>
    have hs : d.start (ix4 b h w c) idx (1 : Fin S256x128x128x9.rank) = 0 := by
      unfold GatherDims.start
      rw [dif_neg (by rw [hsim]; decide)]
    have hb : d.batchCoord (ix4 b h w c) (1 : Fin S256x128x128x9.rank) = 0 :=
      d.batchCoord_eq_zero _ _ (by rw [hob]; decide)
    have ho : d.offCoord (ix4 b h w c) (1 : Fin S256x128x128x9.rank) = h.val :=
      offCoord_of d _ 1 (by rw [hks]; decide) 0 (by rw [hks]; decide) (by rw [hoff]; decide) 1 (by simp only [hoff]; rfl)
    show d.start (ix4 b h w c) idx 1 + d.batchCoord (ix4 b h w c) 1 + d.offCoord (ix4 b h w c) 1 = h.val
    rw [hs, ho, hb]; omega
  | ⟨2, _⟩ =>
    have hs : d.start (ix4 b h w c) idx (2 : Fin S256x128x128x9.rank) = 0 := by
      unfold GatherDims.start
      rw [dif_neg (by rw [hsim]; decide)]
    have hb : d.batchCoord (ix4 b h w c) (2 : Fin S256x128x128x9.rank) = 0 :=
      d.batchCoord_eq_zero _ _ (by rw [hob]; decide)
    have ho : d.offCoord (ix4 b h w c) (2 : Fin S256x128x128x9.rank) = w.val :=
      offCoord_of d _ 2 (by rw [hks]; decide) 1 (by rw [hks]; decide) (by rw [hoff]; decide) 2 (by simp only [hoff]; rfl)
    show d.start (ix4 b h w c) idx 2 + d.batchCoord (ix4 b h w c) 2 + d.offCoord (ix4 b h w c) 2 = w.val
    rw [hs, ho, hb]; omega
  | ⟨3, _⟩ =>
    have hm : (3 : Fin S256x128x128x9.rank) ∈ d.startIndexMap := by rw [hsim]; decide
    have hb : d.batchCoord (ix4 b h w c) (3 : Fin S256x128x128x9.rank) = 0 :=
      d.batchCoord_eq_zero _ _ (by rw [hob]; decide)
    have ho : d.offCoord (ix4 b h w c) (3 : Fin S256x128x128x9.rank) = 0 :=
      d.offCoord_eq_zero _ _ (by rw [hks]; decide)
    have hsl : d.sliceSizes (3 : Fin S256x128x128x9.rank) = 1 := d.slice_collapsed _ (by rw [hcoll]; decide)
    have hsi : d.siIdx (ix4 b h w c) ⟨d.startIndexMap.idxOf (3 : Fin S256x128x128x9.rank), List.idxOf_lt_length_iff.2 hm⟩
        = ix3 b c (0 : Fin 1) := by
      funext q
      refine Fin.ext ?_
      match q with
      | ⟨0, _⟩ =>
        unfold GatherDims.siIdx
        rw [dif_neg (by rw [hivd]; show ¬ (0 : Nat) = 2; decide)]
        exact c0
      | ⟨1, _⟩ =>
        unfold GatherDims.siIdx
        rw [dif_neg (by rw [hivd]; show ¬ (1 : Nat) = 2; decide)]
        exact c1
      | ⟨2, _⟩ =>
        unfold GatherDims.siIdx
        rw [dif_pos (by rw [hivd])]
        show d.startIndexMap.idxOf (3 : Fin S256x128x128x9.rank) = 0
        rw [hsim]; decide
    have hs : d.start (ix4 b h w c) idx (3 : Fin S256x128x128x9.rank) = min (idx (ix3 b c (0 : Fin 1))).toInt.toNat 8 := by
      unfold GatherDims.start
      rw [dif_pos hm, hsi, hsl]
      rfl
    show d.start (ix4 b h w c) idx 3 + d.batchCoord (ix4 b h w c) 3 + d.offCoord (ix4 b h w c) 3 = (pos9 (idx (ix3 b c (0 : Fin 1)))).val
    rw [hs, ho, hb]; rfl

/-! ## Words in range -/

/-- A word in range is not negative: the comparison "below zero" is the bit 0. -/
theorem cmpi_slt_zero {n : Nat} {v : BitVec 32} (hv : InRange n v) : IntOp.cmpi .slt v 0#32 = 0#1 := by
  have h0 : ¬ v.slt 0#32 = true := by
    rw [BitVec.slt_iff_toInt_lt]
    have : (0#32 : BitVec 32).toInt = 0 := by decide
    rw [this]; exact not_lt.mpr hv.1
  show BitVec.ofBool (v.slt 0#32) = 0#1
  rw [Bool.eq_false_iff.mpr h0]; rfl

/-- A word in range is at least zero: the comparison is the bit 1. -/
theorem cmpi_sge_zero {n : Nat} {v : BitVec 32} (hv : InRange n v) : IntOp.cmpi .sge v 0#32 = 1#1 := by
  have h0 : (0#32 : BitVec 32).sle v = true := by
    rw [BitVec.sle_iff_toInt_le]
    have : (0#32 : BitVec 32).toInt = 0 := by decide
    rw [this]; exact hv.1
  show BitVec.ofBool ((0#32 : BitVec 32).sle v) = 1#1
  rw [h0]; rfl

/-- A word in the range of 128 positions is at most 127. -/
theorem cmpi_sle_127 {v : BitVec 32} (hv : InRange 128 v) : IntOp.cmpi .sle v 127#32 = 1#1 := by
  have h0 : v.sle 127#32 = true := by
    rw [BitVec.sle_iff_toInt_le]
    have : (127#32 : BitVec 32).toInt = 127 := by decide
    rw [this]; have := hv.2; omega
  show BitVec.ofBool (v.sle 127#32) = 1#1
  rw [h0]; rfl

/-- A word in the range of 9 positions is at most 8. -/
theorem cmpi_sle_8 {v : BitVec 32} (hv : InRange 9 v) : IntOp.cmpi .sle v 8#32 = 1#1 := by
  have h0 : v.sle 8#32 = true := by
    rw [BitVec.sle_iff_toInt_le]
    have : (8#32 : BitVec 32).toInt = 8 := by decide
    rw [this]; have := hv.2; omega
  show BitVec.ofBool (v.sle 8#32) = 1#1
  rw [h0]; rfl

/-! ## The conjunction over an axis of bits that are all one -/

theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a]
    have : IntOp.andi 1#1 1#1 = 1#1 := by decide
    rw [this]
    exact foldl_andi_one f hf l

/-- A reduction by "and" from the bit 1 over bits that are all 1 is 1. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x hx _

/-! ## The index tables' reshapes and broadcasts at an element -/

theorem reshape_rows_apply (v : S256x128x1x1.Idx → α) (hsc : S256x128x1x1.ShapeCasts S256x128x1) (b : Fin 256) (h : Fin 128) :
    shapeCast S256x128x1 v hsc (ix3 b h (0 : Fin 1)) = v (ix4 b h (0 : Fin 1) (0 : Fin 1)) := by
  refine shapeCast_apply v hsc _ _ ?_
  rw [Shape.rowMajor_val_four, Shape.rowMajor_val_three]
  simp

theorem reshape_cols_apply (v : S256x1x128x1.Idx → α) (hsc : S256x1x128x1.ShapeCasts S256x128x1) (b : Fin 256) (w : Fin 128) :
    shapeCast S256x128x1 v hsc (ix3 b w (0 : Fin 1)) = v (ix4 b (0 : Fin 1) w (0 : Fin 1)) := by
  refine shapeCast_apply v hsc _ _ ?_
  rw [Shape.rowMajor_val_four, Shape.rowMajor_val_three]
  simp

theorem reshape_chans_apply (v : S256x1x1x9.Idx → α) (hsc : S256x1x1x9.ShapeCasts S256x9x1) (b : Fin 256) (c : Fin 9) :
    shapeCast S256x9x1 v hsc (ix3 b c (0 : Fin 1)) = v (ix4 b (0 : Fin 1) (0 : Fin 1) c) := by
  refine shapeCast_apply v hsc _ _ ?_
  rw [Shape.rowMajor_val_four, Shape.rowMajor_val_three]
  simp

theorem bcast_rows_apply (v : S256x128.Idx → α) (hb : S256x128.BroadcastsInDim S256x128x1x1 ![0, 1]) (b : Fin 256) (h : Fin 128) :
    broadcastInDim S256x128x1x1 ![0, 1] hb v (ix4 b h (0 : Fin 1) (0 : Fin 1)) = v (ix2 b h) := by
  refine broadcastInDim_apply _ hb v _ _ ?_
  intro a
  match a with
  | ⟨0, _⟩ => rfl
  | ⟨1, _⟩ => rfl

theorem bcast_cols_apply (v : S256x128.Idx → α) (hb : S256x128.BroadcastsInDim S256x1x128x1 ![0, 2]) (b : Fin 256) (w : Fin 128) :
    broadcastInDim S256x1x128x1 ![0, 2] hb v (ix4 b (0 : Fin 1) w (0 : Fin 1)) = v (ix2 b w) := by
  refine broadcastInDim_apply _ hb v _ _ ?_
  intro a
  match a with
  | ⟨0, _⟩ => rfl
  | ⟨1, _⟩ => rfl

theorem bcast_chans_apply (v : S256x9.Idx → α) (hb : S256x9.BroadcastsInDim S256x1x1x9 ![0, 3]) (b : Fin 256) (c : Fin 9) :
    broadcastInDim S256x1x1x9 ![0, 3] hb v (ix4 b (0 : Fin 1) (0 : Fin 1) c) = v (ix2 b c) := by
  refine broadcastInDim_apply _ hb v _ _ ?_
  intro a
  match a with
  | ⟨0, _⟩ => rfl
  | ⟨1, _⟩ => rfl

/-! ## One re-reading at an element -/

/-- One re-reading along axis 1, at an element: with every word of the table a position, the normalisation leaves the
    words, the range mask is 1 everywhere, and the gather reads the operand at the named position. -/
theorem takeRows_apply (d : GatherDims S256x128x128x9 S256x128x1 S256x128x128x9)
    (hoff : d.offsetDims = [2, 3]) (hcoll : d.collapsedSliceDims = [1]) (hob : d.operandBatchingDims = [0])
    (hsb : d.startIndicesBatchingDims = [0]) (hsim : d.startIndexMap = [1]) (hivd : d.indexVectorDim = 2)
    (x : S256x128x128x9.Idx → α) (idx : IVec S256x128x1x1 32) (hin : ∀ i, InRange 128 (idx i))
    (z4 n4 : IVec S256x128x1x1 32) (hz4 : ∀ i, z4 i = 0#32) (hsc : S256x128x1x1.ShapeCasts S256x128x1)
    (z3 m3 : IVec S256x128x1 32) (hz3 : ∀ i, z3 i = 0#32) (hm3 : ∀ i, m3 i = 127#32)
    (one : IVec S_ 1) (hone : ∀ q, one q = 1#1) (hred : S256x128x1.ReducesTo [2] S256x128) (hu : 0 < S_.numel)
    (hbm : S256x128.BroadcastsInDim S256x128x128x9 ![0, 1]) (fill : S256x128x128x9.Idx → α)
    (b : Fin 256) (h w : Fin 128) (c : Fin 9) :
    select (broadcastInDim S256x128x128x9 ![0, 1] hbm (Host.reduce IntOp.andi (andi (cmpi .sge (shapeCast S256x128x1 (select (cmpi .slt idx z4) (addi idx n4) idx) hsc) z3) (cmpi .sle (shapeCast S256x128x1 (select (cmpi .slt idx z4) (addi idx n4) idx) hsc) m3)) one hred hu))
        (Host.gather d x (shapeCast S256x128x1 (select (cmpi .slt idx z4) (addi idx n4) idx) hsc)) fill (ix4 b h w c)
      = x (ix4 b (pos128 (idx (ix4 b h (0 : Fin 1) (0 : Fin 1)))) w c) := by
  have hnorm : ∀ q, (select (cmpi .slt idx z4) (addi idx n4) idx) q = idx q := by
    intro q
    show Scalar.select (IntOp.cmpi .slt (idx q) (z4 q)) _ _ = _
    rw [hz4, cmpi_slt_zero (hin q), select_zero]
  have hv5 : ∀ i, InRange 128 ((shapeCast S256x128x1 (select (cmpi .slt idx z4) (addi idx n4) idx) hsc) i) := by
    intro i
    show InRange 128 ((select (cmpi .slt idx z4) (addi idx n4) idx) (Shape.reshapeEquiv hsc i))
    rw [hnorm]; exact hin _
  have hr5 : (shapeCast S256x128x1 (select (cmpi .slt idx z4) (addi idx n4) idx) hsc) (ix3 b h (0 : Fin 1)) = idx (ix4 b h (0 : Fin 1) (0 : Fin 1)) := by
    rw [reshape_rows_apply, hnorm]
  generalize (shapeCast S256x128x1 (select (cmpi .slt idx z4) (addi idx n4) idx) hsc) = v5 at hv5 hr5 ⊢
  have hmask : ∀ j, Host.reduce IntOp.andi (andi (cmpi .sge v5 z3) (cmpi .sle v5 m3)) one hred hu j = 1#1 := by
    intro j
    refine reduce_andi_one _ _ hred hu j ?_ hone
    intro i
    show IntOp.andi (IntOp.cmpi .sge (v5 i) (z3 i)) (IntOp.cmpi .sle (v5 i) (m3 i)) = 1#1
    rw [hz3, hm3, cmpi_sge_zero (hv5 i), cmpi_sle_127 (hv5 i)]; decide
  have hb1 : broadcastInDim S256x128x128x9 ![0, 1] hbm
      (Host.reduce IntOp.andi (andi (cmpi .sge v5 z3) (cmpi .sle v5 m3)) one hred hu) (ix4 b h w c) = 1#1 := by
    unfold broadcastInDim; exact hmask _
  show Scalar.select (broadcastInDim S256x128x128x9 ![0, 1] hbm
      (Host.reduce IntOp.andi (andi (cmpi .sge v5 z3) (cmpi .sle v5 m3)) one hred hu) (ix4 b h w c))
    (Host.gather d x v5 (ix4 b h w c)) (fill (ix4 b h w c)) = _
  rw [hb1, select_one, gatherRows_apply d hoff hcoll hob hsb hsim hivd, hr5]

/-- One re-reading along axis 2, at an element: with every word of the table a position, the normalisation leaves the
    words, the range mask is 1 everywhere, and the gather reads the operand at the named position. -/
theorem takeCols_apply (d : GatherDims S256x128x128x9 S256x128x1 S256x128x128x9)
    (hoff : d.offsetDims = [1, 3]) (hcoll : d.collapsedSliceDims = [2]) (hob : d.operandBatchingDims = [0])
    (hsb : d.startIndicesBatchingDims = [0]) (hsim : d.startIndexMap = [2]) (hivd : d.indexVectorDim = 2)
    (x : S256x128x128x9.Idx → α) (idx : IVec S256x1x128x1 32) (hin : ∀ i, InRange 128 (idx i))
    (z4 n4 : IVec S256x1x128x1 32) (hz4 : ∀ i, z4 i = 0#32) (hsc : S256x1x128x1.ShapeCasts S256x128x1)
    (z3 m3 : IVec S256x128x1 32) (hz3 : ∀ i, z3 i = 0#32) (hm3 : ∀ i, m3 i = 127#32)
    (one : IVec S_ 1) (hone : ∀ q, one q = 1#1) (hred : S256x128x1.ReducesTo [2] S256x128) (hu : 0 < S_.numel)
    (hbm : S256x128.BroadcastsInDim S256x128x128x9 ![0, 2]) (fill : S256x128x128x9.Idx → α)
    (b : Fin 256) (h w : Fin 128) (c : Fin 9) :
    select (broadcastInDim S256x128x128x9 ![0, 2] hbm (Host.reduce IntOp.andi (andi (cmpi .sge (shapeCast S256x128x1 (select (cmpi .slt idx z4) (addi idx n4) idx) hsc) z3) (cmpi .sle (shapeCast S256x128x1 (select (cmpi .slt idx z4) (addi idx n4) idx) hsc) m3)) one hred hu))
        (Host.gather d x (shapeCast S256x128x1 (select (cmpi .slt idx z4) (addi idx n4) idx) hsc)) fill (ix4 b h w c)
      = x (ix4 b h (pos128 (idx (ix4 b (0 : Fin 1) w (0 : Fin 1)))) c) := by
  have hnorm : ∀ q, (select (cmpi .slt idx z4) (addi idx n4) idx) q = idx q := by
    intro q
    show Scalar.select (IntOp.cmpi .slt (idx q) (z4 q)) _ _ = _
    rw [hz4, cmpi_slt_zero (hin q), select_zero]
  have hv5 : ∀ i, InRange 128 ((shapeCast S256x128x1 (select (cmpi .slt idx z4) (addi idx n4) idx) hsc) i) := by
    intro i
    show InRange 128 ((select (cmpi .slt idx z4) (addi idx n4) idx) (Shape.reshapeEquiv hsc i))
    rw [hnorm]; exact hin _
  have hr5 : (shapeCast S256x128x1 (select (cmpi .slt idx z4) (addi idx n4) idx) hsc) (ix3 b w (0 : Fin 1)) = idx (ix4 b (0 : Fin 1) w (0 : Fin 1)) := by
    rw [reshape_cols_apply, hnorm]
  generalize (shapeCast S256x128x1 (select (cmpi .slt idx z4) (addi idx n4) idx) hsc) = v5 at hv5 hr5 ⊢
  have hmask : ∀ j, Host.reduce IntOp.andi (andi (cmpi .sge v5 z3) (cmpi .sle v5 m3)) one hred hu j = 1#1 := by
    intro j
    refine reduce_andi_one _ _ hred hu j ?_ hone
    intro i
    show IntOp.andi (IntOp.cmpi .sge (v5 i) (z3 i)) (IntOp.cmpi .sle (v5 i) (m3 i)) = 1#1
    rw [hz3, hm3, cmpi_sge_zero (hv5 i), cmpi_sle_127 (hv5 i)]; decide
  have hb1 : broadcastInDim S256x128x128x9 ![0, 2] hbm
      (Host.reduce IntOp.andi (andi (cmpi .sge v5 z3) (cmpi .sle v5 m3)) one hred hu) (ix4 b h w c) = 1#1 := by
    unfold broadcastInDim; exact hmask _
  show Scalar.select (broadcastInDim S256x128x128x9 ![0, 2] hbm
      (Host.reduce IntOp.andi (andi (cmpi .sge v5 z3) (cmpi .sle v5 m3)) one hred hu) (ix4 b h w c))
    (Host.gather d x v5 (ix4 b h w c)) (fill (ix4 b h w c)) = _
  rw [hb1, select_one, gatherCols_apply d hoff hcoll hob hsb hsim hivd, hr5]

/-- One re-reading along axis 3, at an element: with every word of the table a position, the normalisation leaves the
    words, the range mask is 1 everywhere, and the gather reads the operand at the named position. -/
theorem takeChans_apply (d : GatherDims S256x128x128x9 S256x9x1 S256x128x128x9)
    (hoff : d.offsetDims = [1, 2]) (hcoll : d.collapsedSliceDims = [3]) (hob : d.operandBatchingDims = [0])
    (hsb : d.startIndicesBatchingDims = [0]) (hsim : d.startIndexMap = [3]) (hivd : d.indexVectorDim = 2)
    (x : S256x128x128x9.Idx → α) (idx : IVec S256x1x1x9 32) (hin : ∀ i, InRange 9 (idx i))
    (z4 n4 : IVec S256x1x1x9 32) (hz4 : ∀ i, z4 i = 0#32) (hsc : S256x1x1x9.ShapeCasts S256x9x1)
    (z3 m3 : IVec S256x9x1 32) (hz3 : ∀ i, z3 i = 0#32) (hm3 : ∀ i, m3 i = 8#32)
    (one : IVec S_ 1) (hone : ∀ q, one q = 1#1) (hred : S256x9x1.ReducesTo [2] S256x9) (hu : 0 < S_.numel)
    (hbm : S256x9.BroadcastsInDim S256x128x128x9 ![0, 3]) (fill : S256x128x128x9.Idx → α)
    (b : Fin 256) (h w : Fin 128) (c : Fin 9) :
    select (broadcastInDim S256x128x128x9 ![0, 3] hbm (Host.reduce IntOp.andi (andi (cmpi .sge (shapeCast S256x9x1 (select (cmpi .slt idx z4) (addi idx n4) idx) hsc) z3) (cmpi .sle (shapeCast S256x9x1 (select (cmpi .slt idx z4) (addi idx n4) idx) hsc) m3)) one hred hu))
        (Host.gather d x (shapeCast S256x9x1 (select (cmpi .slt idx z4) (addi idx n4) idx) hsc)) fill (ix4 b h w c)
      = x (ix4 b h w (pos9 (idx (ix4 b (0 : Fin 1) (0 : Fin 1) c)))) := by
  have hnorm : ∀ q, (select (cmpi .slt idx z4) (addi idx n4) idx) q = idx q := by
    intro q
    show Scalar.select (IntOp.cmpi .slt (idx q) (z4 q)) _ _ = _
    rw [hz4, cmpi_slt_zero (hin q), select_zero]
  have hv5 : ∀ i, InRange 9 ((shapeCast S256x9x1 (select (cmpi .slt idx z4) (addi idx n4) idx) hsc) i) := by
    intro i
    show InRange 9 ((select (cmpi .slt idx z4) (addi idx n4) idx) (Shape.reshapeEquiv hsc i))
    rw [hnorm]; exact hin _
  have hr5 : (shapeCast S256x9x1 (select (cmpi .slt idx z4) (addi idx n4) idx) hsc) (ix3 b c (0 : Fin 1)) = idx (ix4 b (0 : Fin 1) (0 : Fin 1) c) := by
    rw [reshape_chans_apply, hnorm]
  generalize (shapeCast S256x9x1 (select (cmpi .slt idx z4) (addi idx n4) idx) hsc) = v5 at hv5 hr5 ⊢
  have hmask : ∀ j, Host.reduce IntOp.andi (andi (cmpi .sge v5 z3) (cmpi .sle v5 m3)) one hred hu j = 1#1 := by
    intro j
    refine reduce_andi_one _ _ hred hu j ?_ hone
    intro i
    show IntOp.andi (IntOp.cmpi .sge (v5 i) (z3 i)) (IntOp.cmpi .sle (v5 i) (m3 i)) = 1#1
    rw [hz3, hm3, cmpi_sge_zero (hv5 i), cmpi_sle_8 (hv5 i)]; decide
  have hb1 : broadcastInDim S256x128x128x9 ![0, 3] hbm
      (Host.reduce IntOp.andi (andi (cmpi .sge v5 z3) (cmpi .sle v5 m3)) one hred hu) (ix4 b h w c) = 1#1 := by
    unfold broadcastInDim; exact hmask _
  show Scalar.select (broadcastInDim S256x128x128x9 ![0, 3] hbm
      (Host.reduce IntOp.andi (andi (cmpi .sge v5 z3) (cmpi .sle v5 m3)) one hred hu) (ix4 b h w c))
    (Host.gather d x v5 (ix4 b h w c)) (fill (ix4 b h w c)) = _
  rw [hb1, select_one, gatherChans_apply d hoff hcoll hob hsb hsim hivd, hr5]

/-! ## The three re-readings as the reference composes them -/

theorem takeRows_eq (x : FVec Ideal S256x128x128x9 .f32) (idx : IVec S256x128x1x1 32) (hin : ∀ i, InRange 128 (idx i))
    (b : Fin 256) (h w : Fin 128) (c : Fin 9) :
    takeRows x idx (ix4 b h w c) = x (ix4 b (pos128 (idx (ix4 b h (0 : Fin 1) (0 : Fin 1)))) w c) := by
  unfold takeRows
  dsimp only
  refine takeRows_apply gather_S256x128x128x9_S256x128x1_S256x128x128x9_23_1_0_0_1_2_111289 rfl rfl rfl rfl rfl rfl x idx hin
    _ _ ?_ _ _ _ ?_ ?_ _ ?_ _ _ _ _ b h w c
  · intro _; rfl
  · intro _; rfl
  · intro _; rfl
  · intro _; rfl

theorem takeCols_eq (x : FVec Ideal S256x128x128x9 .f32) (idx : IVec S256x1x128x1 32) (hin : ∀ i, InRange 128 (idx i))
    (b : Fin 256) (h w : Fin 128) (c : Fin 9) :
    takeCols x idx (ix4 b h w c) = x (ix4 b h (pos128 (idx (ix4 b (0 : Fin 1) w (0 : Fin 1)))) c) := by
  unfold takeCols
  dsimp only
  refine takeCols_apply gather_S256x128x128x9_S256x128x1_S256x128x128x9_13_2_0_0_2_2_112819 rfl rfl rfl rfl rfl rfl x idx hin
    _ _ ?_ _ _ _ ?_ ?_ _ ?_ _ _ _ _ b h w c
  · intro _; rfl
  · intro _; rfl
  · intro _; rfl
  · intro _; rfl

theorem takeChans_eq (x : FVec Ideal S256x128x128x9 .f32) (idx : IVec S256x1x1x9 32) (hin : ∀ i, InRange 9 (idx i))
    (b : Fin 256) (h w : Fin 128) (c : Fin 9) :
    takeChans x idx (ix4 b h w c) = x (ix4 b h w (pos9 (idx (ix4 b (0 : Fin 1) (0 : Fin 1) c)))) := by
  unfold takeChans
  dsimp only
  refine takeChans_apply gather_S256x128x128x9_S256x9x1_S256x128x128x9_12_3_0_0_3_2_11281281 rfl rfl rfl rfl rfl rfl x idx hin
    _ _ ?_ _ _ _ ?_ ?_ _ ?_ _ _ _ _ b h w c
  · intro _; rfl
  · intro _; rfl
  · intro _; rfl
  · intro _; rfl

/-! ## The reference's channel map is the common one -/

theorem tab0_eq : Term.tab0 = Cert.Flip.tab0 := by
  funext i
  exact (by decide : ∀ k : Fin 9, lit0 k = perm0 k) _

theorem tab1_eq : Term.tab1 = Cert.Flip.tab1 := by
  funext i
  exact (by decide : ∀ k : Fin 9, lit1 k = perm1 k) _

theorem tab2_eq : Term.tab2 = Cert.Flip.tab2 := by
  funext i
  exact (by decide : ∀ k : Fin 9, lit2 k = perm2 k) _

theorem chan1_eq (f : IVec S256x3 32) : chan1 f = Cert.Flip.start f := by
  unfold Cert.Flip.start
  rw [← tab0_eq]
  rfl

theorem chan2_eq (f : IVec S256x3 32) (p : IVec S256x9 32) :
    chan2 f p = select (broadcastInDim SP ![0, 1] bcast_T256x1_SP (flag1 f))
      (Host.gather takeDims p (wrapIdx Cert.Flip.tab1)) p := by
  rw [← tab1_eq]
  rfl

theorem chan3_eq (f : IVec S256x3 32) (p : IVec S256x9 32) :
    chan3 f p = select (broadcastInDim SP ![0, 1] bcast_T256x1_SP (flag2 f))
      (Host.gather takeDims p (wrapIdx Cert.Flip.tab2)) p := by
  rw [← tab2_eq]
  rfl

theorem chanMap_eq (f : IVec S256x3 32) : chanMap f = pchain f := by
  unfold chanMap pchain step1
  rw [chan3_eq, chan2_eq, chan1_eq]

/-! ## The reference's term -/

theorem refOut_eq (x : FVec Ideal S256x128x128x9 .f32) (rp cp : IVec S256x128 32) (f : IVec S256x3 32)
    (hr : ∀ i : SI.Idx, InRange 128 (rp i)) (hc : ∀ i : SI.Idx, InRange 128 (cp i)) :
    refOut x rp cp f = G x rp cp (pchain f) := by
  funext i
  obtain ⟨b, h, w, c, rfl⟩ : ∃ (b : Fin 256) (h w : Fin 128) (c : Fin 9), i = ix4 b h w c :=
    ⟨i 0, i 1, i 2, i 3, eq_ix4 i⟩
  have hR : ∀ (hb : S256x128.BroadcastsInDim S256x128x1x1 ![0, 1]) (j : S256x128x1x1.Idx),
      InRange 128 (broadcastInDim S256x128x1x1 ![0, 1] hb rp j) := fun _ _ => hr _
  have hC : ∀ (hb : S256x128.BroadcastsInDim S256x1x128x1 ![0, 2]) (j : S256x1x128x1.Idx),
      InRange 128 (broadcastInDim S256x1x128x1 ![0, 2] hb cp j) := fun _ _ => hc _
  have hP : ∀ (hb : S256x9.BroadcastsInDim S256x1x1x9 ![0, 3]) (j : S256x1x1x9.Idx),
      InRange 9 (broadcastInDim S256x1x1x9 ![0, 3] hb (chanMap f) j) := by
    intro hb j
    rw [chanMap_eq]
    exact pchain_range f _
  unfold refOut
  rw [takeChans_eq _ _ (hP _), takeCols_eq _ _ (hC _), takeRows_eq _ _ (hR _), bcast_chans_apply, bcast_cols_apply,
    bcast_rows_apply, chanMap_eq, G_apply]

end Cert.ReferenceIdeal.RefValue

end
-- ==== Proof.PreDecode.lean ====
/-
  What the precondition says of the two index tables: every word of row_perm and of col_perm, read signed, is a
  position 0 … 127.

  The precondition is a conjunction (a bitwise and of one-bit words) of five "for all entries" tests. A conjunction
  that is 1 has every conjunct 1; a "for all" over an array of one-bit words that is 1 has every entry 1; and an entry
  of a signed comparison against the literal 0 (resp. 128) being 1 says 0 ≤ v (resp. v < 128) of the word compared.
-/
import proofs.«430446_j88493506166927_3_alg».proof.Proof.Gen.Pre_finite_inputs
import proofs.«430446_j88493506166927_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Flip

/-- The rank-0 shape has exactly one index. -/
instance : Subsingleton Cert.Pre_finite_inputs.S_.Idx := ⟨fun a b => funext fun d => d.elim0⟩

/-- A word that tests "signed ≥ 0" is nonnegative. -/
theorem nonneg_of_sge_zero {v : BitVec 32} (h : IntOp.cmpi .sge v 0#32 = 1#1) : 0 ≤ v.toInt := by
  rw [IntOp.cmpi_sge, show (0#32 : BitVec 32).toInt = 0 from by decide] at h
  exact h

/-- A word that tests "signed < 128" is below 128. -/
theorem lt_of_slt_128 {v : BitVec 32} (h : IntOp.cmpi .slt v 128#32 = 1#1) : v.toInt < 128 := by
  rw [IntOp.cmpi_slt, show (128#32 : BitVec 32).toInt = 128 from by decide] at h
  exact h

/-- The two "for all entries" tests of one table, both 1: every entry of the table is a position 0 … 127. -/
theorem inRange_of_tests [Cert.Pre_finite_inputs.Facts] (v : IVec Cert.Pre_finite_inputs.S256x128 32)
    (init₀ init₁ : IVec Cert.Pre_finite_inputs.S_ 1)
    (h₀ : Host.reduce IntOp.andi
        (cmpi .sge v (broadcastInDim Cert.Pre_finite_inputs.S256x128 ![] Cert.Pre_finite_inputs.Facts.bcast_S_S256x128
          (constantI Cert.Pre_finite_inputs.S_ 32 0#32)))
        init₀ Cert.Pre_finite_inputs.Facts.reducesTo_S256x128_S_d0_1 Cert.Pre_finite_inputs.Facts.h_S_ ix0 = 1#1)
    (h₁ : Host.reduce IntOp.andi
        (cmpi .slt v (broadcastInDim Cert.Pre_finite_inputs.S256x128 ![] Cert.Pre_finite_inputs.Facts.bcast_S_S256x128
          (constantI Cert.Pre_finite_inputs.S_ 32 128#32)))
        init₁ Cert.Pre_finite_inputs.Facts.reducesTo_S256x128_S_d0_1 Cert.Pre_finite_inputs.Facts.h_S_ ix0 = 1#1)
    (i : SI.Idx) : InRange 128 (v i) := by
  have e₀ := Host.reduce_andi_all _ _ _ _ _ h₀ i
  have e₁ := Host.reduce_andi_all _ _ _ _ _ h₁ i
  exact ⟨nonneg_of_sge_zero e₀, by exact_mod_cast lt_of_slt_128 e₁⟩

theorem ranges_of_pre (x : FVec Ideal Cert.Pre_finite_inputs.S256x128x128x9 .f32)
    (rp cp : IVec Cert.Pre_finite_inputs.S256x128 32) (f : IVec Cert.Pre_finite_inputs.S256x3 32)
    (h : Cert.Pre_finite_inputs.fn (F := Ideal) x rp cp f = fun _ => 1#1) :
    (∀ i : SI.Idx, InRange 128 (rp i)) ∧ (∀ i : SI.Idx, InRange 128 (cp i)) := by
  have h0 := congrFun h ix0
  unfold Cert.Pre_finite_inputs.fn Cert.Pre_finite_inputs.fn_part1 at h0
  simp only [andi, IntOp.andi_eq_one] at h0
  obtain ⟨⟨⟨⟨_, hR0⟩, hR1⟩, hC0⟩, hC1⟩ := h0
  exact ⟨inRange_of_tests rp _ _ hR0 hR1, inRange_of_tests cp _ _ hC0 hC1⟩

end Cert.PreDecode

end
-- ==== Proof.lean ====
/-
  Equivalence of a selector-product kernel with its gather reference.

  Both programs take x : [256, 128, 128, 9], two tables row_perm, col_perm : [256, 128] of positions and three flags
  per sample, and return, at (b, h, w, c), the entry x[b, row_perm[b, h], col_perm[b, w], p[b, c]], where p[b, ·] is a
  channel map chosen by the sample's flags among compositions of three fixed permutations.

  The reference re-reads x through the tables with three gathers. The kernel instead multiplies each sample by 0/1
  selector matrices built from the tables (rows on the left, columns on the right) and mixes the nine channel planes
  with a 9 × 9 selector built from p. Over the extended reals a selector row with exactly one 1 turns each contraction
  into the single term it selects, a zero factor annihilating every other term; so the two results agree entry by entry
  as soon as the table words are positions 0 … 127, which is what the precondition says. The channel map is always a
  position 0 … 8, whatever the flags.

  The three frames are the generated frames of the two kernel programs and the reference's straight-line run; the
  idealization rewrote nothing, so its conjunct is trivial.
-/
import proofs.«430446_j88493506166927_3_alg».proof.Defs
import proofs.«430446_j88493506166927_3_alg».proof.Proof.Gen.Kernel
import proofs.«430446_j88493506166927_3_alg».proof.Proof.Gen.Kernel.Frame
import proofs.«430446_j88493506166927_3_alg».proof.Proof.Gen.KernelIdeal
import proofs.«430446_j88493506166927_3_alg».proof.Proof.Gen.KernelIdeal.Frame
import proofs.«430446_j88493506166927_3_alg».proof.Proof.Gen.ReferenceIdeal
import proofs.«430446_j88493506166927_3_alg».proof.Proof.Gen.Pre_finite_inputs
import proofs.«430446_j88493506166927_3_alg».proof.Proof.Spec
import proofs.«430446_j88493506166927_3_alg».proof.Proof.PChain
import proofs.«430446_j88493506166927_3_alg».proof.Proof.KValue
import proofs.«430446_j88493506166927_3_alg».proof.Proof.RRun
import proofs.«430446_j88493506166927_3_alg».proof.Proof.RValue
import proofs.«430446_j88493506166927_3_alg».proof.Proof.PreDecode

noncomputable section

namespace Cert.Proof

open Idealize.ShloMosaic Idealize.SL.Sem Cert.Flip

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Run.run m ρ)

/-- Both runs end at the one function `G` of the arguments: the kernel's by its value, the reference's by its term
    read entry by entry, the tables' words being positions by the precondition. -/
theorem algebraic : Cert.algebraic_KernelIdeal_ReferenceIdeal := by
  intro m ρ m' ρ' hpre hagree
  have hrg := fun c => Cert.PreDecode.ranges_of_pre _ _ _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (pchain (m ((c.tc : Thread Cert.KernelIdeal.nD Cert.KernelIdeal.τ).loc Cert.KernelIdeal.main_arg3))),
    Cert.KernelIdeal.Value.kernel_run m ρ (fun c => (hrg c).1) (fun c => (hrg c).2), ?_⟩
  refine (θ_run Cert.ReferenceIdeal.defs _ _).mono (fun _ h c => ⟨(h c).1.trans ?_, (h c).2⟩)
    (Cert.ReferenceIdeal.Run.run m' ρ')
  rw [(hagree c).1, (hagree c).2.1, (hagree c).2.2.1, (hagree c).2.2.2]
  exact Cert.ReferenceIdeal.RefValue.refOut_eq _ _ _ _ (hrg c).1 (hrg c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
